-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg1 : IVec S2x800000 32) (main_arg5 : FVec F S128 .f32) (main_arg6 : FVec F S256x128 .f32) (main_arg7 : FVec F S128 .f32) (main_arg8 : FVec F S128x40 .f32) (main_arg9 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S256x256 .f32) (main_arg3 : FVec F S256 .f32) (main_arg4 : FVec F S256x128 .f32) (main_arg5 : FVec F S128 .f32) (main_arg6 : FVec F S256x128 .f32) (main_arg7 : FVec F S128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128x256 : Shape := ⟨2, ![128, 256]⟩
abbrev S1x256 : Shape := ⟨2, ![1, 256]⟩
abbrev S800000x256 : Shape := ⟨2, ![800000, 256]⟩
abbrev S8000x128 : Shape := ⟨2, ![8000, 128]⟩
abbrev S8000x256 : Shape := ⟨2, ![8000, 256]⟩
abbrev S50000x256 : Shape := ⟨2, ![50000, 256]⟩
abbrev S50000 : Shape := ⟨1, ![50000]⟩
abbrev S50000x1 : Shape := ⟨2, ![50000, 1]⟩
abbrev S1x128 : Shape := ⟨2, ![1, 128]⟩
abbrev S5000x256 : Shape := ⟨2, ![5000, 256]⟩
abbrev S5000x1 : Shape := ⟨2, ![5000, 1]⟩
abbrev S5000x128 : Shape := ⟨2, ![5000, 128]⟩
abbrev S128x128 : Shape := ⟨2, ![128, 128]⟩
abbrev S1x40 : Shape := ⟨2, ![1, 40]⟩
abbrev S800000x40 : Shape := ⟨2, ![800000, 40]⟩
abbrev S8000x40 : Shape := ⟨2, ![8000, 40]⟩
abbrev S8000 : Shape := ⟨1, ![8000]⟩
abbrev S8000x1 : Shape := ⟨2, ![8000, 1]⟩

abbrev nBuf : Space → Nat
  | .hbm => 128
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x128, .f32⟩
  | .hbm, ⟨33, _⟩ => ⟨S800000x128, .i1⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S128x256, .f32⟩
  | .hbm, ⟨61, _⟩ => ⟨S128x256, .f32⟩
  | .hbm, ⟨62, _⟩ => ⟨S1x256, .f32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S50000x1, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S1, .i32⟩
  | .hbm, ⟨86, _⟩ => ⟨S_, .i32⟩
  | .hbm, ⟨87, _⟩ => ⟨S800000x1, .i32⟩
  | .hbm, ⟨88, _⟩ => ⟨S800000x1, .i1⟩
  | .hbm, ⟨89, _⟩ => ⟨S1x1, .i32⟩
  | .hbm, ⟨90, _⟩ => ⟨S800000x1, .i32⟩
  | .hbm, ⟨91, _⟩ => ⟨S800000x1, .i1⟩
  | .hbm, ⟨92, _⟩ => ⟨S800000x1, .i1⟩
  | .hbm, ⟨93, _⟩ => ⟨S_, .i1⟩
  | .hbm, ⟨94, _⟩ => ⟨S800000, .i1⟩
  | .hbm, ⟨95, _⟩ => ⟨S800000x128, .f32⟩
  | .hbm, ⟨96, _⟩ => ⟨S800000x128, .i1⟩
  | .hbm, ⟨97, _⟩ => ⟨S_, .f32⟩
  | .hbm, ⟨98, _⟩ => ⟨S800000x128, .f32⟩
  | .hbm, ⟨99, _⟩ => ⟨S800000x128, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S1, .i32⟩
  | .hbm, ⟨109, _⟩ => ⟨S_, .i32⟩
  | .hbm, ⟨110, _⟩ => ⟨S800000x1, .i32⟩
  | .hbm, ⟨111, _⟩ => ⟨S800000x1, .i1⟩
  | .hbm, ⟨112, _⟩ => ⟨S1x1, .i32⟩
  | .hbm, ⟨113, _⟩ => ⟨S800000x1, .i32⟩
  | .hbm, ⟨114, _⟩ => ⟨S800000x1, .i1⟩
  | .hbm, ⟨115, _⟩ => ⟨S800000x1, .i1⟩
  | .hbm, ⟨116, _⟩ => ⟨S_, .i1⟩
  | .hbm, ⟨117, _⟩ => ⟨S800000, .i1⟩
  | .hbm, ⟨118, _⟩ => ⟨S800000x128, .f32⟩
  | .hbm, ⟨119, _⟩ => ⟨S800000x128, .i1⟩
  | .hbm, ⟨120, _⟩ => ⟨S_, .f32⟩
  | .hbm, ⟨121, _⟩ => ⟨S800000x128, .f32⟩
  | .hbm, ⟨122, _⟩ => ⟨S800000x128, .f32⟩
  | .hbm, ⟨123, _⟩ => ⟨S128x128, .f32⟩
  | .hbm, ⟨124, _⟩ => ⟨S128x128, .f32⟩
  | .hbm, ⟨125, _⟩ => ⟨S1x128, .f32⟩
  | .hbm, ⟨126, _⟩ => ⟨S1x40, .f32⟩
  | .hbm, ⟨127, _⟩ => ⟨S800000x40, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S8000x256, .f32⟩
  | .local _ .vmem, ⟨8, _⟩ => ⟨S8000x256, .f32⟩
  | .local _ .vmem, ⟨9, _⟩ => ⟨S5000x256, .f32⟩
  | .local _ .vmem, ⟨10, _⟩ => ⟨S5000x256, .f32⟩
  | .local _ .vmem, ⟨11, _⟩ => ⟨S5000x1, .f32⟩
  | .local _ .vmem, ⟨12, _⟩ => ⟨S5000x1, .f32⟩
  | .local _ .vmem, ⟨13, _⟩ => ⟨S256x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S128x40, .f32⟩
  | .local _ .vmem, ⟨25, _⟩ => ⟨S1x40, .f32⟩
  | .local _ .vmem, ⟨26, _⟩ => ⟨S8000x40, .f32⟩
  | .local _ .vmem, ⟨27, _⟩ => ⟨S8000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst_0 : Ref sig .tc := ⟨.hbm, 68, rfl⟩
abbrev main_v13 : Ref sig .tc := ⟨.hbm, 69, rfl⟩
abbrev main_cst_1 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v20 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v21 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x256_S128x256_0_0 : S256x256.Slices ![0, 0] S128x256
  slices_S256x256_S128x256_128_0 : S256x256.Slices ![128, 0] S128x256
  shapeCasts_S256_S1x256 : S256.ShapeCasts S1x256
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  bcast_S_S50000x256 : S_.BroadcastsInDim S50000x256 (![] : Fin 0 → Fin S50000x256.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S5000x1_S5000x256 : S5000x1.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S256x128_S128x128_0_0 : S256x128.Slices ![0, 0] S128x128
  slices_S256x128_S128x128_128_0 : S256x128.Slices ![128, 0] S128x128
  shapeCasts_S40_S1x40 : S40.ShapeCasts S1x40
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S8000x128 : S1x128.Broadcasts S8000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S8000x40 : S1x40.Broadcasts S8000x40
  reduces_S8000x40_S8000 : S8000x40.Reduces [1] S8000
  shapeCasts_S8000_S8000x1 : S8000.ShapeCasts S8000x1
  broadcasts_S8000x1_S8000x40 : S8000x1.Broadcasts S8000x40
  inb_S8000x40_S8000x40_0_0 : ∀ a, (![0, 0] : Fin 2 → Nat) a + S8000x40.size a ≤ S8000x40.size a
  h_S8000x40 : 0 < S8000x40.numel
  gather_S50000x128_S800000x1_S800000x128_1_0_n_n_0_1_1128_wf : GatherDims.WF S50000x128 S800000x1 S800000x128 [1] [0] [] [0] [] 1 ![1, 128]
  dot_S8000x128_S128x256_S8000x256_1_0_0_1_n_n_wf : DotDims.WF S8000x128 S128x256 S8000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  dot_S8000x128_S128x128_S8000x128_1_0_0_1_n_n_wf : DotDims.WF S8000x128 S128x128 S8000x128 [1] [0] [0] [1] [] []
  dot_S8000x128_S128x40_S8000x40_1_0_0_1_n_n_wf : DotDims.WF S8000x128 S128x40 S8000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x256.size a ≤ S800000x256.size a
  hwx0_5 : ∀ i : grid0.Coords, EltTy.bits .f32 = 32 ∨ (Rect.block (s := S800000x256) S8000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x40.size a ≤ S128x40.size a
  hwx2_5 : ∀ i : grid2.Coords, EltTy.bits .f32 = 32 ∨ (Rect.block (s := S128x40) S128x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x40.size a ≤ S800000x40.size a
  hwx2_7 : ∀ i : grid2.Coords, EltTy.bits .f32 = 32 ∨ (Rect.block (s := S800000x40) S8000x40.size (cc2_transform_7 i) (hinb2_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x40_S8000x40_1_0_0_1_n_n : DotDims S8000x128 S128x40 S8000x40 where
  lhsContracting := [1]
  rhsContracting := [0]
  lhsNonContracting := [0]
  rhsNonContracting := [1]
  lhsBatch := []
  rhsBatch := []
  wf := dot_S8000x128_S128x40_S8000x40_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S8000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v20) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S8000x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩
abbrev S50000x256 : Shape := ⟨2, ![50000, 256]⟩
abbrev S50000 : Shape := ⟨1, ![50000]⟩
abbrev S50000x1 : Shape := ⟨2, ![50000, 1]⟩
abbrev S1x128 : Shape := ⟨2, ![1, 128]⟩
abbrev S800000x40 : Shape := ⟨2, ![800000, 40]⟩
abbrev S1x40 : Shape := ⟨2, ![1, 40]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x256, .f32⟩
  | .hbm, ⟨33, _⟩ => ⟨S800000x256, .f32⟩
  | .hbm, ⟨34, _⟩ => ⟨S1x256, .f32⟩
  | .hbm, ⟨35, _⟩ => ⟨S800000x256, .f32⟩
  | .hbm, ⟨36, _⟩ => ⟨S800000x256, .f32⟩
  | .hbm, ⟨37, _⟩ => ⟨S_, .f32⟩
  | .hbm, ⟨38, _⟩ => ⟨S800000x256, .f32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S800000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S800000x256, .f32⟩
  | .hbm, ⟨82, _⟩ => ⟨S800000x128, .f32⟩
  | .hbm, ⟨83, _⟩ => ⟨S1x128, .f32⟩
  | .hbm, ⟨84, _⟩ => ⟨S800000x128, .f32⟩
  | .hbm, ⟨85, _⟩ => ⟨S800000x128, .f32⟩
  | .hbm, ⟨86, _⟩ => ⟨S_, .f32⟩
  | .hbm, ⟨87, _⟩ => ⟨S800000x128, .f32⟩
  | .hbm, ⟨88, _⟩ => ⟨S800000x128, .f32⟩
  | .hbm, ⟨89, _⟩ => ⟨S800000x40, .f32⟩
  | .hbm, ⟨90, _⟩ => ⟨S1x40, .f32⟩
  | .hbm, ⟨91, _⟩ => ⟨S800000x40, .f32⟩
  | .hbm, ⟨92, _⟩ => ⟨S800000x40, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S800000, .f32⟩
  | .hbm, ⟨97, _⟩ => ⟨S800000, .f32⟩
  | .hbm, ⟨98, _⟩ => ⟨S800000x1, .f32⟩
  | .hbm, ⟨99, _⟩ => ⟨S800000x40, .f32⟩
  | .hbm, ⟨100, _⟩ => ⟨S800000x40, .f32⟩
  | .hbm, ⟨101, _⟩ => ⟨S800000x40, .f32⟩
  | .hbm, ⟨102, _⟩ => ⟨S_, .f32⟩
  | .hbm, ⟨103, _⟩ => ⟨S800000, .f32⟩
  | .hbm, ⟨104, _⟩ => ⟨S800000x1, .f32⟩
  | .hbm, ⟨105, _⟩ => ⟨S800000x1, .f32⟩
  | .hbm, ⟨106, _⟩ => ⟨S800000x40, .f32⟩
  | .hbm, ⟨107, _⟩ => ⟨S800000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_c_6 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call3_cst : Ref sig .tc := ⟨.hbm, 93, rfl⟩
abbrev main_call3_v0 : Ref sig .tc := ⟨.hbm, 94, rfl⟩
abbrev main_call3_cst_0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_cst_1 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_v65 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S40_S1x40_1 : S40.BroadcastsInDim S1x40 (![1] : Fin 1 → Fin S1x40.rank)
  bcast_S1x40_S800000x40_0_1 : S1x40.BroadcastsInDim S800000x40 (![0, 1] : Fin 2 → Fin S800000x40.rank)
  reducesTo_S800000x40_S800000_d1 : S800000x40.ReducesTo [1] S800000
  h_S_ : 0 < S_.numel
  bcast_S800000x1_S800000x40_0_1 : S800000x1.BroadcastsInDim S800000x40 (![0, 1] : Fin 2 → Fin S800000x40.rank)
  gather_S50000x128_S800000x1_S800000x128_1_0_n_n_0_1_1128_wf : GatherDims.WF S50000x128 S800000x1 S800000x128 [1] [0] [] [0] [] 1 ![1, 128]
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S800000x256_S256x128_S800000x128_1_0_0_1_n_n_wf : DotDims.WF S800000x256 S256x128 S800000x128 [1] [0] [0] [1] [] []
  dot_S800000x128_S128x40_S800000x40_1_0_0_1_n_n_wf : DotDims.WF S800000x128 S128x40 S800000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x40_S800000x40_1_0_0_1_n_n : DotDims S800000x128 S128x40 S800000x40 where
  lhsContracting := [1]
  rhsContracting := [0]
  lhsNonContracting := [0]
  rhsNonContracting := [1]
  lhsBatch := []
  rhsBatch := []
  wf := dot_S800000x128_S128x40_S800000x40_1_0_0_1_n_n_wf

class Facts : Prop extends Facts₀ where

variable [Facts]
-- ==== Proof.TakeRows.lean ====
/-
  Rows of a node table taken at the indices of an edge list, as the idealized kernel program's host operations
  spell `jnp.take`: the edge list's two rows sliced out, a negative index wrapped once by the table's length, the rows
  gathered at the wrapped indices, and a gathered row replaced by the fill word where the wrapped index is outside
  `0 … 49999`.
-/
import proofs.«428226_j5557687681586_1_alg».proof.Proof.Gen.KernelIdeal
import Idealize.ShloMosaic.PureOps.Ideal

noncomputable section

namespace Cert.KernelIdeal.Fold

open Cert.KernelIdeal
open Idealize.ShloMosaic

variable {F : FTy → Type} [FloatOps F]

/-- Row 0 of the edge list: the source node of each edge. -/
def srcOf (e : IVec S2x800000 32) : IVec S800000 32 :=
  shapeCast S800000 (extractStridedSlice S1x800000 ![0, 0] e Facts₀.slices_S2x800000_S1x800000_0_0) Facts₀.shapeCasts_S1x800000_S800000

/-- Row 1 of the edge list: the destination node of each edge. -/
def dstOf (e : IVec S2x800000 32) : IVec S800000 32 :=
  shapeCast S800000 (extractStridedSlice S1x800000 ![1, 0] e Facts₀.slices_S2x800000_S1x800000_1_0) Facts₀.shapeCasts_S1x800000_S800000

/-- The gather's start indices: a negative index has the table's length added once; as a column. -/
def idxCol (v : IVec S800000 32) : IVec S800000x1 32 :=
  broadcastInDim S800000x1 ![0] Facts₀.bcast_S800000_S800000x1_0
    (select (cmpi .slt v (broadcastInDim S800000 ![] Facts₀.bcast_S_S800000 (constantI S_ 32 0#32)))
      (addi v (broadcastInDim S800000 ![] Facts₀.bcast_S_S800000 (constantI S_ 32 50000#32))) v)

/-- Which start indices lie in `0 … 49999`. -/
def inRange (i : IVec S800000x1 32) : IVec S800000 1 :=
  Host.reduce IntOp.andi
    (andi (cmpi .sge i (broadcastInDim S800000x1 ![] Facts₀.bcast_S_S800000x1 (constantI S_ 32 0#32)))
      (cmpi .sle i (broadcastInDim S800000x1 ![0, 1] Facts₀.bcast_S1x1_S800000x1_0_1
        (broadcastInDim S1x1 ![1] Facts₀.bcast_S1_S1x1_1 (constantI S1 32 49999#32)))))
    (constantI S_ 1 1#1) Facts₀.reducesTo_S800000x1_S800000_d1 Facts₀.h_S_

/-- `jnp.take` of rows: the gathered rows, a row of the fill word where the index is out of range. -/
def takeRows (x : FVec F S50000x128 .f32) (v : IVec S800000 32) : FVec F S800000x128 .f32 :=
  select (broadcastInDim S800000x128 ![0] Facts₀.bcast_S800000_S800000x128_0 (inRange (idxCol v)))
    (Host.gather gather_S50000x128_S800000x1_S800000x128_1_0_n_n_0_1_1128 x (idxCol v))
    (broadcastInDim S800000x128 ![] Facts₀.bcast_S_S800000x128 (constant (F := F) S_ .f32 0x7FC00000#32))

end Cert.KernelIdeal.Fold

end
-- ==== Proof.PlainTakeOps.lean ====
/- Lists of host operations re-spelt over plain references: the same operations, in the same order, each with
   its function ascribed at the contents types of its buffers. -/
import proofs.«428226_j5557687681586_1_alg».proof.Proof.Gen.KernelIdeal
import Idealize.ShloMosaic.Lib.StableHlo

noncomputable section

namespace Cert.KernelIdeal.Fold

open Cert.KernelIdeal Cert.KernelIdeal.Facts₀
open Idealize.ShloMosaic Idealize.ShloMosaic.TcCoe Idealize.ShloMosaic.StableHlo

variable {F : FTy → Type} [FloatOps F]

abbrev takeOps0 : List (HloOp τ sig (Elt F)) :=
  [ StableHlo.nullary main_call0_c (((constantI S_ 32 0#32)) : (⟨S_, .i32⟩ : BufTy).Contents (Elt F)),
    StableHlo.unary main_call0_c main_call0_v0 (((broadcastInDim S800000 ![] bcast_S_S800000)) : (⟨S_, .i32⟩ : BufTy).Contents (Elt F) → (⟨S800000, .i32⟩ : BufTy).Contents (Elt F)),
    StableHlo.binary main_v1 main_call0_v0 main_call0_v1 (((cmpi .slt)) : (⟨S800000, .i32⟩ : BufTy).Contents (Elt F) → (⟨S800000, .i32⟩ : BufTy).Contents (Elt F) → (⟨S800000, .i1⟩ : BufTy).Contents (Elt F)),
    StableHlo.nullary main_call0_c_0 (((constantI S_ 32 50000#32)) : (⟨S_, .i32⟩ : BufTy).Contents (Elt F)),
    StableHlo.unary main_call0_c_0 main_call0_v2 (((broadcastInDim S800000 ![] bcast_S_S800000)) : (⟨S_, .i32⟩ : BufTy).Contents (Elt F) → (⟨S800000, .i32⟩ : BufTy).Contents (Elt F)),
    StableHlo.binary main_v1 main_call0_v2 main_call0_v3 ((addi) : (⟨S800000, .i32⟩ : BufTy).Contents (Elt F) → (⟨S800000, .i32⟩ : BufTy).Contents (Elt F) → (⟨S800000, .i32⟩ : BufTy).Contents (Elt F)),
    StableHlo.ternary main_call0_v1 main_call0_v3 main_v1 main_call0_v4 ((select) : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call0_v4 main_call0_v5 (((broadcastInDim S800000x1 ![0] bcast_S800000_S800000x1_0)) : (⟨S800000, .i32⟩ : BufTy).Contents (Elt F) → (⟨S800000x1, .i32⟩ : BufTy).Contents (Elt F)),
    StableHlo.nullary main_call0_c_1 (((constantI S1 32 49999#32)) : (⟨S1, .i32⟩ : BufTy).Contents (Elt F)),
    StableHlo.nullary main_call0_c_2 (((constantI S_ 32 0#32)) : (⟨S_, .i32⟩ : BufTy).Contents (Elt F)),
    StableHlo.unary main_call0_c_2 main_call0_v6 (((broadcastInDim S800000x1 ![] bcast_S_S800000x1)) : (⟨S_, .i32⟩ : BufTy).Contents (Elt F) → (⟨S800000x1, .i32⟩ : BufTy).Contents (Elt F)),
    StableHlo.binary main_call0_v5 main_call0_v6 main_call0_v7 (((cmpi .sge)) : (⟨S800000x1, .i32⟩ : BufTy).Contents (Elt F) → (⟨S800000x1, .i32⟩ : BufTy).Contents (Elt F) → (⟨S800000x1, .i1⟩ : BufTy).Contents (Elt F)),
    StableHlo.unary main_call0_c_1 main_call0_v8 (((broadcastInDim S1x1 ![1] bcast_S1_S1x1_1)) : (⟨S1, .i32⟩ : BufTy).Contents (Elt F) → (⟨S1x1, .i32⟩ : BufTy).Contents (Elt F)),
    StableHlo.unary main_call0_v8 main_call0_v9 (((broadcastInDim S800000x1 ![0, 1] bcast_S1x1_S800000x1_0_1)) : (⟨S1x1, .i32⟩ : BufTy).Contents (Elt F) → (⟨S800000x1, .i32⟩ : BufTy).Contents (Elt F)),
    StableHlo.binary main_call0_v5 main_call0_v9 main_call0_v10 (((cmpi .sle)) : (⟨S800000x1, .i32⟩ : BufTy).Contents (Elt F) → (⟨S800000x1, .i32⟩ : BufTy).Contents (Elt F) → (⟨S800000x1, .i1⟩ : BufTy).Contents (Elt F)),
    StableHlo.binary main_call0_v7 main_call0_v10 main_call0_v11 ((andi) : (⟨S800000x1, .i1⟩ : BufTy).Contents (Elt F) → (⟨S800000x1, .i1⟩ : BufTy).Contents (Elt F) → (⟨S800000x1, .i1⟩ : BufTy).Contents (Elt F)),
    StableHlo.nullary main_call0_c_3 (((constantI S_ 1 1#1)) : (⟨S_, .i1⟩ : BufTy).Contents (Elt F)),
    StableHlo.binary main_call0_v11 main_call0_c_3 main_call0_v12 (((fun x v => Host.reduce IntOp.andi x v reducesTo_S800000x1_S800000_d1 h_S_)) : (⟨S800000x1, .i1⟩ : BufTy).Contents (Elt F) → (⟨S_, .i1⟩ : BufTy).Contents (Elt F) → (⟨S800000, .i1⟩ : BufTy).Contents (Elt F)),
    StableHlo.binary main_arg0 main_call0_v5 main_call0_v13 (((fun x i => Host.gather gather_S50000x128_S800000x1_S800000x128_1_0_n_n_0_1_1128 x i)) : (⟨S50000x128, .f32⟩ : BufTy).Contents (Elt F) → (⟨S800000x1, .i32⟩ : BufTy).Contents (Elt F) → (⟨S800000x128, .f32⟩ : BufTy).Contents (Elt F)),
    StableHlo.unary main_call0_v12 main_call0_v14 (((broadcastInDim S800000x128 ![0] bcast_S800000_S800000x128_0)) : (⟨S800000, .i1⟩ : BufTy).Contents (Elt F) → (⟨S800000x128, .i1⟩ : BufTy).Contents (Elt F)),
    StableHlo.nullary main_call0_cst (((constant S_ .f32 0x7FC00000#32)) : (⟨S_, .f32⟩ : BufTy).Contents (Elt F)),
    StableHlo.unary main_call0_cst main_call0_v15 (((broadcastInDim S800000x128 ![] bcast_S_S800000x128)) : (⟨S_, .f32⟩ : BufTy).Contents (Elt F) → (⟨S800000x128, .f32⟩ : BufTy).Contents (Elt F)),
    StableHlo.ternary main_call0_v14 main_call0_v13 main_call0_v15 main_v4 ((select) : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev takeOps1 : List (HloOp τ sig (Elt F)) :=
  [ StableHlo.nullary main_call1_c (((constantI S_ 32 0#32)) : (⟨S_, .i32⟩ : BufTy).Contents (Elt F)),
    StableHlo.unary main_call1_c main_call1_v0 (((broadcastInDim S800000 ![] bcast_S_S800000)) : (⟨S_, .i32⟩ : BufTy).Contents (Elt F) → (⟨S800000, .i32⟩ : BufTy).Contents (Elt F)),
    StableHlo.binary main_v3 main_call1_v0 main_call1_v1 (((cmpi .slt)) : (⟨S800000, .i32⟩ : BufTy).Contents (Elt F) → (⟨S800000, .i32⟩ : BufTy).Contents (Elt F) → (⟨S800000, .i1⟩ : BufTy).Contents (Elt F)),
    StableHlo.nullary main_call1_c_0 (((constantI S_ 32 50000#32)) : (⟨S_, .i32⟩ : BufTy).Contents (Elt F)),
    StableHlo.unary main_call1_c_0 main_call1_v2 (((broadcastInDim S800000 ![] bcast_S_S800000)) : (⟨S_, .i32⟩ : BufTy).Contents (Elt F) → (⟨S800000, .i32⟩ : BufTy).Contents (Elt F)),
    StableHlo.binary main_v3 main_call1_v2 main_call1_v3 ((addi) : (⟨S800000, .i32⟩ : BufTy).Contents (Elt F) → (⟨S800000, .i32⟩ : BufTy).Contents (Elt F) → (⟨S800000, .i32⟩ : BufTy).Contents (Elt F)),
    StableHlo.ternary main_call1_v1 main_call1_v3 main_v3 main_call1_v4 ((select) : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call1_v4 main_call1_v5 (((broadcastInDim S800000x1 ![0] bcast_S800000_S800000x1_0)) : (⟨S800000, .i32⟩ : BufTy).Contents (Elt F) → (⟨S800000x1, .i32⟩ : BufTy).Contents (Elt F)),
    StableHlo.nullary main_call1_c_1 (((constantI S1 32 49999#32)) : (⟨S1, .i32⟩ : BufTy).Contents (Elt F)),
    StableHlo.nullary main_call1_c_2 (((constantI S_ 32 0#32)) : (⟨S_, .i32⟩ : BufTy).Contents (Elt F)),
    StableHlo.unary main_call1_c_2 main_call1_v6 (((broadcastInDim S800000x1 ![] bcast_S_S800000x1)) : (⟨S_, .i32⟩ : BufTy).Contents (Elt F) → (⟨S800000x1, .i32⟩ : BufTy).Contents (Elt F)),
    StableHlo.binary main_call1_v5 main_call1_v6 main_call1_v7 (((cmpi .sge)) : (⟨S800000x1, .i32⟩ : BufTy).Contents (Elt F) → (⟨S800000x1, .i32⟩ : BufTy).Contents (Elt F) → (⟨S800000x1, .i1⟩ : BufTy).Contents (Elt F)),
    StableHlo.unary main_call1_c_1 main_call1_v8 (((broadcastInDim S1x1 ![1] bcast_S1_S1x1_1)) : (⟨S1, .i32⟩ : BufTy).Contents (Elt F) → (⟨S1x1, .i32⟩ : BufTy).Contents (Elt F)),
    StableHlo.unary main_call1_v8 main_call1_v9 (((broadcastInDim S800000x1 ![0, 1] bcast_S1x1_S800000x1_0_1)) : (⟨S1x1, .i32⟩ : BufTy).Contents (Elt F) → (⟨S800000x1, .i32⟩ : BufTy).Contents (Elt F)),
    StableHlo.binary main_call1_v5 main_call1_v9 main_call1_v10 (((cmpi .sle)) : (⟨S800000x1, .i32⟩ : BufTy).Contents (Elt F) → (⟨S800000x1, .i32⟩ : BufTy).Contents (Elt F) → (⟨S800000x1, .i1⟩ : BufTy).Contents (Elt F)),
    StableHlo.binary main_call1_v7 main_call1_v10 main_call1_v11 ((andi) : (⟨S800000x1, .i1⟩ : BufTy).Contents (Elt F) → (⟨S800000x1, .i1⟩ : BufTy).Contents (Elt F) → (⟨S800000x1, .i1⟩ : BufTy).Contents (Elt F)),
    StableHlo.nullary main_call1_c_3 (((constantI S_ 1 1#1)) : (⟨S_, .i1⟩ : BufTy).Contents (Elt F)),
    StableHlo.binary main_call1_v11 main_call1_c_3 main_call1_v12 (((fun x v => Host.reduce IntOp.andi x v reducesTo_S800000x1_S800000_d1 h_S_)) : (⟨S800000x1, .i1⟩ : BufTy).Contents (Elt F) → (⟨S_, .i1⟩ : BufTy).Contents (Elt F) → (⟨S800000, .i1⟩ : BufTy).Contents (Elt F)),
    StableHlo.binary main_arg0 main_call1_v5 main_call1_v13 (((fun x i => Host.gather gather_S50000x128_S800000x1_S800000x128_1_0_n_n_0_1_1128 x i)) : (⟨S50000x128, .f32⟩ : BufTy).Contents (Elt F) → (⟨S800000x1, .i32⟩ : BufTy).Contents (Elt F) → (⟨S800000x128, .f32⟩ : BufTy).Contents (Elt F)),
    StableHlo.unary main_call1_v12 main_call1_v14 (((broadcastInDim S800000x128 ![0] bcast_S800000_S800000x128_0)) : (⟨S800000, .i1⟩ : BufTy).Contents (Elt F) → (⟨S800000x128, .i1⟩ : BufTy).Contents (Elt F)),
    StableHlo.nullary main_call1_cst (((constant S_ .f32 0x7FC00000#32)) : (⟨S_, .f32⟩ : BufTy).Contents (Elt F)),
    StableHlo.unary main_call1_cst main_call1_v15 (((broadcastInDim S800000x128 ![] bcast_S_S800000x128)) : (⟨S_, .f32⟩ : BufTy).Contents (Elt F) → (⟨S800000x128, .f32⟩ : BufTy).Contents (Elt F)),
    StableHlo.ternary main_call1_v14 main_call1_v13 main_call1_v15 main_v5 ((select) : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev takeOps2 : List (HloOp τ sig (Elt F)) :=
  [ StableHlo.nullary main_call2_c (((constantI S_ 32 0#32)) : (⟨S_, .i32⟩ : BufTy).Contents (Elt F)),
    StableHlo.unary main_call2_c main_call2_v0 (((broadcastInDim S800000 ![] bcast_S_S800000)) : (⟨S_, .i32⟩ : BufTy).Contents (Elt F) → (⟨S800000, .i32⟩ : BufTy).Contents (Elt F)),
    StableHlo.binary main_v1 main_call2_v0 main_call2_v1 (((cmpi .slt)) : (⟨S800000, .i32⟩ : BufTy).Contents (Elt F) → (⟨S800000, .i32⟩ : BufTy).Contents (Elt F) → (⟨S800000, .i1⟩ : BufTy).Contents (Elt F)),
    StableHlo.nullary main_call2_c_0 (((constantI S_ 32 50000#32)) : (⟨S_, .i32⟩ : BufTy).Contents (Elt F)),
    StableHlo.unary main_call2_c_0 main_call2_v2 (((broadcastInDim S800000 ![] bcast_S_S800000)) : (⟨S_, .i32⟩ : BufTy).Contents (Elt F) → (⟨S800000, .i32⟩ : BufTy).Contents (Elt F)),
    StableHlo.binary main_v1 main_call2_v2 main_call2_v3 ((addi) : (⟨S800000, .i32⟩ : BufTy).Contents (Elt F) → (⟨S800000, .i32⟩ : BufTy).Contents (Elt F) → (⟨S800000, .i32⟩ : BufTy).Contents (Elt F)),
    StableHlo.ternary main_call2_v1 main_call2_v3 main_v1 main_call2_v4 ((select) : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call2_v4 main_call2_v5 (((broadcastInDim S800000x1 ![0] bcast_S800000_S800000x1_0)) : (⟨S800000, .i32⟩ : BufTy).Contents (Elt F) → (⟨S800000x1, .i32⟩ : BufTy).Contents (Elt F)),
    StableHlo.nullary main_call2_c_1 (((constantI S1 32 49999#32)) : (⟨S1, .i32⟩ : BufTy).Contents (Elt F)),
    StableHlo.nullary main_call2_c_2 (((constantI S_ 32 0#32)) : (⟨S_, .i32⟩ : BufTy).Contents (Elt F)),
    StableHlo.unary main_call2_c_2 main_call2_v6 (((broadcastInDim S800000x1 ![] bcast_S_S800000x1)) : (⟨S_, .i32⟩ : BufTy).Contents (Elt F) → (⟨S800000x1, .i32⟩ : BufTy).Contents (Elt F)),
    StableHlo.binary main_call2_v5 main_call2_v6 main_call2_v7 (((cmpi .sge)) : (⟨S800000x1, .i32⟩ : BufTy).Contents (Elt F) → (⟨S800000x1, .i32⟩ : BufTy).Contents (Elt F) → (⟨S800000x1, .i1⟩ : BufTy).Contents (Elt F)),
    StableHlo.unary main_call2_c_1 main_call2_v8 (((broadcastInDim S1x1 ![1] bcast_S1_S1x1_1)) : (⟨S1, .i32⟩ : BufTy).Contents (Elt F) → (⟨S1x1, .i32⟩ : BufTy).Contents (Elt F)),
    StableHlo.unary main_call2_v8 main_call2_v9 (((broadcastInDim S800000x1 ![0, 1] bcast_S1x1_S800000x1_0_1)) : (⟨S1x1, .i32⟩ : BufTy).Contents (Elt F) → (⟨S800000x1, .i32⟩ : BufTy).Contents (Elt F)),
    StableHlo.binary main_call2_v5 main_call2_v9 main_call2_v10 (((cmpi .sle)) : (⟨S800000x1, .i32⟩ : BufTy).Contents (Elt F) → (⟨S800000x1, .i32⟩ : BufTy).Contents (Elt F) → (⟨S800000x1, .i1⟩ : BufTy).Contents (Elt F)),
    StableHlo.binary main_call2_v7 main_call2_v10 main_call2_v11 ((andi) : (⟨S800000x1, .i1⟩ : BufTy).Contents (Elt F) → (⟨S800000x1, .i1⟩ : BufTy).Contents (Elt F) → (⟨S800000x1, .i1⟩ : BufTy).Contents (Elt F)),
    StableHlo.nullary main_call2_c_3 (((constantI S_ 1 1#1)) : (⟨S_, .i1⟩ : BufTy).Contents (Elt F)),
    StableHlo.binary main_call2_v11 main_call2_c_3 main_call2_v12 (((fun x v => Host.reduce IntOp.andi x v reducesTo_S800000x1_S800000_d1 h_S_)) : (⟨S800000x1, .i1⟩ : BufTy).Contents (Elt F) → (⟨S_, .i1⟩ : BufTy).Contents (Elt F) → (⟨S800000, .i1⟩ : BufTy).Contents (Elt F)),
    StableHlo.binary main_v19 main_call2_v5 main_call2_v13 (((fun x i => Host.gather gather_S50000x128_S800000x1_S800000x128_1_0_n_n_0_1_1128 x i)) : (⟨S50000x128, .f32⟩ : BufTy).Contents (Elt F) → (⟨S800000x1, .i32⟩ : BufTy).Contents (Elt F) → (⟨S800000x128, .f32⟩ : BufTy).Contents (Elt F)),
    StableHlo.unary main_call2_v12 main_call2_v14 (((broadcastInDim S800000x128 ![0] bcast_S800000_S800000x128_0)) : (⟨S800000, .i1⟩ : BufTy).Contents (Elt F) → (⟨S800000x128, .i1⟩ : BufTy).Contents (Elt F)),
    StableHlo.nullary main_call2_cst (((constant S_ .f32 0x7FC00000#32)) : (⟨S_, .f32⟩ : BufTy).Contents (Elt F)),
    StableHlo.unary main_call2_cst main_call2_v15 (((broadcastInDim S800000x128 ![] bcast_S_S800000x128)) : (⟨S_, .f32⟩ : BufTy).Contents (Elt F) → (⟨S800000x128, .f32⟩ : BufTy).Contents (Elt F)),
    StableHlo.ternary main_call2_v14 main_call2_v13 main_call2_v15 main_v20 ((select) : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

abbrev takeOps3 : List (HloOp τ sig (Elt F)) :=
  [ StableHlo.nullary main_call3_c (((constantI S_ 32 0#32)) : (⟨S_, .i32⟩ : BufTy).Contents (Elt F)),
    StableHlo.unary main_call3_c main_call3_v0 (((broadcastInDim S800000 ![] bcast_S_S800000)) : (⟨S_, .i32⟩ : BufTy).Contents (Elt F) → (⟨S800000, .i32⟩ : BufTy).Contents (Elt F)),
    StableHlo.binary main_v3 main_call3_v0 main_call3_v1 (((cmpi .slt)) : (⟨S800000, .i32⟩ : BufTy).Contents (Elt F) → (⟨S800000, .i32⟩ : BufTy).Contents (Elt F) → (⟨S800000, .i1⟩ : BufTy).Contents (Elt F)),
    StableHlo.nullary main_call3_c_0 (((constantI S_ 32 50000#32)) : (⟨S_, .i32⟩ : BufTy).Contents (Elt F)),
    StableHlo.unary main_call3_c_0 main_call3_v2 (((broadcastInDim S800000 ![] bcast_S_S800000)) : (⟨S_, .i32⟩ : BufTy).Contents (Elt F) → (⟨S800000, .i32⟩ : BufTy).Contents (Elt F)),
    StableHlo.binary main_v3 main_call3_v2 main_call3_v3 ((addi) : (⟨S800000, .i32⟩ : BufTy).Contents (Elt F) → (⟨S800000, .i32⟩ : BufTy).Contents (Elt F) → (⟨S800000, .i32⟩ : BufTy).Contents (Elt F)),
    StableHlo.ternary main_call3_v1 main_call3_v3 main_v3 main_call3_v4 ((select) : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call3_v4 main_call3_v5 (((broadcastInDim S800000x1 ![0] bcast_S800000_S800000x1_0)) : (⟨S800000, .i32⟩ : BufTy).Contents (Elt F) → (⟨S800000x1, .i32⟩ : BufTy).Contents (Elt F)),
    StableHlo.nullary main_call3_c_1 (((constantI S1 32 49999#32)) : (⟨S1, .i32⟩ : BufTy).Contents (Elt F)),
    StableHlo.nullary main_call3_c_2 (((constantI S_ 32 0#32)) : (⟨S_, .i32⟩ : BufTy).Contents (Elt F)),
    StableHlo.unary main_call3_c_2 main_call3_v6 (((broadcastInDim S800000x1 ![] bcast_S_S800000x1)) : (⟨S_, .i32⟩ : BufTy).Contents (Elt F) → (⟨S800000x1, .i32⟩ : BufTy).Contents (Elt F)),
    StableHlo.binary main_call3_v5 main_call3_v6 main_call3_v7 (((cmpi .sge)) : (⟨S800000x1, .i32⟩ : BufTy).Contents (Elt F) → (⟨S800000x1, .i32⟩ : BufTy).Contents (Elt F) → (⟨S800000x1, .i1⟩ : BufTy).Contents (Elt F)),
    StableHlo.unary main_call3_c_1 main_call3_v8 (((broadcastInDim S1x1 ![1] bcast_S1_S1x1_1)) : (⟨S1, .i32⟩ : BufTy).Contents (Elt F) → (⟨S1x1, .i32⟩ : BufTy).Contents (Elt F)),
    StableHlo.unary main_call3_v8 main_call3_v9 (((broadcastInDim S800000x1 ![0, 1] bcast_S1x1_S800000x1_0_1)) : (⟨S1x1, .i32⟩ : BufTy).Contents (Elt F) → (⟨S800000x1, .i32⟩ : BufTy).Contents (Elt F)),
    StableHlo.binary main_call3_v5 main_call3_v9 main_call3_v10 (((cmpi .sle)) : (⟨S800000x1, .i32⟩ : BufTy).Contents (Elt F) → (⟨S800000x1, .i32⟩ : BufTy).Contents (Elt F) → (⟨S800000x1, .i1⟩ : BufTy).Contents (Elt F)),
    StableHlo.binary main_call3_v7 main_call3_v10 main_call3_v11 ((andi) : (⟨S800000x1, .i1⟩ : BufTy).Contents (Elt F) → (⟨S800000x1, .i1⟩ : BufTy).Contents (Elt F) → (⟨S800000x1, .i1⟩ : BufTy).Contents (Elt F)),
    StableHlo.nullary main_call3_c_3 (((constantI S_ 1 1#1)) : (⟨S_, .i1⟩ : BufTy).Contents (Elt F)),
    StableHlo.binary main_call3_v11 main_call3_c_3 main_call3_v12 (((fun x v => Host.reduce IntOp.andi x v reducesTo_S800000x1_S800000_d1 h_S_)) : (⟨S800000x1, .i1⟩ : BufTy).Contents (Elt F) → (⟨S_, .i1⟩ : BufTy).Contents (Elt F) → (⟨S800000, .i1⟩ : BufTy).Contents (Elt F)),
    StableHlo.binary main_v19 main_call3_v5 main_call3_v13 (((fun x i => Host.gather gather_S50000x128_S800000x1_S800000x128_1_0_n_n_0_1_1128 x i)) : (⟨S50000x128, .f32⟩ : BufTy).Contents (Elt F) → (⟨S800000x1, .i32⟩ : BufTy).Contents (Elt F) → (⟨S800000x128, .f32⟩ : BufTy).Contents (Elt F)),
    StableHlo.unary main_call3_v12 main_call3_v14 (((broadcastInDim S800000x128 ![0] bcast_S800000_S800000x128_0)) : (⟨S800000, .i1⟩ : BufTy).Contents (Elt F) → (⟨S800000x128, .i1⟩ : BufTy).Contents (Elt F)),
    StableHlo.nullary main_call3_cst (((constant S_ .f32 0x7FC00000#32)) : (⟨S_, .f32⟩ : BufTy).Contents (Elt F)),
    StableHlo.unary main_call3_cst main_call3_v15 (((broadcastInDim S800000x128 ![] bcast_S_S800000x128)) : (⟨S_, .f32⟩ : BufTy).Contents (Elt F) → (⟨S800000x128, .f32⟩ : BufTy).Contents (Elt F)),
    StableHlo.ternary main_call3_v14 main_call3_v13 main_call3_v15 main_v21 ((select) : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

end Cert.KernelIdeal.Fold

end
-- ==== Proof.KernelStretches.lean ====
/-
  The idealized kernel program's plain host stretches read as functions, over any contents.

  Between its regions the program slices the weight matrices into their upper and lower halves, views each bias
  vector as a row, adds the edge rows of the first layer into the rows of their destination nodes and counts the
  edges of each node (a scatter-add of ones, viewed as a column). Each buffer such a stretch writes is named here as
  that function of the contents `X` the stretch starts from, and each stretch is shown to leave a buffer it does not
  write as it was.
-/
import proofs.«428226_j5557687681586_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F] (X : Valuation τ sig (Elt F))

/-! ## The stretch before the first region: the halves of the first weights and the first bias as a row -/

theorem w1_upper_of_ops : StableHlo.after hostOps0_3 X (Proc.devRef .tc main_v6)
    = extractStridedSlice S128x256 ![0, 0] (X (Proc.devRef .tc main_arg2)) Facts₀.slices_S256x256_S128x256_0_0 := by
  after_results

theorem w1_lower_of_ops : StableHlo.after hostOps0_3 X (Proc.devRef .tc main_v7)
    = extractStridedSlice S128x256 ![128, 0] (X (Proc.devRef .tc main_arg2)) Facts₀.slices_S256x256_S128x256_128_0 := by
  after_results

theorem b1_row_of_ops : StableHlo.after hostOps0_3 X (Proc.devRef .tc main_v8)
    = shapeCast S1x256 (X (Proc.devRef .tc main_arg3)) Facts₀.shapeCasts_S256_S1x256 := by
  after_results; rfl

/-! ## The stretch between the first and the second region: the sums over incoming edges, the edge counts, the second bias as a row -/

theorem agg_of_ops : StableHlo.after hostOps1 X (Proc.devRef .tc main_v12)
    = Host.scatterAdd scatter_S50000x256_S800000x1_S800000x256_1_0_0_1
        (broadcastInDim S50000x256 ![] Facts₀.bcast_S_S50000x256 (constant (F := F) S_ .f32 0x00000000#32))
        (broadcastInDim S800000x1 ![0] Facts₀.bcast_S800000_S800000x1_0 (X (Proc.devRef .tc main_v3)))
        (X (Proc.devRef .tc main_v9)) := by
  after_results

theorem deg_of_ops : StableHlo.after hostOps1 X (Proc.devRef .tc main_v17)
    = shapeCast S50000x1
        (Host.scatterAdd scatter_S50000_S800000x1_S800000_n_0_0_1
          (broadcastInDim S50000 ![] Facts₀.bcast_S_S50000 (constant (F := F) S_ .f32 0x00000000#32))
          (broadcastInDim S800000x1 ![0] Facts₀.bcast_S800000_S800000x1_0 (X (Proc.devRef .tc main_v3)))
          (broadcastInDim S800000 ![] Facts₀.bcast_S_S800000 (constant (F := F) S_ .f32 0x3F800000#32)))
        Facts₀.shapeCasts_S50000_S50000x1 := by
  after_results; rfl

theorem b2_row_of_ops : StableHlo.after hostOps1 X (Proc.devRef .tc main_v18)
    = shapeCast S1x128 (X (Proc.devRef .tc main_arg5)) Facts₀.shapeCasts_S128_S1x128 := by
  after_results; rfl

/-! ## The stretch before the third region: the halves of the third weights, the third and fourth bias as rows -/

theorem w3_upper_of_ops : StableHlo.after hostOps2_2 X (Proc.devRef .tc main_v22)
    = extractStridedSlice S128x128 ![0, 0] (X (Proc.devRef .tc main_arg6)) Facts₀.slices_S256x128_S128x128_0_0 := by
  after_results

theorem w3_lower_of_ops : StableHlo.after hostOps2_2 X (Proc.devRef .tc main_v23)
    = extractStridedSlice S128x128 ![128, 0] (X (Proc.devRef .tc main_arg6)) Facts₀.slices_S256x128_S128x128_128_0 := by
  after_results

theorem b3_row_of_ops : StableHlo.after hostOps2_2 X (Proc.devRef .tc main_v24)
    = shapeCast S1x128 (X (Proc.devRef .tc main_arg7)) Facts₀.shapeCasts_S128_S1x128 := by
  after_results; rfl

theorem b4_row_of_ops : StableHlo.after hostOps2_2 X (Proc.devRef .tc main_v25)
    = shapeCast S1x40 (X (Proc.devRef .tc main_arg9)) Facts₀.shapeCasts_S40_S1x40 := by
  after_results; rfl

/-! ## What each stretch leaves as it was: every buffer it does not write -/

/-- The gather at the source indices before the first region writes its own temporaries and the gathered array only. -/
theorem keep_hostOps0_1 (b : Ref sig .tc)
    (hb : ∀ r ∈ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4] : List (Ref sig .tc)), b ≠ r) :
    StableHlo.after hostOps0_1 X (Proc.devRef .tc b) = X (Proc.devRef .tc b) := by
  refine StableHlo.after_of_forall_not_mem _ _ (List.forall_iff_forall_mem.mp ?_)
  simp only [hostOps0_1, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-- The gather at the destination indices before the first region writes its own temporaries and the gathered array only. -/
theorem keep_hostOps0_2 (b : Ref sig .tc)
    (hb : ∀ r ∈ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5] : List (Ref sig .tc)), b ≠ r) :
    StableHlo.after hostOps0_2 X (Proc.devRef .tc b) = X (Proc.devRef .tc b) := by
  refine StableHlo.after_of_forall_not_mem _ _ (List.forall_iff_forall_mem.mp ?_)
  simp only [hostOps0_2, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-- The slices of the first weights and the first bias row are all the stretch before the first region writes. -/
theorem keep_hostOps0_3 (b : Ref sig .tc)
    (hb : ∀ r ∈ ([main_v6, main_v7, main_v8] : List (Ref sig .tc)), b ≠ r) :
    StableHlo.after hostOps0_3 X (Proc.devRef .tc b) = X (Proc.devRef .tc b) := by
  refine StableHlo.after_of_forall_not_mem _ _ (List.forall_iff_forall_mem.mp ?_)
  simp only [hostOps0_3, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-- The stretch between the first and the second region writes its constants, their broadcasts, the index columns, the two scatter results, the count column and the second bias row only. -/
theorem keep_hostOps1 (b : Ref sig .tc)
    (hb : ∀ r ∈ ([main_cst, main_v10, main_v11, main_v12, main_cst_0, main_v13, main_cst_1, main_v14, main_v15, main_v16, main_v17, main_v18] : List (Ref sig .tc)), b ≠ r) :
    StableHlo.after hostOps1 X (Proc.devRef .tc b) = X (Proc.devRef .tc b) := by
  refine StableHlo.after_of_forall_not_mem _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-- The gather at the source indices before the third region writes its own temporaries and the gathered array only. -/
theorem keep_hostOps2 (b : Ref sig .tc)
    (hb : ∀ r ∈ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v20] : List (Ref sig .tc)), b ≠ r) :
    StableHlo.after hostOps2 X (Proc.devRef .tc b) = X (Proc.devRef .tc b) := by
  refine StableHlo.after_of_forall_not_mem _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-- The gather at the destination indices before the third region writes its own temporaries and the gathered array only. -/
theorem keep_hostOps2_1 (b : Ref sig .tc)
    (hb : ∀ r ∈ ([main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v21] : List (Ref sig .tc)), b ≠ r) :
    StableHlo.after hostOps2_1 X (Proc.devRef .tc b) = X (Proc.devRef .tc b) := by
  refine StableHlo.after_of_forall_not_mem _ _ (List.forall_iff_forall_mem.mp ?_)
  simp only [hostOps2_1, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-- The slices of the third weights and the two bias rows are all the stretch before the third region writes. -/
theorem keep_hostOps2_2 (b : Ref sig .tc)
    (hb : ∀ r ∈ ([main_v22, main_v23, main_v24, main_v25] : List (Ref sig .tc)), b ≠ r) :
    StableHlo.after hostOps2_2 X (Proc.devRef .tc b) = X (Proc.devRef .tc b) := by
  refine StableHlo.after_of_forall_not_mem _ _ (List.forall_iff_forall_mem.mp ?_)
  simp only [hostOps2_2, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

/-! The instances the assembly uses: one `exact` each, the inequalities of references decided. -/

example : StableHlo.after hostOps0_1 X (Proc.devRef .tc main_arg0) = X (Proc.devRef .tc main_arg0) :=
  keep_hostOps0_1 X main_arg0 (by decide)
example : StableHlo.after hostOps2_2 X (Proc.devRef .tc main_v20) = X (Proc.devRef .tc main_v20) :=
  keep_hostOps2_2 X main_v20 (by decide)

end Cert.KernelIdeal.Fold

end
-- ==== Proof.KernelTakes.lean ====
/-
  The idealized kernel program's four row-taking stretches read as functions, over any contents.

  `jnp.take` of a node table's rows at the source or at the destination indices is a stretch of twenty-three host
  operations written over typed references. Each stretch is shown equal, element by element, to the same list over
  plain references, and read back from that list: the buffer it ends in holds the table's rows taken at the indices.
-/
import proofs.«428226_j5557687681586_1_alg».proof.Proof.Gen.KernelIdeal.Frame
import proofs.«428226_j5557687681586_1_alg».proof.Proof.TakeRows
import proofs.«428226_j5557687681586_1_alg».proof.Proof.PlainTakeOps
import proofs.«428226_j5557687681586_1_alg».proof.Proof.KernelStretches
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-! ## The four row-taking stretches over plain references

Each of the four stretches is the same list of operations written over plain references: equal element by element,
the one reduction's element with its function kept abstract. -/

theorem reduce_op0 (g : (⟨S800000x1, .i1⟩ : BufTy).Contents (Elt F) → (⟨S_, .i1⟩ : BufTy).Contents (Elt F) → (⟨S800000, .i1⟩ : BufTy).Contents (Elt F)) :
    (StableHlo.TRef.binary (.of main_call0_v11 : StableHlo.TRef sig ⟨S800000x1, .i1⟩) (.of main_call0_c_3 : StableHlo.TRef sig ⟨S_, .i1⟩)
        (.of main_call0_v12 : StableHlo.TRef sig ⟨S800000, .i1⟩) g : HloOp τ sig (Elt F))
      = StableHlo.binary main_call0_v11 main_call0_c_3 main_call0_v12 g := rfl

theorem reduce_op1 (g : (⟨S800000x1, .i1⟩ : BufTy).Contents (Elt F) → (⟨S_, .i1⟩ : BufTy).Contents (Elt F) → (⟨S800000, .i1⟩ : BufTy).Contents (Elt F)) :
    (StableHlo.TRef.binary (.of main_call1_v11 : StableHlo.TRef sig ⟨S800000x1, .i1⟩) (.of main_call1_c_3 : StableHlo.TRef sig ⟨S_, .i1⟩)
        (.of main_call1_v12 : StableHlo.TRef sig ⟨S800000, .i1⟩) g : HloOp τ sig (Elt F))
      = StableHlo.binary main_call1_v11 main_call1_c_3 main_call1_v12 g := rfl

theorem reduce_op2 (g : (⟨S800000x1, .i1⟩ : BufTy).Contents (Elt F) → (⟨S_, .i1⟩ : BufTy).Contents (Elt F) → (⟨S800000, .i1⟩ : BufTy).Contents (Elt F)) :
    (StableHlo.TRef.binary (.of main_call2_v11 : StableHlo.TRef sig ⟨S800000x1, .i1⟩) (.of main_call2_c_3 : StableHlo.TRef sig ⟨S_, .i1⟩)
        (.of main_call2_v12 : StableHlo.TRef sig ⟨S800000, .i1⟩) g : HloOp τ sig (Elt F))
      = StableHlo.binary main_call2_v11 main_call2_c_3 main_call2_v12 g := rfl

theorem reduce_op3 (g : (⟨S800000x1, .i1⟩ : BufTy).Contents (Elt F) → (⟨S_, .i1⟩ : BufTy).Contents (Elt F) → (⟨S800000, .i1⟩ : BufTy).Contents (Elt F)) :
    (StableHlo.TRef.binary (.of main_call3_v11 : StableHlo.TRef sig ⟨S800000x1, .i1⟩) (.of main_call3_c_3 : StableHlo.TRef sig ⟨S_, .i1⟩)
        (.of main_call3_v12 : StableHlo.TRef sig ⟨S800000, .i1⟩) g : HloOp τ sig (Elt F))
      = StableHlo.binary main_call3_v11 main_call3_c_3 main_call3_v12 g := rfl

set_option maxHeartbeats 4000000 in
theorem hostOps0_1_plain : (hostOps0_1 : List (HloOp τ sig (Elt F))) = takeOps0 := by
  iterate 17 (refine congrArg₂ List.cons rfl ?_)
  refine congrArg₂ List.cons (reduce_op0 _) ?_
  iterate 5 (refine congrArg₂ List.cons rfl ?_)
  rfl

set_option maxHeartbeats 4000000 in
theorem hostOps0_2_plain : (hostOps0_2 : List (HloOp τ sig (Elt F))) = takeOps1 := by
  iterate 17 (refine congrArg₂ List.cons rfl ?_)
  refine congrArg₂ List.cons (reduce_op1 _) ?_
  iterate 5 (refine congrArg₂ List.cons rfl ?_)
  rfl

set_option maxHeartbeats 4000000 in
theorem hostOps2_plain : (hostOps2 : List (HloOp τ sig (Elt F))) = takeOps2 := by
  iterate 17 (refine congrArg₂ List.cons rfl ?_)
  refine congrArg₂ List.cons (reduce_op2 _) ?_
  iterate 5 (refine congrArg₂ List.cons rfl ?_)
  rfl

set_option maxHeartbeats 4000000 in
theorem hostOps2_1_plain : (hostOps2_1 : List (HloOp τ sig (Elt F))) = takeOps3 := by
  iterate 17 (refine congrArg₂ List.cons rfl ?_)
  refine congrArg₂ List.cons (reduce_op3 _) ?_
  iterate 5 (refine congrArg₂ List.cons rfl ?_)
  rfl

section Stretches

variable (X : Valuation τ sig (Elt F))

set_option maxHeartbeats 4000000 in
theorem take_src_of_ops : StableHlo.after hostOps0_1 X (Proc.devRef .tc main_v4)
    = takeRows (X (Proc.devRef .tc main_arg0)) (X (Proc.devRef .tc main_v1)) := by
  rw [hostOps0_1_plain]
  after_results
  rfl

set_option maxHeartbeats 4000000 in
theorem take_dst_of_ops : StableHlo.after hostOps0_2 X (Proc.devRef .tc main_v5)
    = takeRows (X (Proc.devRef .tc main_arg0)) (X (Proc.devRef .tc main_v3)) := by
  rw [hostOps0_2_plain]
  after_results
  rfl

set_option maxHeartbeats 4000000 in
theorem take_hsrc_of_ops : StableHlo.after hostOps2 X (Proc.devRef .tc main_v20)
    = takeRows (X (Proc.devRef .tc main_v19)) (X (Proc.devRef .tc main_v1)) := by
  rw [hostOps2_plain]
  after_results
  rfl

set_option maxHeartbeats 4000000 in
theorem take_hdst_of_ops : StableHlo.after hostOps2_1 X (Proc.devRef .tc main_v21)
    = takeRows (X (Proc.devRef .tc main_v19)) (X (Proc.devRef .tc main_v3)) := by
  rw [hostOps2_1_plain]
  after_results
  rfl

theorem src_of_ops : StableHlo.after hostOps0 X (Proc.devRef .tc main_v1) = srcOf (X (Proc.devRef .tc main_arg1)) := by
  after_results; rfl

theorem dst_of_ops : StableHlo.after hostOps0 X (Proc.devRef .tc main_v3) = dstOf (X (Proc.devRef .tc main_arg1)) := by
  after_results; rfl

/-- The slicing of the edge list writes its four own buffers only. -/
theorem keep_hostOps0 (b : Ref sig .tc) (hb : ∀ r ∈ ([main_v0, main_v1, main_v2, main_v3] : List (Ref sig .tc)), b ≠ r) :
    StableHlo.after hostOps0 X (Proc.devRef .tc b) = X (Proc.devRef .tc b) := by
  refine StableHlo.after_of_forall_not_mem _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by simp only [List.mem_cons, true_or, or_true]))

end Stretches

end Cert.KernelIdeal.Fold

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«428226_j5557687681586_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Layers.lean ====
/-
  The edge layer of the message-passing network as one function of whole arrays, at the ideal values.

  Row `r` of the result is the positive part of `x r · A + y r · B + b`: the rows of two arrays `X` and `Y`
  against two weight blocks `A` and `B`, the two products added, a bias row added and the result capped below by
  zero. Each row of the result depends on the same row of `X` and of `Y` only, so the layer of a block of rows
  is the block of the layer's rows.
-/
import proofs.«428226_j5557687681586_1_alg».proof.Proof.LibRowOps

noncomputable section

namespace Cert.Gnn

open Idealize.ShloMosaic Idealize.ShloMosaic.ValueIdx Cert.Lib

/-- `max (x r · A + y r · B + b) 0`, row by row. -/
def edgeLayer {M K N : ℕ} (X Y : (⟨2, ![M, K]⟩ : Shape).Idx → EReal) (A B : (⟨2, ![K, N]⟩ : Shape).Idx → EReal)
    (b : (⟨2, ![1, N]⟩ : Shape).Idx → EReal) : (⟨2, ![M, N]⟩ : Shape).Idx → EReal :=
  reluArr (fun i => projArr X A i + projArr Y B i) b 0

theorem edgeLayer_apply {M K N : ℕ} (X Y : (⟨2, ![M, K]⟩ : Shape).Idx → EReal) (A B : (⟨2, ![K, N]⟩ : Shape).Idx → EReal)
    (b : (⟨2, ![1, N]⟩ : Shape).Idx → EReal) (r : Fin M) (j : Fin N) :
    edgeLayer X Y A B b (ix2 r j)
      = max ((∑ k : Fin K, X (ix2 r k) * A (ix2 k j)) + (∑ k : Fin K, Y (ix2 r k) * B (ix2 k j)) + b (ix2 (0 : Fin 1) j)) 0 := rfl

/-- Row `r` of the layer of `X`, `Y` is row `r'` of the layer of `X'`, `Y'` when the rows agree. -/
theorem edgeLayer_rows {M M' K N : ℕ} (X Y : (⟨2, ![M, K]⟩ : Shape).Idx → EReal) (X' Y' : (⟨2, ![M', K]⟩ : Shape).Idx → EReal)
    (A B : (⟨2, ![K, N]⟩ : Shape).Idx → EReal) (b : (⟨2, ![1, N]⟩ : Shape).Idx → EReal) (r : Fin M) (r' : Fin M')
    (hX : ∀ k, X (ix2 r k) = X' (ix2 r' k)) (hY : ∀ k, Y (ix2 r k) = Y' (ix2 r' k)) (j : Fin N) :
    edgeLayer X Y A B b (ix2 r j) = edgeLayer X' Y' A B b (ix2 r' j) := by
  rw [edgeLayer_apply, edgeLayer_apply]
  simp only [hX, hY]

end Cert.Gnn

end
-- ==== Proof.Region0.lean ====
/-
  The first region's output array as one function of the arrays it reads.

  The region runs the edge layer on blocks of 8000 rows: at grid point `t` it loads rows `8000 t … 8000 t + 7999`
  of the two gathered feature arrays, the two whole weight blocks and the bias row, and writes the same rows of
  the output. A row of the edge layer depends on that row of its two inputs only, so what point `t` writes back is
  block `t` of the layer of the whole arrays, and the hundred blocks cover the output array.
-/
import proofs.«428226_j5557687681586_1_alg».proof.Proof.Gen.KernelIdeal.Frame
import proofs.«428226_j5557687681586_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib Cert.Gnn

theorem hz : (![0, 0] : Fin 2 → Nat) = fun _ => 0 := funext fun a => by fin_cases a <;> rfl

theorem dot0_plain : dot_S8000x128_S128x256_S8000x256_1_0_0_1_n_n = DotDims.plain 8000 128 256 := rfl

/-- The body's arithmetic on a block is the edge layer of the block. -/
theorem pay0_eq (v0 v5 : Vec Ideal S8000x128 .f32) (v2 v7 : Vec Ideal S128x256 .f32) (v11 : Vec Ideal S1x256 .f32) :
    k0_pay1 (F := Ideal) v0 v2 v5 v7 v11 = edgeLayer v0 v5 v2 v7 v11 := by
  unfold k0_pay1
  dsimp only
  rw [shapeCast_self, shapeCast_self, shapeCast_self, shapeCast_self, dot0_plain]
  simp only [matmul]
  rw [kernel_matmul_eq, kernel_matmul_eq, kernel_addBiasRelu_eq]
  show reluArr (fun i => projArr v0 v2 i + projArr v5 v7 i) v11 (Ideal.ofBits .f32 0x00000000#32) = _
  rw [Ideal.ofBits_zero_f32]
  rfl

variable (V : (c : Dev nD) → (b : Ref sig .tc) → Buf (Elt Ideal) ((c : Thread nD τ).loc b))

/-- The printed index maps over the grid: the row-blocked windows move with the grid point, the weight and bias
    windows stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the first input's block at point `t` is row `8000 t + r` of its array. -/
theorem xs_blk (c : Dev nD) (t : Fin cfg0.N) (r : Fin 8000) (k : Fin 128) (R : Fin 800000) (hR : R.val = 8000 * t.val + r.val) :
    (iblk0 V c 0 t : Vec Ideal S8000x128 .f32) (ix2 r k) = (V c main_v4 : S800000x128.Idx → EReal) (ix2 R k) := by
  obtain ⟨e0, e1, -⟩ := idx_facts0 t
  unfold iblk0
  rw [View.read_apply]
  show V c main_v4 _ = V c main_v4 _
  congr 1
  funext a
  apply Fin.ext
  match a with
  | ⟨0, _⟩ => show win0_0.index t (0 : Fin 2) * 8000 + 1 * r.val = R.val; rw [e0, hR]; omega
  | ⟨1, _⟩ => show win0_0.index t (1 : Fin 2) * 128 + 1 * k.val = k.val; rw [e1]; omega

/-- The same for the second input. -/
theorem xd_blk (c : Dev nD) (t : Fin cfg0.N) (r : Fin 8000) (k : Fin 128) (R : Fin 800000) (hR : R.val = 8000 * t.val + r.val) :
    (iblk0 V c 1 t : Vec Ideal S8000x128 .f32) (ix2 r k) = (V c main_v5 : S800000x128.Idx → EReal) (ix2 R k) := by
  obtain ⟨-, -, e0, e1, -⟩ := idx_facts0 t
  unfold iblk0
  rw [View.read_apply]
  show V c main_v5 _ = V c main_v5 _
  congr 1
  funext a
  apply Fin.ext
  match a with
  | ⟨0, _⟩ => show win0_1.index t (0 : Fin 2) * 8000 + 1 * r.val = R.val; rw [e0, hR]; omega
  | ⟨1, _⟩ => show win0_1.index t (1 : Fin 2) * 128 + 1 * k.val = k.val; rw [e1]; omega

/-- The weight and bias windows hold their whole arrays at every point. -/
theorem wa_blk (c : Dev nD) (t : Fin cfg0.N) : (iblk0 V c 2 t : Vec Ideal S128x256 .f32) = V c main_v6 := by
  obtain ⟨-, -, -, -, e0, e1, -⟩ := idx_facts0 t
  funext y
  unfold iblk0
  rw [View.read_apply]
  show V c main_v6 _ = V c main_v6 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

theorem wb_blk (c : Dev nD) (t : Fin cfg0.N) : (iblk0 V c 3 t : Vec Ideal S128x256 .f32) = V c main_v7 := by
  obtain ⟨-, -, -, -, -, -, e0, e1, -⟩ := idx_facts0 t
  funext y
  unfold iblk0
  rw [View.read_apply]
  show V c main_v7 _ = V c main_v7 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

theorem b_blk (c : Dev nD) (t : Fin cfg0.N) : (iblk0 V c 4 t : Vec Ideal S1x256 .f32) = V c main_v8 := by
  obtain ⟨-, -, -, -, -, -, -, -, e0, e1, -⟩ := idx_facts0 t
  funext y
  unfold iblk0
  rw [View.read_apply]
  show V c main_v8 _ = V c main_v8 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- What point `t` writes back is block `t` of the edge layer of the whole arrays. -/
theorem flushed0 (c : Dev nD) (t : Fin cfg0.N) :
    (dat0 V c).flushed 5 t = ((cfg0.win 5).blk t).view.read (Elt Ideal)
      (edgeLayer (V c main_v4) (V c main_v5) (V c main_v6) (V c main_v7) (V c main_v8)) := by
  show (cfg0.win 5).cut (grid0.coords t) ((dat0 V c).after 5 t) = _
  rw [after0_5]
  unfold out0_5
  rw [View.canon_unit_zero hz]
  simp only [View.ld_unit_zero (S := S8000x128) hz, View.ld_unit_zero (S := S128x256) hz, View.ld_unit_zero (S := S1x256) hz]
  rw [pay0_eq, wa_blk, wb_blk, b_blk]
  obtain ⟨-, -, -, -, -, -, -, -, -, -, e0, e1⟩ := idx_facts0 t
  have hN : t.val < 100 := by have h := t.isLt; have e : cfg0.N = 100 := N_0; omega
  funext (y : S8000x256.Idx)
  obtain ⟨r, j, rfl⟩ : ∃ (r : Fin 8000) (j : Fin 256), y = ix2 r j := ⟨y 0, y 1, eq_ix2 y⟩
  rw [View.read_apply]
  have hR : 8000 * t.val + r.val < 800000 := by have := r.isLt; omega
  have hemb : ((cfg0.win 5).blk t).view.emb (ix2 r j) = (ix2 (⟨8000 * t.val + r.val, hR⟩ : Fin 800000) j : S800000x256.Idx) := by
    funext a
    apply Fin.ext
    match a with
    | ⟨0, _⟩ => show win0_5.index t (0 : Fin 2) * 8000 + 1 * r.val = 8000 * t.val + r.val; rw [e0]; omega
    | ⟨1, _⟩ => show win0_5.index t (1 : Fin 2) * 256 + 1 * j.val = j.val; rw [e1]; omega
  rw [hemb]
  exact edgeLayer_rows _ _ _ _ _ _ _ r ⟨8000 * t.val + r.val, hR⟩ (fun k => xs_blk V c t r k _ rfl) (fun k => xd_blk V c t r k _ rfl) j

/-- An index of the output array lies in point `t`'s block iff each coordinate lies in the block's range. -/
theorem mem_blk0 (t : Fin cfg0.N) (i : S800000x256.Idx) :
    i ∈ ((cfg0.win 5).blk t).view.set ↔ ∀ a : Fin 2, win0_5.index t a * S8000x256.size a ≤ (i a).val ∧ (i a).val < win0_5.index t a * S8000x256.size a + S8000x256.size a := by
  show i ∈ ((View.whole main_v9).slice (win0_5.rect t)).set ↔ _
  rw [View.set_slice_whole, Rect.mem_set_unit]
  exact Iff.rfl

/-- The output array after the region: the edge layer of the arrays the region reads. -/
theorem region0_arr (c : Dev nD) :
    (dat0 (F := Ideal) V c).arrAt 5 cfg0.N = edgeLayer (V c main_v4) (V c main_v5) (V c main_v6) (V c main_v7) (V c main_v8) :=
  (dat0 V c).arrAt_eq_of_cover 5 _ (fun t _ => flushed0 V c t) (fun i => by
    have hi0 : (i 0).val < 800000 := (i 0).isLt
    have hi1 : (i 1).val < 256 := (i 1).isLt
    have hq : (i 0).val / 8000 < cfg0.N := by rw [show cfg0.N = 100 from N_0]; omega
    refine ⟨⟨(i 0).val / 8000, hq⟩, flush0_5 _, ?_⟩
    rw [mem_blk0]
    obtain ⟨-, -, -, -, -, -, -, -, -, -, e0, e1⟩ := idx_facts0 ⟨(i 0).val / 8000, hq⟩
    intro a
    match a with
    | ⟨0, _⟩ =>
      show win0_5.index ⟨(i 0).val / 8000, hq⟩ (0 : Fin 2) * 8000 ≤ (i 0).val ∧ (i 0).val < win0_5.index ⟨(i 0).val / 8000, hq⟩ (0 : Fin 2) * 8000 + 8000
      rw [e0]; dsimp only; omega
    | ⟨1, _⟩ =>
      show win0_5.index ⟨(i 0).val / 8000, hq⟩ (1 : Fin 2) * 256 ≤ (i 1).val ∧ (i 1).val < win0_5.index ⟨(i 0).val / 8000, hq⟩ (1 : Fin 2) * 256 + 256
      rw [e1]; omega)

end Cert.KernelIdeal.Arr

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.NodeLayer.lean ====
/-
  The node layer of the message-passing network as one function of whole arrays, at the ideal values.

  Each node's aggregated messages are averaged, passed through a dense layer and capped below by zero. Row `n` of
  the result is the positive part of `(agg n / max (cnt n) 1) · W + b`: row `n` of the aggregate `AGG` is divided,
  entry by entry, by the node's message count (entry `n` of the column `CNT`, capped below by one, so that a node
  that received nothing divides by one), the mean row is multiplied into the weight matrix `W`, the bias row `b` is
  added and the positive part taken. Row `n` of the result depends on row `n` of `AGG` and entry `n` of `CNT` only,
  so the layer of a block of rows is the block of the layer's rows.

  The two ways the mean is spelt are read here as the one whole-array function `meanArr`: a kernel body broadcasts
  the capped count column along the rows of its block; the host caps a count VECTOR, views it as a column and
  broadcasts that. The count column of the host is the count vector viewed as an `[M, 1]` array.
-/
import Idealize.ShloMosaic.Lib.IdealHost
import proofs.«428226_j5557687681586_1_alg».proof.Proof.LibRowOps
import proofs.«428226_j5557687681586_1_alg».proof.Proof.LibKeepdims

noncomputable section

namespace Cert.Gnn

open Idealize.ShloMosaic Idealize.ShloMosaic.ValueIdx Cert.Lib

/-- Every row of `AGG` divided by the row's count, the count capped below by one. -/
def meanArr {M K : ℕ} (AGG : (⟨2, ![M, K]⟩ : Shape).Idx → EReal) (CNT : (⟨2, ![M, 1]⟩ : Shape).Idx → EReal) :
    (⟨2, ![M, K]⟩ : Shape).Idx → EReal :=
  fun i => Ideal.div (AGG i) (max (CNT (ix2 (i 0) (0 : Fin 1))) 1)

theorem meanArr_apply {M K : ℕ} (AGG : (⟨2, ![M, K]⟩ : Shape).Idx → EReal) (CNT : (⟨2, ![M, 1]⟩ : Shape).Idx → EReal)
    (r : Fin M) (k : Fin K) :
    meanArr AGG CNT (ix2 r k) = Ideal.div (AGG (ix2 r k)) (max (CNT (ix2 r (0 : Fin 1))) 1) := rfl

/-- `max ((agg n / max (cnt n) 1) · W + b) 0`, row by row. -/
def nodeLayer {M K N : ℕ} (AGG : (⟨2, ![M, K]⟩ : Shape).Idx → EReal) (CNT : (⟨2, ![M, 1]⟩ : Shape).Idx → EReal)
    (W : (⟨2, ![K, N]⟩ : Shape).Idx → EReal) (b : (⟨2, ![1, N]⟩ : Shape).Idx → EReal) : (⟨2, ![M, N]⟩ : Shape).Idx → EReal :=
  reluArr (projArr (meanArr AGG CNT) W) b 0

theorem nodeLayer_apply {M K N : ℕ} (AGG : (⟨2, ![M, K]⟩ : Shape).Idx → EReal) (CNT : (⟨2, ![M, 1]⟩ : Shape).Idx → EReal)
    (W : (⟨2, ![K, N]⟩ : Shape).Idx → EReal) (b : (⟨2, ![1, N]⟩ : Shape).Idx → EReal) (r : Fin M) (j : Fin N) :
    nodeLayer AGG CNT W b (ix2 r j)
      = max ((∑ k : Fin K, Ideal.div (AGG (ix2 r k)) (max (CNT (ix2 r (0 : Fin 1))) 1) * W (ix2 k j)) + b (ix2 (0 : Fin 1) j)) 0 := rfl

/-- Row `r` of the layer of `AGG`, `CNT` is row `r'` of the layer of `AGG'`, `CNT'` when the rows and the counts agree. -/
theorem nodeLayer_rows {M M' K N : ℕ} (AGG : (⟨2, ![M, K]⟩ : Shape).Idx → EReal) (CNT : (⟨2, ![M, 1]⟩ : Shape).Idx → EReal)
    (AGG' : (⟨2, ![M', K]⟩ : Shape).Idx → EReal) (CNT' : (⟨2, ![M', 1]⟩ : Shape).Idx → EReal)
    (W : (⟨2, ![K, N]⟩ : Shape).Idx → EReal) (b : (⟨2, ![1, N]⟩ : Shape).Idx → EReal) (r : Fin M) (r' : Fin M')
    (hA : ∀ k, AGG (ix2 r k) = AGG' (ix2 r' k)) (hC : CNT (ix2 r (0 : Fin 1)) = CNT' (ix2 r' (0 : Fin 1))) (j : Fin N) :
    nodeLayer AGG CNT W b (ix2 r j) = nodeLayer AGG' CNT' W b (ix2 r' j) := by
  rw [nodeLayer_apply, nodeLayer_apply]
  simp only [hA, hC]

/-! ## The mean as a kernel body and as the host spell it -/

/-- A kernel body's mean of a loaded block: the count column capped below by the splat one, broadcast along the rows,
    and the block divided by it. -/
theorem kernel_mean_eq {M K : ℕ} (x : FVec Ideal ⟨2, ![M, K]⟩ .f32) (c : FVec Ideal ⟨2, ![M, 1]⟩ .f32)
    (h1 : (⟨2, ![M, K]⟩ : Shape).ShapeCasts ⟨2, ![M, K]⟩) (h2 : (⟨2, ![M, 1]⟩ : Shape).ShapeCasts ⟨2, ![M, 1]⟩)
    (h3 : (⟨2, ![M, 1]⟩ : Shape).Broadcasts ⟨2, ![M, K]⟩) :
    divf (shapeCast ⟨2, ![M, K]⟩ x h1)
        (broadcastTo ⟨2, ![M, K]⟩
          (maximumf (shapeCast ⟨2, ![M, 1]⟩ c h2) (broadcast ⟨2, ![M, 1]⟩ (Scalar.ofBits (F := Ideal) .f32 0x3F800000#32))) h3)
      = meanArr x c := by
  funext i
  obtain ⟨r, k, rfl⟩ : ∃ (r : Fin M) (k : Fin K), i = ix2 r k := ⟨i 0, i 1, eq_ix2 i⟩
  rw [divf_apply, shapeCast_self, broadcastTo_a1_ab_apply, maximumf_apply, shapeCast_self, broadcast_apply, meanArr_apply]
  show Ideal.div (x (ix2 r k)) (max (c (ix2 r (0 : Fin 1))) (Ideal.ofBits .f32 0x3F800000#32)) = _
  rw [Ideal.ofBits_one_f32]

/-- The whole body of the node layer on loaded blocks: mean, plain matmul into zero, bias row, positive part. -/
theorem kernel_nodeLayer_eq {M K N : ℕ} (x : FVec Ideal ⟨2, ![M, K]⟩ .f32) (c : FVec Ideal ⟨2, ![M, 1]⟩ .f32)
    (w : FVec Ideal ⟨2, ![K, N]⟩ .f32) (b : FVec Ideal ⟨2, ![1, N]⟩ .f32) (prec : Option ContractPrecision)
    (h1 : (⟨2, ![M, K]⟩ : Shape).ShapeCasts ⟨2, ![M, K]⟩) (h2 : (⟨2, ![M, 1]⟩ : Shape).ShapeCasts ⟨2, ![M, 1]⟩)
    (h3 : (⟨2, ![M, 1]⟩ : Shape).Broadcasts ⟨2, ![M, K]⟩)
    (h4 : (⟨2, ![1, N]⟩ : Shape).ShapeCasts ⟨2, ![1, N]⟩) (h5 : (⟨2, ![1, N]⟩ : Shape).Broadcasts ⟨2, ![M, N]⟩) :
    maximumf
        (addf
          (FloatOps.matmul (DotDims.plain M K N) prec
            (divf (shapeCast ⟨2, ![M, K]⟩ x h1)
              (broadcastTo ⟨2, ![M, K]⟩
                (maximumf (shapeCast ⟨2, ![M, 1]⟩ c h2) (broadcast ⟨2, ![M, 1]⟩ (Scalar.ofBits (F := Ideal) .f32 0x3F800000#32))) h3))
            w (constant ⟨2, ![M, N]⟩ .f32 0x00000000#32))
          (broadcastTo ⟨2, ![M, N]⟩ (shapeCast ⟨2, ![1, N]⟩ b h4) h5))
        (broadcast ⟨2, ![M, N]⟩ (Scalar.ofBits (F := Ideal) .f32 0x00000000#32))
      = nodeLayer x c w b := by
  rw [kernel_addBiasRelu_eq, kernel_matmul_eq, kernel_mean_eq]
  show reluArr (projArr (meanArr x c) w) b (Ideal.ofBits .f32 0x00000000#32) = _
  rw [Ideal.ofBits_zero_f32]
  rfl

/-- The host's mean: the count vector capped below by the broadcast one, viewed as a column, the column broadcast
    along the rows, and the aggregate divided by it. The count column is the count vector viewed as an `[M, 1]` array. -/
theorem host_mean_eq {M K : ℕ} (A : FVec Ideal ⟨2, ![M, K]⟩ .f32) (c : FVec Ideal ⟨1, ![M]⟩ .f32)
    (h1 : (⟨2, ![M, 1]⟩ : Shape).BroadcastsInDim ⟨2, ![M, K]⟩ ![0, 1])
    (h2 : (⟨1, ![M]⟩ : Shape).BroadcastsInDim ⟨2, ![M, 1]⟩ ![0])
    (h3 : (⟨0, ![]⟩ : Shape).BroadcastsInDim ⟨1, ![M]⟩ ![])
    (h4 : (⟨1, ![M]⟩ : Shape).ShapeCasts ⟨2, ![M, 1]⟩) :
    Host.divf A
        (broadcastInDim ⟨2, ![M, K]⟩ ![0, 1] h1
          (broadcastInDim ⟨2, ![M, 1]⟩ ![0] h2
            (maximumf c (broadcastInDim ⟨1, ![M]⟩ ![] h3 (constant (F := Ideal) ⟨0, ![]⟩ .f32 0x3F800000#32)))))
      = meanArr A (shapeCast ⟨2, ![M, 1]⟩ c h4) := by
  funext i
  obtain ⟨r, k, rfl⟩ : ∃ (r : Fin M) (k : Fin K), i = ix2 r k := ⟨i 0, i 1, eq_ix2 i⟩
  rw [hostDivf_apply, meanArr_apply, shapeCast_a_a1_apply]
  have e1 : broadcastInDim ⟨2, ![M, K]⟩ ![0, 1] h1
        (broadcastInDim ⟨2, ![M, 1]⟩ ![0] h2
          (maximumf c (broadcastInDim ⟨1, ![M]⟩ ![] h3 (constant (F := Ideal) ⟨0, ![]⟩ .f32 0x3F800000#32)))) (ix2 r k)
      = maximumf c (broadcastInDim ⟨1, ![M]⟩ ![] h3 (constant (F := Ideal) ⟨0, ![]⟩ .f32 0x3F800000#32)) (ix1 r) := by
    rw [broadcastInDim_apply ![0, 1] h1 _ (ix2 r k) (ix2 r (0 : Fin 1)) (fun ax => by
      match ax with
      | ⟨0, _⟩ =>
        show r.val = if M = 1 then 0 else r.val
        split
        · have := r.isLt; omega
        · rfl
      | ⟨1, _⟩ => rfl)]
    exact broadcastInDim_apply ![0] h2 _ (ix2 r (0 : Fin 1)) (ix1 r) (fun ax => by
      match ax with
      | ⟨0, _⟩ =>
        show r.val = if M = 1 then 0 else r.val
        split
        · have := r.isLt; omega
        · rfl)
  rw [e1, maximumf_apply, broadcastInDim_scalar_apply, constant_apply, Ideal.ofBits_one_f32]

/-- The host's node layer: mean, plain `dot_general`, the bias vector broadcast to a row and down the rows, the
    positive part against the broadcast zero. -/
theorem host_nodeLayer_eq {M K N : ℕ} (A : FVec Ideal ⟨2, ![M, K]⟩ .f32) (c : FVec Ideal ⟨1, ![M]⟩ .f32)
    (w : FVec Ideal ⟨2, ![K, N]⟩ .f32) (b : FVec Ideal ⟨1, ![N]⟩ .f32) (prec : Option ContractPrecision)
    (h1 : (⟨2, ![M, 1]⟩ : Shape).BroadcastsInDim ⟨2, ![M, K]⟩ ![0, 1])
    (h2 : (⟨1, ![M]⟩ : Shape).BroadcastsInDim ⟨2, ![M, 1]⟩ ![0])
    (h3 : (⟨0, ![]⟩ : Shape).BroadcastsInDim ⟨1, ![M]⟩ ![])
    (h4 : (⟨1, ![M]⟩ : Shape).ShapeCasts ⟨2, ![M, 1]⟩)
    (g1 : (⟨2, ![1, N]⟩ : Shape).BroadcastsInDim ⟨2, ![M, N]⟩ ![0, 1])
    (g2 : (⟨1, ![N]⟩ : Shape).BroadcastsInDim ⟨2, ![1, N]⟩ ![1])
    (g3 : (⟨0, ![]⟩ : Shape).BroadcastsInDim ⟨2, ![M, N]⟩ ![])
    (g4 : (⟨1, ![N]⟩ : Shape).ShapeCasts ⟨2, ![1, N]⟩) :
    maximumf
        (addf
          (Host.dotGeneral (DotDims.plain M K N) prec
            (Host.divf A
              (broadcastInDim ⟨2, ![M, K]⟩ ![0, 1] h1
                (broadcastInDim ⟨2, ![M, 1]⟩ ![0] h2
                  (maximumf c (broadcastInDim ⟨1, ![M]⟩ ![] h3 (constant (F := Ideal) ⟨0, ![]⟩ .f32 0x3F800000#32))))))
            w)
          (broadcastInDim ⟨2, ![M, N]⟩ ![0, 1] g1 (broadcastInDim ⟨2, ![1, N]⟩ ![1] g2 b)))
        (broadcastInDim ⟨2, ![M, N]⟩ ![] g3 (constant (F := Ideal) ⟨0, ![]⟩ .f32 0x00000000#32))
      = nodeLayer A (shapeCast ⟨2, ![M, 1]⟩ c h4) w (shapeCast ⟨2, ![1, N]⟩ b g4) := by
  rw [host_biasRelu_eq _ b g1 g2 g3 g4, host_dot_eq, host_mean_eq A c h1 h2 h3 h4, Ideal.ofBits_zero_f32]
  rfl

end Cert.Gnn

end
-- ==== Proof.Region1.lean ====
/-
  The second region's output array as one function of the arrays it reads.

  The region runs the node layer on blocks of 5000 rows: at grid point `t` it loads rows `5000 t … 5000 t + 4999` of
  the aggregated messages and of the count column, the whole weight matrix and the bias row, and writes the same
  rows of the output. A row of the node layer depends on that row of the aggregate and that entry of the count
  column only, so what point `t` writes back is block `t` of the layer of the whole arrays, and the ten blocks cover
  the output array.
-/
import proofs.«428226_j5557687681586_1_alg».proof.Proof.Gen.KernelIdeal.Frame
import proofs.«428226_j5557687681586_1_alg».proof.Proof.NodeLayer
import Idealize.ShloMosaic.Lib.Pipeline.Value
import Idealize.ShloMosaic.Lib.ValueIdx
import Idealize.ShloMosaic.PureOps.Ideal.Laws

set_option maxRecDepth 16384

noncomputable section

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib Cert.Gnn

theorem node_off_zero : (![0, 0] : Fin 2 → Nat) = fun _ => 0 := funext fun a => by fin_cases a <;> rfl

theorem node_dot_plain : dot_S5000x256_S256x128_S5000x128_1_0_0_1_n_n = DotDims.plain 5000 256 128 := rfl

/-- The body's arithmetic on a block is the node layer of the block. -/
theorem node_pay_eq (v0 : Vec Ideal S5000x1 .f32) (v4 : Vec Ideal S5000x256 .f32) (v8 : Vec Ideal S256x128 .f32)
    (v10 : Vec Ideal S1x128 .f32) :
    k1_pay1 (F := Ideal) v0 v4 v8 v10 = nodeLayer v4 v0 v8 v10 := by
  unfold k1_pay1
  dsimp only
  rw [node_dot_plain]
  exact kernel_nodeLayer_eq v4 v0 v8 v10 none _ _ _ _ _

/-- Row `5000 n + r` of the layer of the whole arrays is row `r` of the layer of block `n`: the layer of a block whose
    rows are rows `5000 n …` of the aggregate and of the count column, at a local index `y`, is the layer of the whole
    arrays at the index `i` that `y` has in the array. -/
theorem node_block_rows (AGG : S50000x256.Idx → EReal) (CNT : S50000x1.Idx → EReal) (W : S256x128.Idx → EReal)
    (b : S1x128.Idx → EReal) (a : S5000x256.Idx → EReal) (cn : S5000x1.Idx → EReal) (n : ℕ)
    (ha : ∀ (y : S5000x256.Idx) (i : S50000x256.Idx), (i 0).val = n * 5000 + (y 0).val → (i 1).val = (y 1).val → a y = AGG i)
    (hc : ∀ (y : S5000x1.Idx) (i : S50000x1.Idx), (i 0).val = n * 5000 + (y 0).val → cn y = CNT i)
    (y : S5000x128.Idx) (i : S50000x128.Idx) (hi0 : (i 0).val = n * 5000 + (y 0).val) (hi1 : (i 1).val = (y 1).val) :
    nodeLayer a cn W b y = nodeLayer AGG CNT W b i := by
  obtain ⟨r, j, rfl⟩ : ∃ (r : Fin 5000) (j : Fin 128), y = ix2 r j := ⟨y 0, y 1, eq_ix2 y⟩
  obtain ⟨r', j', rfl⟩ : ∃ (r' : Fin 50000) (j' : Fin 128), i = ix2 r' j' := ⟨i 0, i 1, eq_ix2 i⟩
  have hr : r'.val = n * 5000 + r.val := hi0
  obtain rfl : j' = j := Fin.ext hi1
  exact nodeLayer_rows a cn AGG CNT W b r r' (fun k => ha _ _ hr rfl) (hc _ _ hr) j'

section Region
variable (V : (c : Dev nD) → (b : Ref sig .tc) → Buf (Elt Ideal) ((c : Thread nD τ).loc b))

/-- The printed index maps, decided over the grid: the aggregate, the count column and the output move together,
    block `t` at point `t`; the weight matrix and the bias row stay at their one block. -/
theorem node_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The weight matrix's block at every point is the whole matrix. -/
theorem node_blk_W (c : Dev nD) (t : Fin cfg1.N) :
    (iblk1 (F := Ideal) V c 2 t : S256x128.Idx → EReal) = V c main_arg4 := by
  obtain ⟨-, -, -, -, e0, e1, -⟩ := node_idx_facts t
  funext y
  show V c main_arg4 (((cfg1.win 2).blk t).view.emb y) = V c main_arg4 y
  congr 1
  funext a; apply Fin.ext
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The bias row's block at every point is the whole row. -/
theorem node_blk_b (c : Dev nD) (t : Fin cfg1.N) :
    (iblk1 (F := Ideal) V c 3 t : S1x128.Idx → EReal) = V c main_v18 := by
  obtain ⟨-, -, -, -, -, -, e0, e1, -⟩ := node_idx_facts t
  funext y
  show V c main_v18 (((cfg1.win 3).blk t).view.emb y) = V c main_v18 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The aggregate's block at point `t` is rows `5000 t …` of the aggregate. -/
theorem node_blk_agg (c : Dev nD) (t : Fin cfg1.N) (y : S5000x256.Idx) (i : S50000x256.Idx)
    (h0 : (i 0).val = t.val * 5000 + (y 0).val) (h1 : (i 1).val = (y 1).val) :
    (iblk1 (F := Ideal) V c 0 t : S5000x256.Idx → EReal) y = V c main_v12 i := by
  obtain ⟨e0, e1, -⟩ := node_idx_facts t
  show V c main_v12 (((cfg1.win 0).blk t).view.emb y) = V c main_v12 i
  congr 1
  funext a; apply Fin.ext
  match a with
  | ⟨0, _⟩ => show win1_0.index t (0 : Fin 2) * 5000 + 1 * (y 0).val = (i 0).val; omega
  | ⟨1, _⟩ => show win1_0.index t (1 : Fin 2) * 256 + 1 * (y 1).val = (i 1).val; omega

/-- The count column's block at point `t` is entries `5000 t …` of the column. -/
theorem node_blk_cnt (c : Dev nD) (t : Fin cfg1.N) (y : S5000x1.Idx) (i : S50000x1.Idx)
    (h0 : (i 0).val = t.val * 5000 + (y 0).val) :
    (iblk1 (F := Ideal) V c 1 t : S5000x1.Idx → EReal) y = V c main_v17 i := by
  obtain ⟨-, -, e0, e1, -⟩ := node_idx_facts t
  show V c main_v17 (((cfg1.win 1).blk t).view.emb y) = V c main_v17 i
  congr 1
  funext a; apply Fin.ext
  match a with
  | ⟨0, _⟩ => show win1_1.index t (0 : Fin 2) * 5000 + 1 * (y 0).val = (i 0).val; omega
  | ⟨1, _⟩ =>
    show win1_1.index t (1 : Fin 2) * 1 + 1 * (y 1).val = (i 1).val
    have hy : (y 1).val < 1 := (y 1).isLt
    have hi : (i 1).val < 1 := (i 1).isLt
    omega

/-- What point `t` writes back is block `t` of the node layer of the arrays as the region finds them. -/
theorem node_flushed_eq (c : Dev nD) (t : Fin cfg1.N) :
    (dat1 (F := Ideal) V c).flushed 4 t
      = ((cfg1.win 4).blk t).view.read (Elt Ideal)
          (nodeLayer (M := 50000) (K := 256) (N := 128) (V c main_v12) (V c main_v17) (V c main_arg4) (V c main_v18)) := by
  show (cfg1.win 4).cut (grid1.coords t) ((dat1 (F := Ideal) V c).after 4 t) = _
  rw [after1_4]
  unfold out1_4
  rw [View.canon_unit_zero node_off_zero]
  simp only [View.ld_unit_zero (S := S5000x1) node_off_zero, View.ld_unit_zero (S := S5000x256) node_off_zero,
    View.ld_unit_zero (S := S256x128) node_off_zero, View.ld_unit_zero (S := S1x128) node_off_zero]
  rw [node_pay_eq, node_blk_W, node_blk_b]
  obtain ⟨-, -, -, -, -, -, -, -, e0, e1⟩ := node_idx_facts t
  funext y
  refine node_block_rows (V c main_v12) (V c main_v17) (V c main_arg4) (V c main_v18) _ _ t.val
    (fun y' i' h0 h1 => node_blk_agg V c t y' i' h0 h1) (fun y' i' h0 => node_blk_cnt V c t y' i' h0) y
    (((cfg1.win 4).blk t).view.emb y) ?_ ?_
  · show win1_4.index t (0 : Fin 2) * 5000 + 1 * (y 0).val = t.val * 5000 + (y 0).val; omega
  · show win1_4.index t (1 : Fin 2) * 128 + 1 * (y 1).val = (y 1).val; omega

/-- An index of the output array is in point `t`'s block iff each coordinate is in the block's range on its axis. -/
theorem node_mem_blk (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v19).slice (win1_4.rect t)).set ↔ _
  rw [View.set_slice_whole, Rect.mem_set_unit]
  exact Iff.rfl

/-- Every row of the output is in the block of the point `row / 5000`. -/
theorem node_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := rfl
  let t : Fin cfg1.N := ⟨(i 0).val / 5000, by rw [hN]; omega⟩
  have ht : t.val = (i 0).val / 5000 := rfl
  obtain ⟨-, -, -, -, -, -, -, -, e0, e1⟩ := node_idx_facts t
  refine ⟨t, flush1_4 t, ?_⟩
  rw [node_mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The output array after the region is the node layer of the arrays the region reads. -/
theorem region1_arr (c : Dev nD) :
    (dat1 (F := Ideal) V c).arrAt 4 cfg1.N
      = Cert.Gnn.nodeLayer (V c main_v12) (V c main_v17) (V c main_arg4) (V c main_v18) :=
  (dat1 (F := Ideal) V c).arrAt_eq_of_cover 4 _ (fun t _ => node_flushed_eq V c t) node_cover

end Region

end Cert.KernelIdeal.Arr

end
-- ==== Proof.HeadLayer.lean ====
/-
  The head of the message-passing network as one function of whole arrays, at the ideal values.

  Row `r` of the result is the log-softmax of the logits row `z r · W4 + b4`, where `z r` is row `r` of the edge
  layer `max (x r · A + y r · B + b3) 0`. The log-softmax of a row `L` is `L c − m − log Σ_c' exp (L c' − m)` with `m`
  the largest entry of the row (taken from the bottom element, so that it is the row's supremum). Each row of the
  result depends on the same row of `X` and of `Y` only.

  The second half of the file reads the two spellings of these steps as the whole-array functions: a kernel body's
  (a lane reduction to a vector, the vector viewed as a column, the column broadcast back along the rows) and the
  host's (a `reduce` over axis 1, broadcasts in dimensions).
-/
import Mathlib.Algebra.BigOperators.Fin
import Idealize.ShloMosaic.PureOps.Reduce
import proofs.«428226_j5557687681586_1_alg».proof.Proof.Layers
import proofs.«428226_j5557687681586_1_alg».proof.Proof.LibKeepdims

noncomputable section

namespace Cert.Gnn

open Idealize.ShloMosaic Idealize.ShloMosaic.ValueIdx Cert.Lib

/-- The largest entry of a row: the fold of `max` over the row from the bottom element. -/
def rowMax {C : ℕ} (L : Fin C → EReal) : EReal := (Finset.univ : Finset (Fin C)).fold max ⊥ L

/-- The log-softmax of a row: each entry less the row's maximum, less the logarithm of the sum of the exponentials of
    the entries so shifted. -/
def rowLogSoftmax {C : ℕ} (L : Fin C → EReal) : Fin C → EReal :=
  fun c => (L c - rowMax L) - Ideal.log (∑ c' : Fin C, Ideal.exp (L c' - rowMax L))

/-- The log-softmax of every row of an `[M, C]` array. -/
def logSoftmaxArr {M C : ℕ} (L : (⟨2, ![M, C]⟩ : Shape).Idx → EReal) : (⟨2, ![M, C]⟩ : Shape).Idx → EReal :=
  fun i => rowLogSoftmax (fun c => L (ix2 (i 0) c)) (i 1)

/-- A bias row added to every row of an `[M, C]` array. -/
def addRowArr {M C : ℕ} (Y : (⟨2, ![M, C]⟩ : Shape).Idx → EReal) (b : (⟨2, ![1, C]⟩ : Shape).Idx → EReal) :
    (⟨2, ![M, C]⟩ : Shape).Idx → EReal :=
  fun i => Y i + b (ix2 (0 : Fin 1) (i 1))

theorem logSoftmaxArr_apply {M C : ℕ} (L : (⟨2, ![M, C]⟩ : Shape).Idx → EReal) (r : Fin M) (c : Fin C) :
    logSoftmaxArr L (ix2 r c) = rowLogSoftmax (fun c => L (ix2 r c)) c := rfl

theorem addRowArr_apply {M C : ℕ} (Y : (⟨2, ![M, C]⟩ : Shape).Idx → EReal) (b : (⟨2, ![1, C]⟩ : Shape).Idx → EReal)
    (r : Fin M) (c : Fin C) : addRowArr Y b (ix2 r c) = Y (ix2 r c) + b (ix2 (0 : Fin 1) c) := rfl

/-- The logits: the edge layer's rows against `W4`, plus the bias row `b4`. -/
def logitsArr {M K H C : ℕ} (X Y : (⟨2, ![M, K]⟩ : Shape).Idx → EReal) (A B : (⟨2, ![K, H]⟩ : Shape).Idx → EReal)
    (b3 : (⟨2, ![1, H]⟩ : Shape).Idx → EReal) (W4 : (⟨2, ![H, C]⟩ : Shape).Idx → EReal) (b4 : (⟨2, ![1, C]⟩ : Shape).Idx → EReal) :
    (⟨2, ![M, C]⟩ : Shape).Idx → EReal :=
  addRowArr (projArr (edgeLayer X Y A B b3) W4) b4

theorem logitsArr_apply {M K H C : ℕ} (X Y : (⟨2, ![M, K]⟩ : Shape).Idx → EReal) (A B : (⟨2, ![K, H]⟩ : Shape).Idx → EReal)
    (b3 : (⟨2, ![1, H]⟩ : Shape).Idx → EReal) (W4 : (⟨2, ![H, C]⟩ : Shape).Idx → EReal) (b4 : (⟨2, ![1, C]⟩ : Shape).Idx → EReal)
    (r : Fin M) (c : Fin C) :
    logitsArr X Y A B b3 W4 b4 (ix2 r c)
      = (∑ k : Fin H, edgeLayer X Y A B b3 (ix2 r k) * W4 (ix2 k c)) + b4 (ix2 (0 : Fin 1) c) := rfl

/-- Row `r` of the logits of `X`, `Y` is row `r'` of the logits of `X'`, `Y'` when the rows agree. -/
theorem logitsArr_rows {M M' K H C : ℕ} (X Y : (⟨2, ![M, K]⟩ : Shape).Idx → EReal) (X' Y' : (⟨2, ![M', K]⟩ : Shape).Idx → EReal)
    (A B : (⟨2, ![K, H]⟩ : Shape).Idx → EReal) (b3 : (⟨2, ![1, H]⟩ : Shape).Idx → EReal)
    (W4 : (⟨2, ![H, C]⟩ : Shape).Idx → EReal) (b4 : (⟨2, ![1, C]⟩ : Shape).Idx → EReal) (r : Fin M) (r' : Fin M')
    (hX : ∀ k, X (ix2 r k) = X' (ix2 r' k)) (hY : ∀ k, Y (ix2 r k) = Y' (ix2 r' k)) (c : Fin C) :
    logitsArr X Y A B b3 W4 b4 (ix2 r c) = logitsArr X' Y' A B b3 W4 b4 (ix2 r' c) := by
  rw [logitsArr_apply, logitsArr_apply]
  simp only [edgeLayer_rows X Y X' Y' A B b3 r r' hX hY]

/-- `log_softmax (max (x r · A + y r · B + b3) 0 · W4 + b4)`, row by row. -/
def headLayer {M K H C : ℕ} (X Y : (⟨2, ![M, K]⟩ : Shape).Idx → EReal) (A B : (⟨2, ![K, H]⟩ : Shape).Idx → EReal)
    (b3 : (⟨2, ![1, H]⟩ : Shape).Idx → EReal) (W4 : (⟨2, ![H, C]⟩ : Shape).Idx → EReal) (b4 : (⟨2, ![1, C]⟩ : Shape).Idx → EReal) :
    (⟨2, ![M, C]⟩ : Shape).Idx → EReal :=
  logSoftmaxArr (logitsArr X Y A B b3 W4 b4)

theorem headLayer_apply {M K H C : ℕ} (X Y : (⟨2, ![M, K]⟩ : Shape).Idx → EReal) (A B : (⟨2, ![K, H]⟩ : Shape).Idx → EReal)
    (b3 : (⟨2, ![1, H]⟩ : Shape).Idx → EReal) (W4 : (⟨2, ![H, C]⟩ : Shape).Idx → EReal) (b4 : (⟨2, ![1, C]⟩ : Shape).Idx → EReal)
    (r : Fin M) (c : Fin C) :
    headLayer X Y A B b3 W4 b4 (ix2 r c) = rowLogSoftmax (fun c => logitsArr X Y A B b3 W4 b4 (ix2 r c)) c := rfl

/-- Row `r` of the head layer of `X`, `Y` is row `r'` of the head layer of `X'`, `Y'` when the rows agree. -/
theorem headLayer_rows {M M' K H C : ℕ} (X Y : (⟨2, ![M, K]⟩ : Shape).Idx → EReal) (X' Y' : (⟨2, ![M', K]⟩ : Shape).Idx → EReal)
    (A B : (⟨2, ![K, H]⟩ : Shape).Idx → EReal) (b3 : (⟨2, ![1, H]⟩ : Shape).Idx → EReal)
    (W4 : (⟨2, ![H, C]⟩ : Shape).Idx → EReal) (b4 : (⟨2, ![1, C]⟩ : Shape).Idx → EReal) (r : Fin M) (r' : Fin M')
    (hX : ∀ k, X (ix2 r k) = X' (ix2 r' k)) (hY : ∀ k, Y (ix2 r k) = Y' (ix2 r' k)) (c : Fin C) :
    headLayer X Y A B b3 W4 b4 (ix2 r c) = headLayer X' Y' A B b3 W4 b4 (ix2 r' c) := by
  rw [headLayer_apply, headLayer_apply]
  exact congrArg (fun L => rowLogSoftmax L c) (funext fun c' => logitsArr_rows X Y X' Y' A B b3 W4 b4 r r' hX hY c')

end Cert.Gnn

end
-- ==== Proof.Region2.lean ====
/-
  The head region's output array as one function of the arrays it reads.

  The region runs the head of the network on blocks of 8000 rows: at grid point `t` it loads rows
  `8000 t … 8000 t + 7999` of the two gathered feature arrays, the two whole weight blocks of the hidden layer with
  its bias row, the whole output weights with their bias row, and writes the same rows of the log-probabilities. A row
  of the head layer depends on that row of its two inputs only, so what point `t` writes back is block `t` of the
  head layer of the whole arrays, and the hundred blocks cover the output array.

  The first part reads the body's spelling of the row operations (a bias row broadcast down a block; a lane reduction
  to a vector, the vector viewed as a column, the column broadcast back along the rows) as the whole-array functions
  of the head layer.
-/
import proofs.«428226_j5557687681586_1_alg».proof.Proof.Gen.KernelIdeal.Frame
import proofs.«428226_j5557687681586_1_alg».proof.Proof.HeadLayer
import Idealize.ShloMosaic.Lib.Pipeline.Value
import Idealize.ShloMosaic.Lib.ValueIdx
import Idealize.ShloMosaic.PureOps.Ideal.Laws

set_option maxRecDepth 16384

noncomputable section

namespace Cert.Gnn.HeadKernel

open Idealize.ShloMosaic Idealize.ShloMosaic.ValueIdx Cert.Lib Cert.Gnn

/-! ## A kernel body's spelling of the head layer's steps -/

/-- The word `0xFF800000` is the bottom element. -/
theorem ofBits_negInf_f32 : Ideal.ofBits .f32 0xFF800000#32 = ⊥ := by simp [Ideal.ofBits, Ideal.ieee]

theorem exp_apply {s : Shape} (a : FVec Ideal s .f32) (i : s.Idx) : exp a i = Ideal.exp (a i) := rfl
theorem log_apply {s : Shape} (a : FVec Ideal s .f32) (i : s.Idx) : log a i = Ideal.log (a i) := rfl

/-- Two plain matmuls into zero added, a bias row added, the positive part: the edge layer of the operands. -/
theorem kernel_edgeLayer_eq {M K N : ℕ} (prec : Option ContractPrecision) (x y : FVec Ideal ⟨2, ![M, K]⟩ .f32)
    (a b : FVec Ideal ⟨2, ![K, N]⟩ .f32) (bias : FVec Ideal ⟨2, ![1, N]⟩ .f32)
    (h2 : (⟨2, ![1, N]⟩ : Shape).ShapeCasts ⟨2, ![1, N]⟩) (h3 : (⟨2, ![1, N]⟩ : Shape).Broadcasts ⟨2, ![M, N]⟩) :
    maximumf (addf (addf (FloatOps.matmul (DotDims.plain M K N) prec x a (constant ⟨2, ![M, N]⟩ .f32 0x00000000#32))
          (FloatOps.matmul (DotDims.plain M K N) prec y b (constant ⟨2, ![M, N]⟩ .f32 0x00000000#32)))
        (broadcastTo ⟨2, ![M, N]⟩ (shapeCast ⟨2, ![1, N]⟩ bias h2) h3))
      (broadcast ⟨2, ![M, N]⟩ (Scalar.ofBits .f32 0x00000000#32))
      = edgeLayer x y a b bias := by
  rw [kernel_matmul_eq, kernel_matmul_eq, kernel_addBiasRelu_eq]
  unfold edgeLayer
  show reluArr _ bias (Ideal.ofBits .f32 0x00000000#32) = _
  rw [Ideal.ofBits_zero_f32]
  rfl

/-- A bias row broadcast down the rows of a computed block and added. -/
theorem kernel_addRow_eq {M C : ℕ} (y : FVec Ideal ⟨2, ![M, C]⟩ .f32) (b : FVec Ideal ⟨2, ![1, C]⟩ .f32)
    (h2 : (⟨2, ![1, C]⟩ : Shape).ShapeCasts ⟨2, ![1, C]⟩) (h3 : (⟨2, ![1, C]⟩ : Shape).Broadcasts ⟨2, ![M, C]⟩) :
    addf y (broadcastTo ⟨2, ![M, C]⟩ (shapeCast ⟨2, ![1, C]⟩ b h2) h3) = addRowArr y b := by
  funext i
  obtain ⟨r, c, rfl⟩ : ∃ (r : Fin M) (c : Fin C), i = ix2 r c := ⟨i 0, i 1, eq_ix2 i⟩
  rw [addf_apply, shapeCast_self, broadcastTo_row_apply]
  rfl

/-- The index a reduction over axis 1 reads at row `r` and coordinate `k` of the dropped axis is `(r, k)`. -/
theorem lift_axis1 {M C : ℕ} (h : (⟨2, ![M, C]⟩ : Shape).Reduces [1] (⟨1, ![M]⟩ : Shape)) (r : Fin M)
    (k : Fin ((⟨2, ![M, C]⟩ : Shape).size 1)) : h.lift (ix1 r) k = ix2 r (⟨k.val, k.isLt⟩ : Fin C) := by
  funext c; apply Fin.ext
  fin_cases c <;> rfl

/-- A lane maximum from the bottom word, at row `r`: the row's maximum. -/
theorem kernel_rowMax_apply {M C : ℕ} (L : FVec Ideal ⟨2, ![M, C]⟩ .f32)
    (h : (⟨2, ![M, C]⟩ : Shape).Reduces [1] (⟨1, ![M]⟩ : Shape)) (hφ : FKind.Formats .f32)
    (hacc : (0xFF800000#32 : BitVec 32) = FKind.maximumf.neutral .f32 hφ) (r : Fin M) :
    multiReduction (F := Ideal) .maximumf [1] (⟨1, ![M]⟩ : Shape) L 0xFF800000#32 h hφ hacc (ix1 r)
      = rowMax fun c => L (ix2 r c) := by
  rw [Ideal.multiReduction_maximumf_single L _ h hφ hacc (ix1 r)]
  have hf : (L ∘ h.lift (ix1 r)) = fun k : Fin C => L (ix2 r k) := funext fun k => congrArg L (lift_axis1 h r k)
  show (Finset.univ : Finset (Fin C)).fold max (Ideal.ofBits .f32 0xFF800000#32) (L ∘ h.lift (ix1 r)) = _
  rw [ofBits_negInf_f32, hf]
  rfl

/-- A lane sum from the zero word, at row `r`: the sum of the row. -/
theorem kernel_rowSum_apply {M C : ℕ} (E : FVec Ideal ⟨2, ![M, C]⟩ .f32)
    (h : (⟨2, ![M, C]⟩ : Shape).Reduces [1] (⟨1, ![M]⟩ : Shape)) (hφ : FKind.Formats .f32)
    (hacc : (0x00000000#32 : BitVec 32) = FKind.add.neutral .f32 hφ) (r : Fin M) :
    multiReduction (F := Ideal) .add [1] (⟨1, ![M]⟩ : Shape) E 0x00000000#32 h hφ hacc (ix1 r)
      = ∑ c : Fin C, E (ix2 r c) := by
  rw [Ideal.multiReduction_add_single E _ h hφ hacc (ix1 r)]
  exact Finset.sum_congr rfl fun k _ => congrArg E (lift_axis1 h r k)

/-- The body's log-softmax of a block of logits: the row maxima as a column broadcast back and subtracted, the
    exponentials summed along the lanes, the logarithm of the sums as a column broadcast back and subtracted. -/
theorem kernel_logSoftmax_eq {M C : ℕ} (L : FVec Ideal ⟨2, ![M, C]⟩ .f32)
    (h : (⟨2, ![M, C]⟩ : Shape).Reduces [1] (⟨1, ![M]⟩ : Shape)) (hc : (⟨1, ![M]⟩ : Shape).ShapeCasts ⟨2, ![M, 1]⟩)
    (hb : (⟨2, ![M, 1]⟩ : Shape).Broadcasts ⟨2, ![M, C]⟩) (hφ : FKind.Formats .f32)
    (hmax : (0xFF800000#32 : BitVec 32) = FKind.maximumf.neutral .f32 hφ)
    (hadd : (0x00000000#32 : BitVec 32) = FKind.add.neutral .f32 hφ) :
    subf (subf L (broadcastTo ⟨2, ![M, C]⟩ (shapeCast ⟨2, ![M, 1]⟩
            (multiReduction (F := Ideal) .maximumf [1] (⟨1, ![M]⟩ : Shape) L 0xFF800000#32 h hφ hmax) hc) hb))
        (broadcastTo ⟨2, ![M, C]⟩ (log (shapeCast ⟨2, ![M, 1]⟩
            (multiReduction (F := Ideal) .add [1] (⟨1, ![M]⟩ : Shape)
              (exp (subf L (broadcastTo ⟨2, ![M, C]⟩ (shapeCast ⟨2, ![M, 1]⟩
                (multiReduction (F := Ideal) .maximumf [1] (⟨1, ![M]⟩ : Shape) L 0xFF800000#32 h hφ hmax) hc) hb)))
              0x00000000#32 h hφ hadd) hc)) hb)
      = logSoftmaxArr L := by
  have hd : ∀ (r : Fin M) (c : Fin C),
      subf L (broadcastTo ⟨2, ![M, C]⟩ (shapeCast ⟨2, ![M, 1]⟩
          (multiReduction (F := Ideal) .maximumf [1] (⟨1, ![M]⟩ : Shape) L 0xFF800000#32 h hφ hmax) hc) hb) (ix2 r c)
        = L (ix2 r c) - rowMax fun c => L (ix2 r c) := by
    intro r c
    rw [subf_apply, broadcastTo_a1_ab_apply, shapeCast_a_a1_apply, kernel_rowMax_apply]
  generalize subf L (broadcastTo ⟨2, ![M, C]⟩ (shapeCast ⟨2, ![M, 1]⟩
      (multiReduction (F := Ideal) .maximumf [1] (⟨1, ![M]⟩ : Shape) L 0xFF800000#32 h hφ hmax) hc) hb) = D at hd ⊢
  funext i
  obtain ⟨r, c, rfl⟩ : ∃ (r : Fin M) (c : Fin C), i = ix2 r c := ⟨i 0, i 1, eq_ix2 i⟩
  rw [subf_apply, hd, broadcastTo_a1_ab_apply, log_apply, shapeCast_a_a1_apply, kernel_rowSum_apply, logSoftmaxArr_apply]
  simp only [exp_apply, hd]
  rfl

end Cert.Gnn.HeadKernel

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib Cert.Gnn Cert.Gnn.HeadKernel

/-- The zero offsets of a whole-block load or store. -/
theorem zeroOff2 : (![0, 0] : Fin 2 → Nat) = fun _ => 0 := funext fun a => by fin_cases a <;> rfl

theorem dotHidden_plain : dot_S8000x128_S128x128_S8000x128_1_0_0_1_n_n = DotDims.plain 8000 128 128 := rfl
theorem dotOut_plain : dot_S8000x128_S128x40_S8000x40_1_0_0_1_n_n = DotDims.plain 8000 128 40 := rfl

/-- The body's arithmetic on a block is the head layer of the block. -/
theorem headPayload_eq (v0 v5 : Vec Ideal S8000x128 .f32) (v2 v7 : Vec Ideal S128x128 .f32) (v11 : Vec Ideal S1x128 .f32)
    (v17 : Vec Ideal S128x40 .f32) (v19 : Vec Ideal S1x40 .f32) :
    k2_pay1 (F := Ideal) v0 v2 v5 v7 v11 v17 v19 = headLayer v0 v5 v2 v7 v11 v17 v19 := by
  unfold k2_pay1
  dsimp only [matmul]
  rw [shapeCast_self v0, shapeCast_self v2, shapeCast_self v5, shapeCast_self v7, dotHidden_plain, dotOut_plain,
    kernel_edgeLayer_eq, kernel_matmul_eq, kernel_addRow_eq]
  exact kernel_logSoftmax_eq _ _ _ _ _ _ _

variable (V : (c : Dev nD) → (b : Ref sig .tc) → Buf (Elt Ideal) ((c : Thread nD τ).loc b))

/-- The printed index maps over the grid: the row-blocked windows (the two gathered inputs and the output) move with
    the grid point, the weight and bias windows stay at block (0, 0). -/
theorem headIdx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `r` of the source-side block at point `t` is row `8000 t + r` of the source-side array. -/
theorem hsrc_blk (c : Dev nD) (t : Fin cfg2.N) (r : Fin 8000) (k : Fin 128) (R : Fin 800000) (hR : R.val = 8000 * t.val + r.val) :
    (iblk2 V c 0 t : Vec Ideal S8000x128 .f32) (ix2 r k) = (V c main_v20 : S800000x128.Idx → EReal) (ix2 R k) := by
  obtain ⟨e0, e1, -⟩ := headIdx_facts t
  unfold iblk2
  rw [View.read_apply]
  show V c main_v20 _ = V c main_v20 _
  congr 1
  funext a
  apply Fin.ext
  match a with
  | ⟨0, _⟩ => show win2_0.index t (0 : Fin 2) * 8000 + 1 * r.val = R.val; rw [e0, hR]; omega
  | ⟨1, _⟩ => show win2_0.index t (1 : Fin 2) * 128 + 1 * k.val = k.val; rw [e1]; omega

/-- The same for the destination-side block. -/
theorem hdst_blk (c : Dev nD) (t : Fin cfg2.N) (r : Fin 8000) (k : Fin 128) (R : Fin 800000) (hR : R.val = 8000 * t.val + r.val) :
    (iblk2 V c 1 t : Vec Ideal S8000x128 .f32) (ix2 r k) = (V c main_v21 : S800000x128.Idx → EReal) (ix2 R k) := by
  obtain ⟨-, -, e0, e1, -⟩ := headIdx_facts t
  unfold iblk2
  rw [View.read_apply]
  show V c main_v21 _ = V c main_v21 _
  congr 1
  funext a
  apply Fin.ext
  match a with
  | ⟨0, _⟩ => show win2_1.index t (0 : Fin 2) * 8000 + 1 * r.val = R.val; rw [e0, hR]; omega
  | ⟨1, _⟩ => show win2_1.index t (1 : Fin 2) * 128 + 1 * k.val = k.val; rw [e1]; omega

/-- The weight and bias windows hold their whole arrays at every point. -/
theorem w3a_blk (c : Dev nD) (t : Fin cfg2.N) : (iblk2 V c 2 t : Vec Ideal S128x128 .f32) = V c main_v22 := by
  obtain ⟨-, -, -, -, e0, e1, -⟩ := headIdx_facts t
  funext y
  unfold iblk2
  rw [View.read_apply]
  show V c main_v22 _ = V c main_v22 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem w3b_blk (c : Dev nD) (t : Fin cfg2.N) : (iblk2 V c 3 t : Vec Ideal S128x128 .f32) = V c main_v23 := by
  obtain ⟨-, -, -, -, -, -, e0, e1, -⟩ := headIdx_facts t
  funext y
  unfold iblk2
  rw [View.read_apply]
  show V c main_v23 _ = V c main_v23 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem b3_blk (c : Dev nD) (t : Fin cfg2.N) : (iblk2 V c 4 t : Vec Ideal S1x128 .f32) = V c main_v24 := by
  obtain ⟨-, -, -, -, -, -, -, -, e0, e1, -⟩ := headIdx_facts t
  funext y
  unfold iblk2
  rw [View.read_apply]
  show V c main_v24 _ = V c main_v24 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem w4_blk (c : Dev nD) (t : Fin cfg2.N) : (iblk2 V c 5 t : Vec Ideal S128x40 .f32) = V c main_arg8 := by
  obtain ⟨-, -, -, -, -, -, -, -, -, -, e0, e1, -⟩ := headIdx_facts t
  funext y
  unfold iblk2
  rw [View.read_apply]
  show V c main_arg8 _ = V c main_arg8 _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 40 + 1 * (y 1).val = (y 1).val; rw [e1]; omega

theorem b4_blk (c : Dev nD) (t : Fin cfg2.N) : (iblk2 V c 6 t : Vec Ideal S1x40 .f32) = V c main_v25 := by
  obtain ⟨-, -, -, -, -, -, -, -, -, -, -, -, e0, e1, -⟩ := headIdx_facts t
  funext y
  unfold iblk2
  rw [View.read_apply]
  show V c main_v25 _ = V c main_v25 _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 40 + 1 * (y 1).val = (y 1).val; rw [e1]; omega

/-- What the body leaves in the output's staging buffer at point `t`: the head layer of the two row blocks and the
    whole weight and bias arrays. -/
theorem headAfter (c : Dev nD) (t : Fin cfg2.N) :
    (dat2 V c).after 7 t
      = (headLayer (iblk2 V c 0 t : Vec Ideal S8000x128 .f32) (iblk2 V c 1 t : Vec Ideal S8000x128 .f32)
          (V c main_v22 : S128x128.Idx → EReal) (V c main_v23 : S128x128.Idx → EReal) (V c main_v24 : S1x128.Idx → EReal)
          (V c main_arg8 : S128x40.Idx → EReal) (V c main_v25 : S1x40.Idx → EReal) : S8000x40.Idx → EReal) := by
  rw [after2_7]
  unfold out2_7
  rw [View.canon_unit_zero zeroOff2]
  simp only [View.ld_unit_zero (S := S8000x128) zeroOff2, View.ld_unit_zero (S := S128x128) zeroOff2,
    View.ld_unit_zero (S := S1x128) zeroOff2, View.ld_unit_zero (S := S128x40) zeroOff2, View.ld_unit_zero (S := S1x40) zeroOff2]
  rw [headPayload_eq, w3a_blk, w3b_blk, b3_blk, w4_blk, b4_blk]

/-- Row `r` of the head layer of the blocks at point `t` is row `8000 t + r` of the head layer of the arrays. -/
theorem headRow_point (c : Dev nD) (t : Fin cfg2.N) (r : Fin 8000) (j : Fin 40) (R : Fin 800000) (hR : R.val = 8000 * t.val + r.val) :
    headLayer (iblk2 V c 0 t : Vec Ideal S8000x128 .f32) (iblk2 V c 1 t : Vec Ideal S8000x128 .f32)
        (V c main_v22 : S128x128.Idx → EReal) (V c main_v23 : S128x128.Idx → EReal) (V c main_v24 : S1x128.Idx → EReal)
        (V c main_arg8 : S128x40.Idx → EReal) (V c main_v25 : S1x40.Idx → EReal) (ix2 r j)
      = headLayer (V c main_v20 : S800000x128.Idx → EReal) (V c main_v21 : S800000x128.Idx → EReal)
        (V c main_v22 : S128x128.Idx → EReal) (V c main_v23 : S128x128.Idx → EReal) (V c main_v24 : S1x128.Idx → EReal)
        (V c main_arg8 : S128x40.Idx → EReal) (V c main_v25 : S1x40.Idx → EReal) (ix2 R j) :=
  headLayer_rows _ _ _ _ _ _ _ _ _ r R (fun k => hsrc_blk V c t r k R hR) (fun k => hdst_blk V c t r k R hR) j

/-- What point `t` writes back is block `t` of the head layer of the whole arrays. -/
theorem headFlushed (c : Dev nD) (t : Fin cfg2.N) :
    (dat2 V c).flushed 7 t = ((cfg2.win 7).blk t).view.read (Elt Ideal)
      (headLayer (V c main_v20) (V c main_v21) (V c main_v22) (V c main_v23) (V c main_v24) (V c main_arg8) (V c main_v25)) := by
  show (cfg2.win 7).cut (grid2.coords t) ((dat2 V c).after 7 t) = _
  rw [headAfter]
  obtain ⟨-, -, -, -, -, -, -, -, -, -, -, -, -, -, e0, e1⟩ := headIdx_facts t
  have hN : t.val < 100 := by have h := t.isLt; have e : cfg2.N = 100 := N_2; omega
  funext (y : S8000x40.Idx)
  obtain ⟨r, j, rfl⟩ : ∃ (r : Fin 8000) (j : Fin 40), y = ix2 r j := ⟨y 0, y 1, eq_ix2 y⟩
  rw [View.read_apply]
  have hR : 8000 * t.val + r.val < 800000 := by have := r.isLt; omega
  have hemb : ((cfg2.win 7).blk t).view.emb (ix2 r j) = (ix2 (⟨8000 * t.val + r.val, hR⟩ : Fin 800000) j : S800000x40.Idx) := by
    funext a
    apply Fin.ext
    match a with
    | ⟨0, _⟩ => show win2_7.index t (0 : Fin 2) * 8000 + 1 * r.val = 8000 * t.val + r.val; rw [e0]; omega
    | ⟨1, _⟩ => show win2_7.index t (1 : Fin 2) * 40 + 1 * j.val = j.val; rw [e1]; omega
  rw [hemb]
  exact headRow_point V c t r j ⟨8000 * t.val + r.val, hR⟩ rfl

/-- An index of the output array lies in point `t`'s block iff each coordinate lies in the block's range. -/
theorem mem_headBlk (t : Fin cfg2.N) (i : S800000x40.Idx) :
    i ∈ ((cfg2.win 7).blk t).view.set ↔ ∀ a : Fin 2, win2_7.index t a * S8000x40.size a ≤ (i a).val ∧ (i a).val < win2_7.index t a * S8000x40.size a + S8000x40.size a := by
  show i ∈ ((View.whole main_v26).slice (win2_7.rect t)).set ↔ _
  rw [View.set_slice_whole, Rect.mem_set_unit]
  exact Iff.rfl

/-- The output array after the region: the head layer of the arrays the region reads. -/
theorem region2_arr (c : Dev nD) :
    (dat2 (F := Ideal) V c).arrAt 7 cfg2.N = Cert.Gnn.headLayer (V c main_v20) (V c main_v21) (V c main_v22) (V c main_v23) (V c main_v24) (V c main_arg8) (V c main_v25) :=
  (dat2 V c).arrAt_eq_of_cover 7 _ (fun t _ => headFlushed V c t) (fun i => by
    have hi0 : (i 0).val < 800000 := (i 0).isLt
    have hi1 : (i 1).val < 40 := (i 1).isLt
    have hq : (i 0).val / 8000 < cfg2.N := by rw [show cfg2.N = 100 from N_2]; omega
    refine ⟨⟨(i 0).val / 8000, hq⟩, flush2_7 _, ?_⟩
    rw [mem_headBlk]
    obtain ⟨-, -, -, -, -, -, -, -, -, -, -, -, -, -, e0, e1⟩ := headIdx_facts ⟨(i 0).val / 8000, hq⟩
    intro a
    match a with
    | ⟨0, _⟩ =>
      show win2_7.index ⟨(i 0).val / 8000, hq⟩ (0 : Fin 2) * 8000 ≤ (i 0).val ∧ (i 0).val < win2_7.index ⟨(i 0).val / 8000, hq⟩ (0 : Fin 2) * 8000 + 8000
      rw [e0]; dsimp only; omega
    | ⟨1, _⟩ =>
      show win2_7.index ⟨(i 0).val / 8000, hq⟩ (1 : Fin 2) * 40 ≤ (i 1).val ∧ (i 1).val < win2_7.index ⟨(i 0).val / 8000, hq⟩ (1 : Fin 2) * 40 + 40
      rw [e1]; omega)

end Cert.KernelIdeal.Arr

end
-- ==== Proof.Net.lean ====
/-
  The three layers of the message-passing network composed, over the gathering and the adding of rows as given
  functions.

  `take T i` stands for the rows of a node table `T` gathered at an index column `i`, `agg u` for the edge rows
  `u` added into the rows of their destination nodes, `deg` for the number of edges of each node as a column. The
  edge layer acts on the rows of the input table gathered at the two ends of each edge, its result is added
  into node rows, the node layer divides by the degree and maps the rows, and the head acts on the rows of that
  table gathered at the two ends of each edge again.
-/
import proofs.«428226_j5557687681586_1_alg».proof.Proof.Layers
import proofs.«428226_j5557687681586_1_alg».proof.Proof.NodeLayer
import proofs.«428226_j5557687681586_1_alg».proof.Proof.HeadLayer

noncomputable section

namespace Cert.Gnn

open Idealize.ShloMosaic

/-- The network's result from its pieces. -/
def netOut {I : Type}
    (take : ((⟨2, ![50000, 128]⟩ : Shape).Idx → EReal) → I → ((⟨2, ![800000, 128]⟩ : Shape).Idx → EReal))
    (agg : ((⟨2, ![800000, 256]⟩ : Shape).Idx → EReal) → ((⟨2, ![50000, 256]⟩ : Shape).Idx → EReal))
    (deg : (⟨2, ![50000, 1]⟩ : Shape).Idx → EReal) (isrc idst : I)
    (x : (⟨2, ![50000, 128]⟩ : Shape).Idx → EReal)
    (W1a W1b : (⟨2, ![128, 256]⟩ : Shape).Idx → EReal) (b1 : (⟨2, ![1, 256]⟩ : Shape).Idx → EReal)
    (W2 : (⟨2, ![256, 128]⟩ : Shape).Idx → EReal) (b2 : (⟨2, ![1, 128]⟩ : Shape).Idx → EReal)
    (W3a W3b : (⟨2, ![128, 128]⟩ : Shape).Idx → EReal) (b3 : (⟨2, ![1, 128]⟩ : Shape).Idx → EReal)
    (W4 : (⟨2, ![128, 40]⟩ : Shape).Idx → EReal) (b4 : (⟨2, ![1, 40]⟩ : Shape).Idx → EReal) :
    (⟨2, ![800000, 40]⟩ : Shape).Idx → EReal :=
  headLayer
    (take (nodeLayer (agg (edgeLayer (take x isrc) (take x idst) W1a W1b b1)) deg W2 b2) isrc)
    (take (nodeLayer (agg (edgeLayer (take x isrc) (take x idst) W1a W1b b1)) deg W2 b2) idst)
    W3a W3b b3 W4 b4

end Cert.Gnn

end
-- ==== Proof.IndexRange.lean ====
/-
  The index-range precondition decoded, and the take of rows under it.

  The precondition's last conjunct says that every word of the edge list, read signed, is at least 0 and below
  50000: a row number of the node table. The kernel program's host operations take rows of the table the way
  `jnp.take` does: a negative index has the table's length added once, the rows are gathered at the resulting start
  indices, and a gathered row is replaced by a fill word where its start index is outside `0 … 49999`. On row numbers
  the wrap does nothing (no index is negative) and no row is replaced (every start index is in range: the conjunction
  of the two range tests over the unit axis is a conjunction of ones), so the take is the gather itself. The sources
  and the destinations of the edges are words of the edge list (its two rows, sliced out and flattened), hence row
  numbers.
-/
import proofs.«428226_j5557687681586_1_alg».proof.Defs
import proofs.«428226_j5557687681586_1_alg».proof.Proof.Gen.Pre_finite_inputs
import proofs.«428226_j5557687681586_1_alg».proof.Proof.Gen.KernelIdeal
import proofs.«428226_j5557687681586_1_alg».proof.Proof.TakeRows
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Fold

open Cert.KernelIdeal
open Idealize.ShloMosaic Idealize.ShloMosaic.TcCoe Idealize.ShloMosaic.ValueIdx Idealize.SL.Sem

/-! ## Words in the table's range -/

/-- A word that, read signed, is a row number of the node table: `0 ≤ w < 50000`. -/
def InTable (w : BitVec 32) : Prop := 0 ≤ w.toInt ∧ w.toInt < 50000

/-- The two signed comparisons the precondition makes of a word say it is a row number of the table. -/
theorem inTable_of_cmpi {w : BitVec 32} (h0 : IntOp.cmpi .sge w 0#32 = 1#1) (h1 : IntOp.cmpi .slt w 50000#32 = 1#1) :
    InTable w := by
  have a := IntOp.cmpi_sge.1 h0
  have b := IntOp.cmpi_slt.1 h1
  have e0 : (0#32 : BitVec 32).toInt = 0 := by decide
  have e1 : (50000#32 : BitVec 32).toInt = 50000 := by decide
  exact ⟨by omega, by omega⟩

/-- A row number is not negative: the test for a negative index fails on it. -/
theorem slt_zero_of_inTable {w : BitVec 32} (h : InTable w) : IntOp.cmpi .slt w 0#32 = 0#1 := by
  refine eq_zero_of_ne_one fun e => ?_
  have a := IntOp.cmpi_slt.1 e
  have e0 : (0#32 : BitVec 32).toInt = 0 := by decide
  have := h.1
  omega

/-- A row number passes the lower range test. -/
theorem sge_zero_of_inTable {w : BitVec 32} (h : InTable w) : IntOp.cmpi .sge w 0#32 = 1#1 := by
  refine IntOp.cmpi_sge.2 ?_
  have e0 : (0#32 : BitVec 32).toInt = 0 := by decide
  have := h.1
  omega

/-- A row number passes the upper range test. -/
theorem sle_last_of_inTable {w : BitVec 32} (h : InTable w) : IntOp.cmpi .sle w 49999#32 = 1#1 := by
  refine IntOp.cmpi_sle.2 ?_
  have e1 : (49999#32 : BitVec 32).toInt = 49999 := by decide
  have := h.2
  omega

/-! ## A conjunction of ones -/

/-- A fold by `and` from one over ones is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `reduce` by `and` from the constant one of a mask of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The take of rows at row numbers is the gather -/

/-- On row numbers the wrap of negative indices does nothing: the start-index column holds the index vector. -/
theorem idxCol_apply (v : IVec S800000 32) (hv : ∀ q, InTable (v q)) (p : Fin 800000) (u : Fin 1) :
    idxCol v (ix2 p u) = v (ix1 p) := by
  unfold idxCol
  rw [broadcastInDim_apply ![0] _ _ (ix2 p u) (ix1 p) (fun a => by
    match a with
    | ⟨0, _⟩ => show p.val = if (800000 : Nat) = 1 then 0 else p.val; rw [if_neg (by decide)])]
  rw [select_apply]
  show Scalar.select (IntOp.cmpi .slt (v (ix1 p)) 0#32) _ _ = _
  rw [slt_zero_of_inTable (hv _), select_zero]

/-- On row numbers every start index is in range. -/
theorem inRange_idxCol (v : IVec S800000 32) (hv : ∀ q, InTable (v q)) (q : S800000.Idx) :
    inRange (idxCol v) q = 1#1 := by
  unfold inRange
  refine reduce_andi_ones _ _ _ _ (fun j => ?_) rfl q
  obtain ⟨p, u, rfl⟩ : ∃ (p : Fin 800000) (u : Fin 1), j = ix2 p u := ⟨j 0, j 1, eq_ix2 j⟩
  show IntOp.andi (IntOp.cmpi .sge (idxCol v (ix2 p u)) 0#32) (IntOp.cmpi .sle (idxCol v (ix2 p u)) 49999#32) = 1#1
  rw [idxCol_apply v hv p u, sge_zero_of_inTable (hv _), sle_last_of_inTable (hv _)]
  decide

/-- The take of rows at a vector of row numbers is the gather at its start-index column: no row is replaced. -/
theorem takeRows_eq_gather {F : FTy → Type} [FloatOps F] (x : FVec F S50000x128 .f32) (v : IVec S800000 32)
    (hv : ∀ q, InTable (v q)) :
    takeRows (F := F) x v = Host.gather gather_S50000x128_S800000x1_S800000x128_1_0_n_n_0_1_1128 x (idxCol v) := by
  funext i
  unfold takeRows
  rw [select_apply]
  have hc : broadcastInDim S800000x128 ![0] Facts₀.bcast_S800000_S800000x128_0 (inRange (idxCol v)) i = 1#1 :=
    inRange_idxCol v hv _
  rw [hc, select_one]

/-! ## The precondition, decoded -/

/-- The scalar shape has one index. -/
local instance subsingleton_scalar_idx : Subsingleton Cert.Pre_finite_inputs.S_.Idx := ⟨fun a b => funext fun d => d.elim0⟩

/-- Under the precondition every word of the edge list is a row number of the node table. -/
theorem edge_words_inTable (m : (ℓ : Loc nD τ sig) → Buf (Elt Ideal) ℓ) (h : Cert.Pre_KernelIdeal m) (c : Dev nD)
    (i : S2x800000.Idx) : InTable ((m ((c.tc : Thread nD τ).loc main_arg1) : IVec S2x800000 32) i) := by
  have e := congrFun (h c) ValueIdx.ix0
  unfold Cert.Pre_finite_inputs.fn Cert.Pre_finite_inputs.fn_part1 Cert.Pre_finite_inputs.fn_part2 at e
  dsimp only at e
  have e2 := (IntOp.andi_eq_one.1 e).2
  have e3 := Host.reduce_andi_all _ _ _ _ _ e2 i
  obtain ⟨h0, h1⟩ := IntOp.andi_eq_one.1 e3
  exact inTable_of_cmpi h0 h1

/-- The sources of the edges are row numbers of the node table. -/
theorem srcOf_inTable (m : (ℓ : Loc nD τ sig) → Buf (Elt Ideal) ℓ) (h : Cert.Pre_KernelIdeal m) (c : Dev nD) (q : S800000.Idx) :
    InTable (srcOf (m ((c.tc : Thread nD τ).loc main_arg1)) q) :=
  edge_words_inTable m h c _

/-- The destinations of the edges are row numbers of the node table. -/
theorem dstOf_inTable (m : (ℓ : Loc nD τ sig) → Buf (Elt Ideal) ℓ) (h : Cert.Pre_KernelIdeal m) (c : Dev nD) (q : S800000.Idx) :
    InTable (dstOf (m ((c.tc : Thread nD τ).loc main_arg1)) q) :=
  edge_words_inTable m h c _

theorem takeRows_src_eq (m : (ℓ : Loc nD τ sig) → Buf (Elt Ideal) ℓ) (h : Cert.Pre_KernelIdeal m) (c : Dev nD)
    (x : FVec Ideal S50000x128 .f32) :
    takeRows (F := Ideal) x (srcOf (m ((c.tc : Thread nD τ).loc main_arg1)))
      = Host.gather gather_S50000x128_S800000x1_S800000x128_1_0_n_n_0_1_1128 x (idxCol (srcOf (m ((c.tc : Thread nD τ).loc main_arg1)))) :=
  takeRows_eq_gather x _ (srcOf_inTable m h c)

theorem takeRows_dst_eq (m : (ℓ : Loc nD τ sig) → Buf (Elt Ideal) ℓ) (h : Cert.Pre_KernelIdeal m) (c : Dev nD)
    (x : FVec Ideal S50000x128 .f32) :
    takeRows (F := Ideal) x (dstOf (m ((c.tc : Thread nD τ).loc main_arg1)))
      = Host.gather gather_S50000x128_S800000x1_S800000x128_1_0_n_n_0_1_1128 x (idxCol (dstOf (m ((c.tc : Thread nD τ).loc main_arg1)))) :=
  takeRows_eq_gather x _ (dstOf_inTable m h c)

end Cert.KernelIdeal.Fold

end
-- ==== Proof.KernelFold.lean ====
/-
  The idealized kernel program's result buffer as the composed network of its argument arrays.

  The program's buffer contents at each boundary between host stretches and regions are a fold through @main. Read
  back through that fold, the two arrays the first region gathers are rows of the input table taken at the source
  and at the destination indices, its output is added into node rows and counted, the second region's output is
  the node layer of those, the third region gathers that table's rows at the same indices, and the result buffer
  ends holding the head layer of them. Under the index range of the precondition every taken row is a gathered row.
-/
import proofs.«428226_j5557687681586_1_alg».proof.Proof.KernelTakes
import proofs.«428226_j5557687681586_1_alg».proof.Proof.Region0
import proofs.«428226_j5557687681586_1_alg».proof.Proof.Region1
import proofs.«428226_j5557687681586_1_alg».proof.Proof.Region2
import proofs.«428226_j5557687681586_1_alg».proof.Proof.Net
import proofs.«428226_j5557687681586_1_alg».proof.Proof.IndexRange

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The buffer contents at the boundaries, in terms of the argument arrays -/

section Boundaries

variable (m : (ℓ : Loc nD τ sig) → Buf (Elt Ideal) ℓ) (ρ : Dev nD → PrngReg) (c : Dev nD)

local macro "keepPre " b:term : term =>
  `((keep_hostOps0_3 _ $b (by decide)).trans ((keep_hostOps0_2 _ $b (by decide)).trans
      ((keep_hostOps0_1 _ $b (by decide)).trans (keep_hostOps0 _ $b (by decide)))))

/-- The edge list's source row reaches the first region as sliced. -/
theorem W4_v1 : W4 m ρ c (Proc.devRef .tc main_v1) = srcOf (m ((c.tc : Thread nD τ).loc main_arg1)) :=
  (keep_hostOps0_3 _ main_v1 (by decide)).trans ((keep_hostOps0_2 _ main_v1 (by decide)).trans
    ((keep_hostOps0_1 _ main_v1 (by decide)).trans (src_of_ops (W0 m ρ c))))

theorem W4_v3 : W4 m ρ c (Proc.devRef .tc main_v3) = dstOf (m ((c.tc : Thread nD τ).loc main_arg1)) :=
  (keep_hostOps0_3 _ main_v3 (by decide)).trans ((keep_hostOps0_2 _ main_v3 (by decide)).trans
    ((keep_hostOps0_1 _ main_v3 (by decide)).trans (dst_of_ops (W0 m ρ c))))

theorem W4_arg4 : W4 m ρ c (Proc.devRef .tc main_arg4) = m ((c.tc : Thread nD τ).loc main_arg4) := keepPre main_arg4
theorem W4_arg5 : W4 m ρ c (Proc.devRef .tc main_arg5) = m ((c.tc : Thread nD τ).loc main_arg5) := keepPre main_arg5
theorem W4_arg6 : W4 m ρ c (Proc.devRef .tc main_arg6) = m ((c.tc : Thread nD τ).loc main_arg6) := keepPre main_arg6
theorem W4_arg7 : W4 m ρ c (Proc.devRef .tc main_arg7) = m ((c.tc : Thread nD τ).loc main_arg7) := keepPre main_arg7
theorem W4_arg8 : W4 m ρ c (Proc.devRef .tc main_arg8) = m ((c.tc : Thread nD τ).loc main_arg8) := keepPre main_arg8
theorem W4_arg9 : W4 m ρ c (Proc.devRef .tc main_arg9) = m ((c.tc : Thread nD τ).loc main_arg9) := keepPre main_arg9

/-- The first region's first input: rows of the input table taken at the source indices. -/
theorem W4_v4 : W4 m ρ c (Proc.devRef .tc main_v4)
    = takeRows (F := Ideal) (m ((c.tc : Thread nD τ).loc main_arg0)) (srcOf (m ((c.tc : Thread nD τ).loc main_arg1))) :=
  (keep_hostOps0_3 _ main_v4 (by decide)).trans ((keep_hostOps0_2 _ main_v4 (by decide)).trans
    ((take_src_of_ops (W1 m ρ c)).trans
      (congrArg₂ takeRows (keep_hostOps0 (W0 m ρ c) main_arg0 (by decide)) (src_of_ops (W0 m ρ c)))))

/-- Its second input: rows of the input table taken at the destination indices. -/
theorem W4_v5 : W4 m ρ c (Proc.devRef .tc main_v5)
    = takeRows (F := Ideal) (m ((c.tc : Thread nD τ).loc main_arg0)) (dstOf (m ((c.tc : Thread nD τ).loc main_arg1))) :=
  (keep_hostOps0_3 _ main_v5 (by decide)).trans ((take_dst_of_ops (W2 m ρ c)).trans
    (congrArg₂ takeRows
      ((keep_hostOps0_1 _ main_arg0 (by decide)).trans (keep_hostOps0 (W0 m ρ c) main_arg0 (by decide)))
      ((keep_hostOps0_1 _ main_v3 (by decide)).trans (dst_of_ops (W0 m ρ c)))))

theorem W3_arg2 : W3 m ρ c (Proc.devRef .tc main_arg2) = m ((c.tc : Thread nD τ).loc main_arg2) :=
  (keep_hostOps0_2 _ main_arg2 (by decide)).trans ((keep_hostOps0_1 _ main_arg2 (by decide)).trans (keep_hostOps0 _ main_arg2 (by decide)))

theorem W3_arg3 : W3 m ρ c (Proc.devRef .tc main_arg3) = m ((c.tc : Thread nD τ).loc main_arg3) :=
  (keep_hostOps0_2 _ main_arg3 (by decide)).trans ((keep_hostOps0_1 _ main_arg3 (by decide)).trans (keep_hostOps0 _ main_arg3 (by decide)))

theorem W4_v6 : W4 m ρ c (Proc.devRef .tc main_v6)
    = extractStridedSlice S128x256 ![0, 0] (m ((c.tc : Thread nD τ).loc main_arg2)) Facts₀.slices_S256x256_S128x256_0_0 :=
  (w1_upper_of_ops (W3 m ρ c)).trans (by rw [W3_arg2])

theorem W4_v7 : W4 m ρ c (Proc.devRef .tc main_v7)
    = extractStridedSlice S128x256 ![128, 0] (m ((c.tc : Thread nD τ).loc main_arg2)) Facts₀.slices_S256x256_S128x256_128_0 :=
  (w1_lower_of_ops (W3 m ρ c)).trans (by rw [W3_arg2])

theorem W4_v8 : W4 m ρ c (Proc.devRef .tc main_v8)
    = shapeCast S1x256 (m ((c.tc : Thread nD τ).loc main_arg3)) Facts₀.shapeCasts_S256_S1x256 :=
  (b1_row_of_ops (W3 m ρ c)).trans (by rw [W3_arg3])

/-- The first region's output: the edge layer of the taken rows. -/
theorem W5_v9 : W5 m ρ c (Proc.devRef .tc main_v9)
    = Cert.Gnn.edgeLayer
        (takeRows (F := Ideal) (m ((c.tc : Thread nD τ).loc main_arg0)) (srcOf (m ((c.tc : Thread nD τ).loc main_arg1))))
        (takeRows (F := Ideal) (m ((c.tc : Thread nD τ).loc main_arg0)) (dstOf (m ((c.tc : Thread nD τ).loc main_arg1))))
        (extractStridedSlice S128x256 ![0, 0] (m ((c.tc : Thread nD τ).loc main_arg2)) Facts₀.slices_S256x256_S128x256_0_0)
        (extractStridedSlice S128x256 ![128, 0] (m ((c.tc : Thread nD τ).loc main_arg2)) Facts₀.slices_S256x256_S128x256_128_0)
        (shapeCast S1x256 (m ((c.tc : Thread nD τ).loc main_arg3)) Facts₀.shapeCasts_S256_S1x256) := by
  refine (W5_arr m ρ c 5).trans ((Arr.region0_arr (V4 m ρ) c).trans ?_)
  show Cert.Gnn.edgeLayer (W4 m ρ c (Proc.devRef .tc main_v4)) (W4 m ρ c (Proc.devRef .tc main_v5))
    (W4 m ρ c (Proc.devRef .tc main_v6)) (W4 m ρ c (Proc.devRef .tc main_v7)) (W4 m ρ c (Proc.devRef .tc main_v8)) = _
  rw [W4_v4, W4_v5, W4_v6, W4_v7, W4_v8]

/-! ### Between the first and the second region -/

theorem W5_v3 : W5 m ρ c (Proc.devRef .tc main_v3) = dstOf (m ((c.tc : Thread nD τ).loc main_arg1)) :=
  (W5_of_ne m ρ c main_v3 (by decide)).trans (W4_v3 m ρ c)

theorem W5_v1 : W5 m ρ c (Proc.devRef .tc main_v1) = srcOf (m ((c.tc : Thread nD τ).loc main_arg1)) :=
  (W5_of_ne m ρ c main_v1 (by decide)).trans (W4_v1 m ρ c)

/-- The edge rows added into the rows of their destination nodes. -/
theorem W6_v12 : W6 m ρ c (Proc.devRef .tc main_v12) = (Host.scatterAdd (F := Ideal) (φ := .f32) scatter_S50000x256_S800000x1_S800000x256_1_0_0_1
        (broadcastInDim S50000x256 ![] Facts₀.bcast_S_S50000x256 (constant (F := Ideal) S_ .f32 0x00000000#32))
        (broadcastInDim S800000x1 ![0] Facts₀.bcast_S800000_S800000x1_0 (dstOf (m ((c.tc : Thread nD τ).loc main_arg1))))
        (Cert.Gnn.edgeLayer
        (takeRows (F := Ideal) (m ((c.tc : Thread nD τ).loc main_arg0)) (srcOf (m ((c.tc : Thread nD τ).loc main_arg1))))
        (takeRows (F := Ideal) (m ((c.tc : Thread nD τ).loc main_arg0)) (dstOf (m ((c.tc : Thread nD τ).loc main_arg1))))
        (extractStridedSlice S128x256 ![0, 0] (m ((c.tc : Thread nD τ).loc main_arg2)) Facts₀.slices_S256x256_S128x256_0_0)
        (extractStridedSlice S128x256 ![128, 0] (m ((c.tc : Thread nD τ).loc main_arg2)) Facts₀.slices_S256x256_S128x256_128_0)
        (shapeCast S1x256 (m ((c.tc : Thread nD τ).loc main_arg3)) Facts₀.shapeCasts_S256_S1x256))) :=
  (agg_of_ops (W5 m ρ c)).trans (by rw [W5_v3, W5_v9])

/-- The number of edges of each node, as a column. -/
theorem W6_v17 : W6 m ρ c (Proc.devRef .tc main_v17) = (shapeCast S50000x1
        (Host.scatterAdd (F := Ideal) (φ := .f32) scatter_S50000_S800000x1_S800000_n_0_0_1
          (broadcastInDim S50000 ![] Facts₀.bcast_S_S50000 (constant (F := Ideal) S_ .f32 0x00000000#32))
          (broadcastInDim S800000x1 ![0] Facts₀.bcast_S800000_S800000x1_0 (dstOf (m ((c.tc : Thread nD τ).loc main_arg1))))
          (broadcastInDim S800000 ![] Facts₀.bcast_S_S800000 (constant (F := Ideal) S_ .f32 0x3F800000#32)))
        Facts₀.shapeCasts_S50000_S50000x1) :=
  (deg_of_ops (W5 m ρ c)).trans (by rw [W5_v3])

theorem W6_arg4 : W6 m ρ c (Proc.devRef .tc main_arg4) = (m ((c.tc : Thread nD τ).loc main_arg4)) :=
  (keep_hostOps1 _ main_arg4 (by decide)).trans ((W5_of_ne m ρ c main_arg4 (by decide)).trans (W4_arg4 m ρ c))

theorem W5_arg5 : W5 m ρ c (Proc.devRef .tc main_arg5) = (m ((c.tc : Thread nD τ).loc main_arg5)) :=
  (W5_of_ne m ρ c main_arg5 (by decide)).trans (W4_arg5 m ρ c)

theorem W6_v18 : W6 m ρ c (Proc.devRef .tc main_v18) = shapeCast S1x128 (m ((c.tc : Thread nD τ).loc main_arg5)) Facts₀.shapeCasts_S128_S1x128 :=
  (b2_row_of_ops (W5 m ρ c)).trans (by rw [W5_arg5])

/-- The second region's output: the node layer of the added rows, the counts, the second weights and bias. -/
theorem W7_v19 : W7 m ρ c (Proc.devRef .tc main_v19) = (Cert.Gnn.nodeLayer (Host.scatterAdd (F := Ideal) (φ := .f32) scatter_S50000x256_S800000x1_S800000x256_1_0_0_1
        (broadcastInDim S50000x256 ![] Facts₀.bcast_S_S50000x256 (constant (F := Ideal) S_ .f32 0x00000000#32))
        (broadcastInDim S800000x1 ![0] Facts₀.bcast_S800000_S800000x1_0 (dstOf (m ((c.tc : Thread nD τ).loc main_arg1))))
        (Cert.Gnn.edgeLayer
        (takeRows (F := Ideal) (m ((c.tc : Thread nD τ).loc main_arg0)) (srcOf (m ((c.tc : Thread nD τ).loc main_arg1))))
        (takeRows (F := Ideal) (m ((c.tc : Thread nD τ).loc main_arg0)) (dstOf (m ((c.tc : Thread nD τ).loc main_arg1))))
        (extractStridedSlice S128x256 ![0, 0] (m ((c.tc : Thread nD τ).loc main_arg2)) Facts₀.slices_S256x256_S128x256_0_0)
        (extractStridedSlice S128x256 ![128, 0] (m ((c.tc : Thread nD τ).loc main_arg2)) Facts₀.slices_S256x256_S128x256_128_0)
        (shapeCast S1x256 (m ((c.tc : Thread nD τ).loc main_arg3)) Facts₀.shapeCasts_S256_S1x256))) (shapeCast S50000x1
        (Host.scatterAdd (F := Ideal) (φ := .f32) scatter_S50000_S800000x1_S800000_n_0_0_1
          (broadcastInDim S50000 ![] Facts₀.bcast_S_S50000 (constant (F := Ideal) S_ .f32 0x00000000#32))
          (broadcastInDim S800000x1 ![0] Facts₀.bcast_S800000_S800000x1_0 (dstOf (m ((c.tc : Thread nD τ).loc main_arg1))))
          (broadcastInDim S800000 ![] Facts₀.bcast_S_S800000 (constant (F := Ideal) S_ .f32 0x3F800000#32)))
        Facts₀.shapeCasts_S50000_S50000x1) (m ((c.tc : Thread nD τ).loc main_arg4)) (shapeCast S1x128 (m ((c.tc : Thread nD τ).loc main_arg5)) Facts₀.shapeCasts_S128_S1x128)) := by
  refine (W7_arr m ρ c 4).trans ((Arr.region1_arr (V6 m ρ) c).trans ?_)
  show Cert.Gnn.nodeLayer (W6 m ρ c (Proc.devRef .tc main_v12)) (W6 m ρ c (Proc.devRef .tc main_v17))
    (W6 m ρ c (Proc.devRef .tc main_arg4)) (W6 m ρ c (Proc.devRef .tc main_v18)) = _
  rw [W6_v12, W6_v17, W6_arg4, W6_v18]

/-! ### Between the second and the third region -/

local macro "keepMid " b:term : term =>
  `((W7_of_ne m ρ c $b (by decide)).trans ((keep_hostOps1 _ $b (by decide)).trans (W5_of_ne m ρ c $b (by decide))))

theorem W7_v1 : W7 m ρ c (Proc.devRef .tc main_v1) = srcOf (m ((c.tc : Thread nD τ).loc main_arg1)) := (keepMid main_v1).trans (W4_v1 m ρ c)
theorem W7_v3 : W7 m ρ c (Proc.devRef .tc main_v3) = dstOf (m ((c.tc : Thread nD τ).loc main_arg1)) := (keepMid main_v3).trans (W4_v3 m ρ c)
theorem W7_arg6 : W7 m ρ c (Proc.devRef .tc main_arg6) = (m ((c.tc : Thread nD τ).loc main_arg6)) := (keepMid main_arg6).trans (W4_arg6 m ρ c)
theorem W7_arg7 : W7 m ρ c (Proc.devRef .tc main_arg7) = (m ((c.tc : Thread nD τ).loc main_arg7)) := (keepMid main_arg7).trans (W4_arg7 m ρ c)
theorem W7_arg8 : W7 m ρ c (Proc.devRef .tc main_arg8) = (m ((c.tc : Thread nD τ).loc main_arg8)) := (keepMid main_arg8).trans (W4_arg8 m ρ c)
theorem W7_arg9 : W7 m ρ c (Proc.devRef .tc main_arg9) = (m ((c.tc : Thread nD τ).loc main_arg9)) := (keepMid main_arg9).trans (W4_arg9 m ρ c)

/-- The third region's first input: rows of the node layer's table taken at the source indices. -/
theorem W10_v20 : W10 m ρ c (Proc.devRef .tc main_v20) = takeRows (F := Ideal) (Cert.Gnn.nodeLayer (Host.scatterAdd (F := Ideal) (φ := .f32) scatter_S50000x256_S800000x1_S800000x256_1_0_0_1
        (broadcastInDim S50000x256 ![] Facts₀.bcast_S_S50000x256 (constant (F := Ideal) S_ .f32 0x00000000#32))
        (broadcastInDim S800000x1 ![0] Facts₀.bcast_S800000_S800000x1_0 (dstOf (m ((c.tc : Thread nD τ).loc main_arg1))))
        (Cert.Gnn.edgeLayer
        (takeRows (F := Ideal) (m ((c.tc : Thread nD τ).loc main_arg0)) (srcOf (m ((c.tc : Thread nD τ).loc main_arg1))))
        (takeRows (F := Ideal) (m ((c.tc : Thread nD τ).loc main_arg0)) (dstOf (m ((c.tc : Thread nD τ).loc main_arg1))))
        (extractStridedSlice S128x256 ![0, 0] (m ((c.tc : Thread nD τ).loc main_arg2)) Facts₀.slices_S256x256_S128x256_0_0)
        (extractStridedSlice S128x256 ![128, 0] (m ((c.tc : Thread nD τ).loc main_arg2)) Facts₀.slices_S256x256_S128x256_128_0)
        (shapeCast S1x256 (m ((c.tc : Thread nD τ).loc main_arg3)) Facts₀.shapeCasts_S256_S1x256))) (shapeCast S50000x1
        (Host.scatterAdd (F := Ideal) (φ := .f32) scatter_S50000_S800000x1_S800000_n_0_0_1
          (broadcastInDim S50000 ![] Facts₀.bcast_S_S50000 (constant (F := Ideal) S_ .f32 0x00000000#32))
          (broadcastInDim S800000x1 ![0] Facts₀.bcast_S800000_S800000x1_0 (dstOf (m ((c.tc : Thread nD τ).loc main_arg1))))
          (broadcastInDim S800000 ![] Facts₀.bcast_S_S800000 (constant (F := Ideal) S_ .f32 0x3F800000#32)))
        Facts₀.shapeCasts_S50000_S50000x1) (m ((c.tc : Thread nD τ).loc main_arg4)) (shapeCast S1x128 (m ((c.tc : Thread nD τ).loc main_arg5)) Facts₀.shapeCasts_S128_S1x128)) (srcOf (m ((c.tc : Thread nD τ).loc main_arg1))) :=
  (keep_hostOps2_2 _ main_v20 (by decide)).trans ((keep_hostOps2_1 _ main_v20 (by decide)).trans
    ((take_hsrc_of_ops (W7 m ρ c)).trans (congrArg₂ takeRows (W7_v19 m ρ c) (W7_v1 m ρ c))))

/-- Its second input: the same table's rows taken at the destination indices. -/
theorem W10_v21 : W10 m ρ c (Proc.devRef .tc main_v21) = takeRows (F := Ideal) (Cert.Gnn.nodeLayer (Host.scatterAdd (F := Ideal) (φ := .f32) scatter_S50000x256_S800000x1_S800000x256_1_0_0_1
        (broadcastInDim S50000x256 ![] Facts₀.bcast_S_S50000x256 (constant (F := Ideal) S_ .f32 0x00000000#32))
        (broadcastInDim S800000x1 ![0] Facts₀.bcast_S800000_S800000x1_0 (dstOf (m ((c.tc : Thread nD τ).loc main_arg1))))
        (Cert.Gnn.edgeLayer
        (takeRows (F := Ideal) (m ((c.tc : Thread nD τ).loc main_arg0)) (srcOf (m ((c.tc : Thread nD τ).loc main_arg1))))
        (takeRows (F := Ideal) (m ((c.tc : Thread nD τ).loc main_arg0)) (dstOf (m ((c.tc : Thread nD τ).loc main_arg1))))
        (extractStridedSlice S128x256 ![0, 0] (m ((c.tc : Thread nD τ).loc main_arg2)) Facts₀.slices_S256x256_S128x256_0_0)
        (extractStridedSlice S128x256 ![128, 0] (m ((c.tc : Thread nD τ).loc main_arg2)) Facts₀.slices_S256x256_S128x256_128_0)
        (shapeCast S1x256 (m ((c.tc : Thread nD τ).loc main_arg3)) Facts₀.shapeCasts_S256_S1x256))) (shapeCast S50000x1
        (Host.scatterAdd (F := Ideal) (φ := .f32) scatter_S50000_S800000x1_S800000_n_0_0_1
          (broadcastInDim S50000 ![] Facts₀.bcast_S_S50000 (constant (F := Ideal) S_ .f32 0x00000000#32))
          (broadcastInDim S800000x1 ![0] Facts₀.bcast_S800000_S800000x1_0 (dstOf (m ((c.tc : Thread nD τ).loc main_arg1))))
          (broadcastInDim S800000 ![] Facts₀.bcast_S_S800000 (constant (F := Ideal) S_ .f32 0x3F800000#32)))
        Facts₀.shapeCasts_S50000_S50000x1) (m ((c.tc : Thread nD τ).loc main_arg4)) (shapeCast S1x128 (m ((c.tc : Thread nD τ).loc main_arg5)) Facts₀.shapeCasts_S128_S1x128)) (dstOf (m ((c.tc : Thread nD τ).loc main_arg1))) :=
  (keep_hostOps2_2 _ main_v21 (by decide)).trans ((take_hdst_of_ops (W8 m ρ c)).trans
    (congrArg₂ takeRows ((keep_hostOps2 _ main_v19 (by decide)).trans (W7_v19 m ρ c))
      ((keep_hostOps2 _ main_v3 (by decide)).trans (W7_v3 m ρ c))))

local macro "keepLate " b:term : term =>
  `((keep_hostOps2_1 _ $b (by decide)).trans (keep_hostOps2 _ $b (by decide)))

theorem W9_arg6 : W9 m ρ c (Proc.devRef .tc main_arg6) = (m ((c.tc : Thread nD τ).loc main_arg6)) := (keepLate main_arg6).trans (W7_arg6 m ρ c)
theorem W9_arg7 : W9 m ρ c (Proc.devRef .tc main_arg7) = (m ((c.tc : Thread nD τ).loc main_arg7)) := (keepLate main_arg7).trans (W7_arg7 m ρ c)
theorem W9_arg8 : W9 m ρ c (Proc.devRef .tc main_arg8) = (m ((c.tc : Thread nD τ).loc main_arg8)) := (keepLate main_arg8).trans (W7_arg8 m ρ c)
theorem W9_arg9 : W9 m ρ c (Proc.devRef .tc main_arg9) = (m ((c.tc : Thread nD τ).loc main_arg9)) := (keepLate main_arg9).trans (W7_arg9 m ρ c)

theorem W10_v22 : W10 m ρ c (Proc.devRef .tc main_v22)
    = extractStridedSlice S128x128 ![0, 0] (m ((c.tc : Thread nD τ).loc main_arg6)) Facts₀.slices_S256x128_S128x128_0_0 :=
  (w3_upper_of_ops (W9 m ρ c)).trans (by rw [W9_arg6])

theorem W10_v23 : W10 m ρ c (Proc.devRef .tc main_v23)
    = extractStridedSlice S128x128 ![128, 0] (m ((c.tc : Thread nD τ).loc main_arg6)) Facts₀.slices_S256x128_S128x128_128_0 :=
  (w3_lower_of_ops (W9 m ρ c)).trans (by rw [W9_arg6])

theorem W10_v24 : W10 m ρ c (Proc.devRef .tc main_v24) = shapeCast S1x128 (m ((c.tc : Thread nD τ).loc main_arg7)) Facts₀.shapeCasts_S128_S1x128 :=
  (b3_row_of_ops (W9 m ρ c)).trans (by rw [W9_arg7])

theorem W10_v25 : W10 m ρ c (Proc.devRef .tc main_v25) = shapeCast S1x40 (m ((c.tc : Thread nD τ).loc main_arg9)) Facts₀.shapeCasts_S40_S1x40 :=
  (b4_row_of_ops (W9 m ρ c)).trans (by rw [W9_arg9])

theorem W10_arg8 : W10 m ρ c (Proc.devRef .tc main_arg8) = (m ((c.tc : Thread nD τ).loc main_arg8)) :=
  (keep_hostOps2_2 _ main_arg8 (by decide)).trans (W9_arg8 m ρ c)

/-! ### The result -/

/-- The result buffer's final contents: the network composed, every taken row a gathered row under the index range
    the precondition states. -/
theorem kernel_value (h : Cert.Pre_KernelIdeal m) :
    W11 m ρ c (Proc.devRef .tc main_v26)
      = Cert.Gnn.netOut (fun T i => Host.gather gather_S50000x128_S800000x1_S800000x128_1_0_n_n_0_1_1128 T i)
          (fun u => Host.scatterAdd (F := Ideal) (φ := .f32) scatter_S50000x256_S800000x1_S800000x256_1_0_0_1
              (broadcastInDim S50000x256 ![] Facts₀.bcast_S_S50000x256 (constant (F := Ideal) S_ .f32 0x00000000#32))
              (broadcastInDim S800000x1 ![0] Facts₀.bcast_S800000_S800000x1_0 (dstOf (m ((c.tc : Thread nD τ).loc main_arg1)))) u)
          (shapeCast S50000x1
        (Host.scatterAdd (F := Ideal) (φ := .f32) scatter_S50000_S800000x1_S800000_n_0_0_1
          (broadcastInDim S50000 ![] Facts₀.bcast_S_S50000 (constant (F := Ideal) S_ .f32 0x00000000#32))
          (broadcastInDim S800000x1 ![0] Facts₀.bcast_S800000_S800000x1_0 (dstOf (m ((c.tc : Thread nD τ).loc main_arg1))))
          (broadcastInDim S800000 ![] Facts₀.bcast_S_S800000 (constant (F := Ideal) S_ .f32 0x3F800000#32)))
        Facts₀.shapeCasts_S50000_S50000x1)
          (idxCol (srcOf (m ((c.tc : Thread nD τ).loc main_arg1)))) (idxCol (dstOf (m ((c.tc : Thread nD τ).loc main_arg1))))
          (m ((c.tc : Thread nD τ).loc main_arg0))
          (extractStridedSlice S128x256 ![0, 0] (m ((c.tc : Thread nD τ).loc main_arg2)) Facts₀.slices_S256x256_S128x256_0_0)
          (extractStridedSlice S128x256 ![128, 0] (m ((c.tc : Thread nD τ).loc main_arg2)) Facts₀.slices_S256x256_S128x256_128_0)
          (shapeCast S1x256 (m ((c.tc : Thread nD τ).loc main_arg3)) Facts₀.shapeCasts_S256_S1x256)
          (m ((c.tc : Thread nD τ).loc main_arg4)) (shapeCast S1x128 (m ((c.tc : Thread nD τ).loc main_arg5)) Facts₀.shapeCasts_S128_S1x128)
          (extractStridedSlice S128x128 ![0, 0] (m ((c.tc : Thread nD τ).loc main_arg6)) Facts₀.slices_S256x128_S128x128_0_0)
          (extractStridedSlice S128x128 ![128, 0] (m ((c.tc : Thread nD τ).loc main_arg6)) Facts₀.slices_S256x128_S128x128_128_0)
          (shapeCast S1x128 (m ((c.tc : Thread nD τ).loc main_arg7)) Facts₀.shapeCasts_S128_S1x128) (m ((c.tc : Thread nD τ).loc main_arg8))
          (shapeCast S1x40 (m ((c.tc : Thread nD τ).loc main_arg9)) Facts₀.shapeCasts_S40_S1x40) := by
  refine (W11_arr m ρ c 7).trans ((Arr.region2_arr (V10 m ρ) c).trans ?_)
  show Cert.Gnn.headLayer (W10 m ρ c (Proc.devRef .tc main_v20)) (W10 m ρ c (Proc.devRef .tc main_v21))
    (W10 m ρ c (Proc.devRef .tc main_v22)) (W10 m ρ c (Proc.devRef .tc main_v23)) (W10 m ρ c (Proc.devRef .tc main_v24))
    (W10 m ρ c (Proc.devRef .tc main_arg8)) (W10 m ρ c (Proc.devRef .tc main_v25)) = _
  rw [W10_v20, W10_v21, W10_v22, W10_v23, W10_v24, W10_arg8, W10_v25]
  simp only [takeRows_src_eq m h c, takeRows_dst_eq m h c]
  rfl

end Boundaries

end Cert.KernelIdeal.Fold

end
-- ==== Proof.RefOpsPlain.lean ====
/- Lists of host operations re-spelt over plain references: the same operations, in the same order, each with
   its function ascribed at the contents types of its buffers. -/
import proofs.«428226_j5557687681586_1_alg».proof.Proof.Gen.ReferenceIdeal
import Idealize.ShloMosaic.Lib.StableHlo.Run

noncomputable section

namespace Cert.ReferenceIdeal.ValueH

open Cert.ReferenceIdeal Cert.ReferenceIdeal.Gen
open Idealize.ShloMosaic Idealize.ShloMosaic.TcCoe Idealize.SL.Sem Idealize.ShloMosaic.StableHlo

variable {F : FTy → Type} [FloatOps F]

abbrev opsPlain : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v10 main_v17 main_v18 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v18 main_arg2 main_v19 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    unary main_arg3 main_v20 (broadcastInDim S1x256 ![1] bcast_S256_S1x256_1 : (⟨S256, .f32⟩ : BufTy).Contents (Elt F) → (⟨S1x256, .f32⟩ : BufTy).Contents (Elt F)),
    unary main_v20 main_v21 (broadcastInDim S800000x256 ![0, 1] bcast_S1x256_S800000x256_0_1 : (⟨S1x256, .f32⟩ : BufTy).Contents (Elt F) → (⟨S800000x256, .f32⟩ : BufTy).Contents (Elt F)),
    binary main_v19 main_v21 main_v22 (addf : (⟨S800000x256, .f32⟩ : BufTy).Contents (Elt F) → (⟨S800000x256, .f32⟩ : BufTy).Contents (Elt F) → (⟨S800000x256, .f32⟩ : BufTy).Contents (Elt F)),
    StableHlo.nullary main_call0_cst (((constant S_ .f32 0x00000000#32)) : (⟨S_, .f32⟩ : BufTy).Contents (Elt F)),
    StableHlo.unary main_call0_cst main_call0_v0 (((broadcastInDim S800000x256 ![] bcast_S_S800000x256)) : (⟨S_, .f32⟩ : BufTy).Contents (Elt F) → (⟨S800000x256, .f32⟩ : BufTy).Contents (Elt F)),
    StableHlo.binary main_v22 main_call0_v0 main_v23 ((maximumf) : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v24 (broadcastInDim S50000x256 ![] bcast_S_S50000x256 : (⟨S_, .f32⟩ : BufTy).Contents (Elt F) → (⟨S50000x256, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_3 (constant S_ .f32 0x3F800000#32),
    unary main_cst_3 main_v27 (broadcastInDim S800000 ![] bcast_S_S800000 : (⟨S_, .f32⟩ : BufTy).Contents (Elt F) → (⟨S800000, .f32⟩ : BufTy).Contents (Elt F)),
    nullary main_cst_4 (constant S_ .f32 0x00000000#32),
    unary main_cst_4 main_v28 (broadcastInDim S50000 ![] bcast_S_S50000 : (⟨S_, .f32⟩ : BufTy).Contents (Elt F) → (⟨S50000, .f32⟩ : BufTy).Contents (Elt F)),
    unary main_v3 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_5 (constant S_ .f32 0x3F800000#32),
    unary main_cst_5 main_v31 (broadcastInDim S50000 ![] bcast_S_S50000 : (⟨S_, .f32⟩ : BufTy).Contents (Elt F) → (⟨S50000, .f32⟩ : BufTy).Contents (Elt F)),
    binary main_v30 main_v31 main_v32 (maximumf : (⟨S50000, .f32⟩ : BufTy).Contents (Elt F) → (⟨S50000, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v26 main_v34 main_v35 (Host.divf : (⟨S50000x256, .f32⟩ : BufTy).Contents (Elt F) → (⟨S50000x256, .f32⟩ : BufTy).Contents (Elt F) → (⟨S50000x256, .f32⟩ : BufTy).Contents (Elt F)),
    binary main_v35 main_arg4 main_v36 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    StableHlo.nullary main_call1_cst (((constant S_ .f32 0x00000000#32)) : (⟨S_, .f32⟩ : BufTy).Contents (Elt F)),
    StableHlo.unary main_call1_cst main_call1_v0 (((broadcastInDim S50000x128 ![] bcast_S_S50000x128)) : (⟨S_, .f32⟩ : BufTy).Contents (Elt F) → (⟨S50000x128, .f32⟩ : BufTy).Contents (Elt F)),
    StableHlo.binary main_v39 main_call1_v0 main_v40 ((maximumf) : (⟨S50000x128, .f32⟩ : BufTy).Contents (Elt F) → (⟨S50000x128, .f32⟩ : BufTy).Contents (Elt F) → (⟨S50000x128, .f32⟩ : BufTy).Contents (Elt F)),
    nullary main_c_6 (constantI S_ 32 0#32),
    unary main_c_6 main_v41 (broadcastInDim S800000 ![] bcast_S_S800000 : (⟨S_, .i32⟩ : BufTy).Contents (Elt F) → (⟨S800000, .i32⟩ : BufTy).Contents (Elt F)),
    binary main_v1 main_v41 main_v42 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v43 (broadcastInDim S800000 ![] bcast_S_S800000 : (⟨S_, .i32⟩ : BufTy).Contents (Elt F) → (⟨S800000, .i32⟩ : BufTy).Contents (Elt F)),
    binary main_v1 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_v1 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_8 (constantI S_ 32 0#32),
    unary main_c_8 main_v48 (broadcastInDim S800000 ![] bcast_S_S800000 : (⟨S_, .i32⟩ : BufTy).Contents (Elt F) → (⟨S800000, .i32⟩ : BufTy).Contents (Elt F)),
    binary main_v3 main_v48 main_v49 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v50 (broadcastInDim S800000 ![] bcast_S_S800000 : (⟨S_, .i32⟩ : BufTy).Contents (Elt F) → (⟨S800000, .i32⟩ : BufTy).Contents (Elt F)),
    binary main_v3 main_v50 main_v51 (addi : (⟨S800000, .i32⟩ : BufTy).Contents (Elt F) → (⟨S800000, .i32⟩ : BufTy).Contents (Elt F) → (⟨S800000, .i32⟩ : BufTy).Contents (Elt F)),
    ternary main_v49 main_v51 main_v3 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v52 main_v53 (broadcastInDim S800000x1 ![0] bcast_S800000_S800000x1_0 : (⟨S800000, .i32⟩ : BufTy).Contents (Elt F) → (⟨S800000x1, .i32⟩ : BufTy).Contents (Elt F)),
    binary main_v40 main_v53 main_v54 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v47 main_v54 main_v55 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v55 main_arg6 main_v56 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg7 main_v57 (broadcastInDim S1x128 ![1] bcast_S128_S1x128_1 : (⟨S128, .f32⟩ : BufTy).Contents (Elt F) → (⟨S1x128, .f32⟩ : BufTy).Contents (Elt F)),
    unary main_v57 main_v58 (broadcastInDim S800000x128 ![0, 1] bcast_S1x128_S800000x128_0_1 : (⟨S1x128, .f32⟩ : BufTy).Contents (Elt F) → (⟨S800000x128, .f32⟩ : BufTy).Contents (Elt F)),
    binary main_v56 main_v58 main_v59 (addf : (⟨S800000x128, .f32⟩ : BufTy).Contents (Elt F) → (⟨S800000x128, .f32⟩ : BufTy).Contents (Elt F) → (⟨S800000x128, .f32⟩ : BufTy).Contents (Elt F)),
    StableHlo.nullary main_call2_cst (((constant S_ .f32 0x00000000#32)) : (⟨S_, .f32⟩ : BufTy).Contents (Elt F)),
    StableHlo.unary main_call2_cst main_call2_v0 (((broadcastInDim S800000x128 ![] bcast_S_S800000x128)) : (⟨S_, .f32⟩ : BufTy).Contents (Elt F) → (⟨S800000x128, .f32⟩ : BufTy).Contents (Elt F)),
    StableHlo.binary main_v59 main_call2_v0 main_v60 ((maximumf) : (⟨S800000x128, .f32⟩ : BufTy).Contents (Elt F) → (⟨S800000x128, .f32⟩ : BufTy).Contents (Elt F) → (⟨S800000x128, .f32⟩ : BufTy).Contents (Elt F)),
    binary main_v60 main_arg8 main_v61 ((fun l r => Host.dotGeneral dot_S800000x128_S128x40_S800000x40_1_0_0_1_n_n none l r) : (⟨S800000x128, .f32⟩ : BufTy).Contents (Elt F) → (⟨S128x40, .f32⟩ : BufTy).Contents (Elt F) → (⟨S800000x40, .f32⟩ : BufTy).Contents (Elt F)),
    unary main_arg9 main_v62 (broadcastInDim S1x40 ![1] bcast_S40_S1x40_1 : (⟨S40, .f32⟩ : BufTy).Contents (Elt F) → (⟨S1x40, .f32⟩ : BufTy).Contents (Elt F)),
    unary main_v62 main_v63 (broadcastInDim S800000x40 ![0, 1] bcast_S1x40_S800000x40_0_1 : (⟨S1x40, .f32⟩ : BufTy).Contents (Elt F) → (⟨S800000x40, .f32⟩ : BufTy).Contents (Elt F)),
    binary main_v61 main_v63 main_v64 (addf : (⟨S800000x40, .f32⟩ : BufTy).Contents (Elt F) → (⟨S800000x40, .f32⟩ : BufTy).Contents (Elt F) → (⟨S800000x40, .f32⟩ : BufTy).Contents (Elt F)),
    StableHlo.nullary main_call3_cst (((constant S_ .f32 0xFF800000#32)) : (⟨S_, .f32⟩ : BufTy).Contents (Elt F)),
    StableHlo.binary main_v64 main_call3_cst main_call3_v0 (((fun x v => Host.reduce FloatOps.maximumf x v reducesTo_S800000x40_S800000_d1 h_S_)) : (⟨S800000x40, .f32⟩ : BufTy).Contents (Elt F) → (⟨S_, .f32⟩ : BufTy).Contents (Elt F) → (⟨S800000, .f32⟩ : BufTy).Contents (Elt F)),
    StableHlo.nullary main_call3_cst_0 (((constant S_ .f32 0xFF800000#32)) : (⟨S_, .f32⟩ : BufTy).Contents (Elt F)),
    StableHlo.unary main_call3_cst_0 main_call3_v1 (((broadcastInDim S800000 ![] bcast_S_S800000)) : (⟨S_, .f32⟩ : BufTy).Contents (Elt F) → (⟨S800000, .f32⟩ : BufTy).Contents (Elt F)),
    StableHlo.binary main_call3_v1 main_call3_v0 main_call3_v2 ((maximumf) : (⟨S800000, .f32⟩ : BufTy).Contents (Elt F) → (⟨S800000, .f32⟩ : BufTy).Contents (Elt F) → (⟨S800000, .f32⟩ : BufTy).Contents (Elt F)),
    StableHlo.unary main_call3_v2 main_call3_v3 (((broadcastInDim S800000x1 ![0] bcast_S800000_S800000x1_0)) : (⟨S800000, .f32⟩ : BufTy).Contents (Elt F) → (⟨S800000x1, .f32⟩ : BufTy).Contents (Elt F)),
    StableHlo.unary main_call3_v3 main_call3_v4 (((broadcastInDim S800000x40 ![0, 1] bcast_S800000x1_S800000x40_0_1)) : (⟨S800000x1, .f32⟩ : BufTy).Contents (Elt F) → (⟨S800000x40, .f32⟩ : BufTy).Contents (Elt F)),
    StableHlo.binary main_v64 main_call3_v4 main_call3_v5 ((subf) : (⟨S800000x40, .f32⟩ : BufTy).Contents (Elt F) → (⟨S800000x40, .f32⟩ : BufTy).Contents (Elt F) → (⟨S800000x40, .f32⟩ : BufTy).Contents (Elt F)),
    StableHlo.unary main_call3_v5 main_call3_v6 ((Host.exp) : (⟨S800000x40, .f32⟩ : BufTy).Contents (Elt F) → (⟨S800000x40, .f32⟩ : BufTy).Contents (Elt F)),
    StableHlo.nullary main_call3_cst_1 (((constant S_ .f32 0x00000000#32)) : (⟨S_, .f32⟩ : BufTy).Contents (Elt F)),
    StableHlo.binary main_call3_v6 main_call3_cst_1 main_call3_v7 (((fun x v => Host.reduceAdd x v reducesTo_S800000x40_S800000_d1 h_S_)) : (⟨S800000x40, .f32⟩ : BufTy).Contents (Elt F) → (⟨S_, .f32⟩ : BufTy).Contents (Elt F) → (⟨S800000, .f32⟩ : BufTy).Contents (Elt F)),
    StableHlo.unary main_call3_v7 main_call3_v8 (((broadcastInDim S800000x1 ![0] bcast_S800000_S800000x1_0)) : (⟨S800000, .f32⟩ : BufTy).Contents (Elt F) → (⟨S800000x1, .f32⟩ : BufTy).Contents (Elt F)),
    StableHlo.unary main_call3_v8 main_call3_v9 ((Host.log) : (⟨S800000x1, .f32⟩ : BufTy).Contents (Elt F) → (⟨S800000x1, .f32⟩ : BufTy).Contents (Elt F)),
    StableHlo.unary main_call3_v9 main_call3_v10 (((broadcastInDim S800000x40 ![0, 1] bcast_S800000x1_S800000x40_0_1)) : (⟨S800000x1, .f32⟩ : BufTy).Contents (Elt F) → (⟨S800000x40, .f32⟩ : BufTy).Contents (Elt F)),
    StableHlo.binary main_call3_v5 main_call3_v10 main_v65 ((subf) : (⟨S800000x40, .f32⟩ : BufTy).Contents (Elt F) → (⟨S800000x40, .f32⟩ : BufTy).Contents (Elt F) → (⟨S800000x40, .f32⟩ : BufTy).Contents (Elt F)) ]

end Cert.ReferenceIdeal.ValueH

end
-- ==== Proof.RefOpsChunks.lean ====
/- One list of host operations cut into consecutive chunks: the same operations, in the same order, each spelt as in the
   list. -/
import proofs.«428226_j5557687681586_1_alg».proof.Proof.Gen.ReferenceIdeal
import Idealize.ShloMosaic.Lib.StableHlo.Run

noncomputable section

namespace Cert.ReferenceIdeal.ValueH

open Cert.ReferenceIdeal Cert.ReferenceIdeal.Gen
open Idealize.ShloMosaic Idealize.ShloMosaic.TcCoe Idealize.SL.Sem Idealize.ShloMosaic.StableHlo

variable {F : FTy → Type} [FloatOps F]

abbrev opsGather1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

abbrev opsLayers12 : List (HloOp τ sig (Elt F)) :=
  [ binary main_v10 main_v17 main_v18 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v18 main_arg2 main_v19 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    unary main_arg3 main_v20 (broadcastInDim S1x256 ![1] bcast_S256_S1x256_1 : (⟨S256, .f32⟩ : BufTy).Contents (Elt F) → (⟨S1x256, .f32⟩ : BufTy).Contents (Elt F)),
    unary main_v20 main_v21 (broadcastInDim S800000x256 ![0, 1] bcast_S1x256_S800000x256_0_1 : (⟨S1x256, .f32⟩ : BufTy).Contents (Elt F) → (⟨S800000x256, .f32⟩ : BufTy).Contents (Elt F)),
    binary main_v19 main_v21 main_v22 (addf : (⟨S800000x256, .f32⟩ : BufTy).Contents (Elt F) → (⟨S800000x256, .f32⟩ : BufTy).Contents (Elt F) → (⟨S800000x256, .f32⟩ : BufTy).Contents (Elt F)),
    StableHlo.nullary main_call0_cst (((constant S_ .f32 0x00000000#32)) : (⟨S_, .f32⟩ : BufTy).Contents (Elt F)),
    StableHlo.unary main_call0_cst main_call0_v0 (((broadcastInDim S800000x256 ![] bcast_S_S800000x256)) : (⟨S_, .f32⟩ : BufTy).Contents (Elt F) → (⟨S800000x256, .f32⟩ : BufTy).Contents (Elt F)),
    StableHlo.binary main_v22 main_call0_v0 main_v23 ((maximumf) : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v24 (broadcastInDim S50000x256 ![] bcast_S_S50000x256 : (⟨S_, .f32⟩ : BufTy).Contents (Elt F) → (⟨S50000x256, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_3 (constant S_ .f32 0x3F800000#32),
    unary main_cst_3 main_v27 (broadcastInDim S800000 ![] bcast_S_S800000 : (⟨S_, .f32⟩ : BufTy).Contents (Elt F) → (⟨S800000, .f32⟩ : BufTy).Contents (Elt F)),
    nullary main_cst_4 (constant S_ .f32 0x00000000#32),
    unary main_cst_4 main_v28 (broadcastInDim S50000 ![] bcast_S_S50000 : (⟨S_, .f32⟩ : BufTy).Contents (Elt F) → (⟨S50000, .f32⟩ : BufTy).Contents (Elt F)),
    unary main_v3 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_5 (constant S_ .f32 0x3F800000#32),
    unary main_cst_5 main_v31 (broadcastInDim S50000 ![] bcast_S_S50000 : (⟨S_, .f32⟩ : BufTy).Contents (Elt F) → (⟨S50000, .f32⟩ : BufTy).Contents (Elt F)),
    binary main_v30 main_v31 main_v32 (maximumf : (⟨S50000, .f32⟩ : BufTy).Contents (Elt F) → (⟨S50000, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v26 main_v34 main_v35 (Host.divf : (⟨S50000x256, .f32⟩ : BufTy).Contents (Elt F) → (⟨S50000x256, .f32⟩ : BufTy).Contents (Elt F) → (⟨S50000x256, .f32⟩ : BufTy).Contents (Elt F)),
    binary main_v35 main_arg4 main_v36 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    StableHlo.nullary main_call1_cst (((constant S_ .f32 0x00000000#32)) : (⟨S_, .f32⟩ : BufTy).Contents (Elt F)),
    StableHlo.unary main_call1_cst main_call1_v0 (((broadcastInDim S50000x128 ![] bcast_S_S50000x128)) : (⟨S_, .f32⟩ : BufTy).Contents (Elt F) → (⟨S50000x128, .f32⟩ : BufTy).Contents (Elt F)),
    StableHlo.binary main_v39 main_call1_v0 main_v40 ((maximumf) : (⟨S50000x128, .f32⟩ : BufTy).Contents (Elt F) → (⟨S50000x128, .f32⟩ : BufTy).Contents (Elt F) → (⟨S50000x128, .f32⟩ : BufTy).Contents (Elt F)) ]

abbrev opsGather3 : List (HloOp τ sig (Elt F)) :=
  [ nullary main_c_6 (constantI S_ 32 0#32),
    unary main_c_6 main_v41 (broadcastInDim S800000 ![] bcast_S_S800000 : (⟨S_, .i32⟩ : BufTy).Contents (Elt F) → (⟨S800000, .i32⟩ : BufTy).Contents (Elt F)),
    binary main_v1 main_v41 main_v42 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v43 (broadcastInDim S800000 ![] bcast_S_S800000 : (⟨S_, .i32⟩ : BufTy).Contents (Elt F) → (⟨S800000, .i32⟩ : BufTy).Contents (Elt F)),
    binary main_v1 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_v1 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_8 (constantI S_ 32 0#32),
    unary main_c_8 main_v48 (broadcastInDim S800000 ![] bcast_S_S800000 : (⟨S_, .i32⟩ : BufTy).Contents (Elt F) → (⟨S800000, .i32⟩ : BufTy).Contents (Elt F)),
    binary main_v3 main_v48 main_v49 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v50 (broadcastInDim S800000 ![] bcast_S_S800000 : (⟨S_, .i32⟩ : BufTy).Contents (Elt F) → (⟨S800000, .i32⟩ : BufTy).Contents (Elt F)),
    binary main_v3 main_v50 main_v51 (addi : (⟨S800000, .i32⟩ : BufTy).Contents (Elt F) → (⟨S800000, .i32⟩ : BufTy).Contents (Elt F) → (⟨S800000, .i32⟩ : BufTy).Contents (Elt F)),
    ternary main_v49 main_v51 main_v3 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v52 main_v53 (broadcastInDim S800000x1 ![0] bcast_S800000_S800000x1_0 : (⟨S800000, .i32⟩ : BufTy).Contents (Elt F) → (⟨S800000x1, .i32⟩ : BufTy).Contents (Elt F)),
    binary main_v40 main_v53 main_v54 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

abbrev opsHead : List (HloOp τ sig (Elt F)) :=
  [ binary main_v47 main_v54 main_v55 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v55 main_arg6 main_v56 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg7 main_v57 (broadcastInDim S1x128 ![1] bcast_S128_S1x128_1 : (⟨S128, .f32⟩ : BufTy).Contents (Elt F) → (⟨S1x128, .f32⟩ : BufTy).Contents (Elt F)),
    unary main_v57 main_v58 (broadcastInDim S800000x128 ![0, 1] bcast_S1x128_S800000x128_0_1 : (⟨S1x128, .f32⟩ : BufTy).Contents (Elt F) → (⟨S800000x128, .f32⟩ : BufTy).Contents (Elt F)),
    binary main_v56 main_v58 main_v59 (addf : (⟨S800000x128, .f32⟩ : BufTy).Contents (Elt F) → (⟨S800000x128, .f32⟩ : BufTy).Contents (Elt F) → (⟨S800000x128, .f32⟩ : BufTy).Contents (Elt F)),
    StableHlo.nullary main_call2_cst (((constant S_ .f32 0x00000000#32)) : (⟨S_, .f32⟩ : BufTy).Contents (Elt F)),
    StableHlo.unary main_call2_cst main_call2_v0 (((broadcastInDim S800000x128 ![] bcast_S_S800000x128)) : (⟨S_, .f32⟩ : BufTy).Contents (Elt F) → (⟨S800000x128, .f32⟩ : BufTy).Contents (Elt F)),
    StableHlo.binary main_v59 main_call2_v0 main_v60 ((maximumf) : (⟨S800000x128, .f32⟩ : BufTy).Contents (Elt F) → (⟨S800000x128, .f32⟩ : BufTy).Contents (Elt F) → (⟨S800000x128, .f32⟩ : BufTy).Contents (Elt F)),
    binary main_v60 main_arg8 main_v61 ((fun l r => Host.dotGeneral dot_S800000x128_S128x40_S800000x40_1_0_0_1_n_n none l r) : (⟨S800000x128, .f32⟩ : BufTy).Contents (Elt F) → (⟨S128x40, .f32⟩ : BufTy).Contents (Elt F) → (⟨S800000x40, .f32⟩ : BufTy).Contents (Elt F)),
    unary main_arg9 main_v62 (broadcastInDim S1x40 ![1] bcast_S40_S1x40_1 : (⟨S40, .f32⟩ : BufTy).Contents (Elt F) → (⟨S1x40, .f32⟩ : BufTy).Contents (Elt F)),
    unary main_v62 main_v63 (broadcastInDim S800000x40 ![0, 1] bcast_S1x40_S800000x40_0_1 : (⟨S1x40, .f32⟩ : BufTy).Contents (Elt F) → (⟨S800000x40, .f32⟩ : BufTy).Contents (Elt F)),
    binary main_v61 main_v63 main_v64 (addf : (⟨S800000x40, .f32⟩ : BufTy).Contents (Elt F) → (⟨S800000x40, .f32⟩ : BufTy).Contents (Elt F) → (⟨S800000x40, .f32⟩ : BufTy).Contents (Elt F)),
    StableHlo.nullary main_call3_cst (((constant S_ .f32 0xFF800000#32)) : (⟨S_, .f32⟩ : BufTy).Contents (Elt F)),
    StableHlo.binary main_v64 main_call3_cst main_call3_v0 (((fun x v => Host.reduce FloatOps.maximumf x v reducesTo_S800000x40_S800000_d1 h_S_)) : (⟨S800000x40, .f32⟩ : BufTy).Contents (Elt F) → (⟨S_, .f32⟩ : BufTy).Contents (Elt F) → (⟨S800000, .f32⟩ : BufTy).Contents (Elt F)),
    StableHlo.nullary main_call3_cst_0 (((constant S_ .f32 0xFF800000#32)) : (⟨S_, .f32⟩ : BufTy).Contents (Elt F)),
    StableHlo.unary main_call3_cst_0 main_call3_v1 (((broadcastInDim S800000 ![] bcast_S_S800000)) : (⟨S_, .f32⟩ : BufTy).Contents (Elt F) → (⟨S800000, .f32⟩ : BufTy).Contents (Elt F)),
    StableHlo.binary main_call3_v1 main_call3_v0 main_call3_v2 ((maximumf) : (⟨S800000, .f32⟩ : BufTy).Contents (Elt F) → (⟨S800000, .f32⟩ : BufTy).Contents (Elt F) → (⟨S800000, .f32⟩ : BufTy).Contents (Elt F)),
    StableHlo.unary main_call3_v2 main_call3_v3 (((broadcastInDim S800000x1 ![0] bcast_S800000_S800000x1_0)) : (⟨S800000, .f32⟩ : BufTy).Contents (Elt F) → (⟨S800000x1, .f32⟩ : BufTy).Contents (Elt F)),
    StableHlo.unary main_call3_v3 main_call3_v4 (((broadcastInDim S800000x40 ![0, 1] bcast_S800000x1_S800000x40_0_1)) : (⟨S800000x1, .f32⟩ : BufTy).Contents (Elt F) → (⟨S800000x40, .f32⟩ : BufTy).Contents (Elt F)),
    StableHlo.binary main_v64 main_call3_v4 main_call3_v5 ((subf) : (⟨S800000x40, .f32⟩ : BufTy).Contents (Elt F) → (⟨S800000x40, .f32⟩ : BufTy).Contents (Elt F) → (⟨S800000x40, .f32⟩ : BufTy).Contents (Elt F)),
    StableHlo.unary main_call3_v5 main_call3_v6 ((Host.exp) : (⟨S800000x40, .f32⟩ : BufTy).Contents (Elt F) → (⟨S800000x40, .f32⟩ : BufTy).Contents (Elt F)),
    StableHlo.nullary main_call3_cst_1 (((constant S_ .f32 0x00000000#32)) : (⟨S_, .f32⟩ : BufTy).Contents (Elt F)),
    StableHlo.binary main_call3_v6 main_call3_cst_1 main_call3_v7 (((fun x v => Host.reduceAdd x v reducesTo_S800000x40_S800000_d1 h_S_)) : (⟨S800000x40, .f32⟩ : BufTy).Contents (Elt F) → (⟨S_, .f32⟩ : BufTy).Contents (Elt F) → (⟨S800000, .f32⟩ : BufTy).Contents (Elt F)),
    StableHlo.unary main_call3_v7 main_call3_v8 (((broadcastInDim S800000x1 ![0] bcast_S800000_S800000x1_0)) : (⟨S800000, .f32⟩ : BufTy).Contents (Elt F) → (⟨S800000x1, .f32⟩ : BufTy).Contents (Elt F)),
    StableHlo.unary main_call3_v8 main_call3_v9 ((Host.log) : (⟨S800000x1, .f32⟩ : BufTy).Contents (Elt F) → (⟨S800000x1, .f32⟩ : BufTy).Contents (Elt F)),
    StableHlo.unary main_call3_v9 main_call3_v10 (((broadcastInDim S800000x40 ![0, 1] bcast_S800000x1_S800000x40_0_1)) : (⟨S800000x1, .f32⟩ : BufTy).Contents (Elt F) → (⟨S800000x40, .f32⟩ : BufTy).Contents (Elt F)),
    StableHlo.binary main_call3_v5 main_call3_v10 main_v65 ((subf) : (⟨S800000x40, .f32⟩ : BufTy).Contents (Elt F) → (⟨S800000x40, .f32⟩ : BufTy).Contents (Elt F) → (⟨S800000x40, .f32⟩ : BufTy).Contents (Elt F)) ]

end Cert.ReferenceIdeal.ValueH

end
-- ==== Proof.RefRunHand.lean ====
/-
  The reference program's run, read back over its list of host operations.

  The program is the sequence of its 98 host operations; the operations of the functions it calls stand in their
  calls' places, spelt over typed references. The same operations over plain references are the same list, element
  by element; over the plain list each result buffer after the run is the operations' composed term of the
  arguments' launch contents, and the arguments are unchanged.
-/
import proofs.«428226_j5557687681586_1_alg».proof.Proof.Gen.ReferenceIdeal
import Idealize.ShloMosaic.Lib.StableHlo.Run
import Idealize.ShloMosaic.Lib.Pipeline.Frame
import proofs.«428226_j5557687681586_1_alg».proof.Proof.RefRead
import proofs.«428226_j5557687681586_1_alg».proof.Proof.RefOpsPlain
import proofs.«428226_j5557687681586_1_alg».proof.Proof.RefOpsChunks

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v10 main_v17 main_v18 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v18 main_arg2 main_v19 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    unary main_arg3 main_v20 (broadcastInDim S1x256 ![1] bcast_S256_S1x256_1 : (⟨S256, .f32⟩ : BufTy).Contents (Elt F) → (⟨S1x256, .f32⟩ : BufTy).Contents (Elt F)),
    unary main_v20 main_v21 (broadcastInDim S800000x256 ![0, 1] bcast_S1x256_S800000x256_0_1 : (⟨S1x256, .f32⟩ : BufTy).Contents (Elt F) → (⟨S800000x256, .f32⟩ : BufTy).Contents (Elt F)),
    binary main_v19 main_v21 main_v22 (addf : (⟨S800000x256, .f32⟩ : BufTy).Contents (Elt F) → (⟨S800000x256, .f32⟩ : BufTy).Contents (Elt F) → (⟨S800000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x256, .f32⟩) main_call0_v0) (broadcastInDim S800000x256 ![] bcast_S_S800000x256),
    TRef.binary (TRef.of (T := ⟨S800000x256, .f32⟩) main_v22) (TRef.of (T := ⟨S800000x256, .f32⟩) main_call0_v0) (TRef.of (T := ⟨S800000x256, .f32⟩) main_v23) maximumf,
    nullary main_cst (constant S_ .f32 0x00000000#32),
    unary main_cst main_v24 (broadcastInDim S50000x256 ![] bcast_S_S50000x256 : (⟨S_, .f32⟩ : BufTy).Contents (Elt F) → (⟨S50000x256, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_3 (constant S_ .f32 0x3F800000#32),
    unary main_cst_3 main_v27 (broadcastInDim S800000 ![] bcast_S_S800000 : (⟨S_, .f32⟩ : BufTy).Contents (Elt F) → (⟨S800000, .f32⟩ : BufTy).Contents (Elt F)),
    nullary main_cst_4 (constant S_ .f32 0x00000000#32),
    unary main_cst_4 main_v28 (broadcastInDim S50000 ![] bcast_S_S50000 : (⟨S_, .f32⟩ : BufTy).Contents (Elt F) → (⟨S50000, .f32⟩ : BufTy).Contents (Elt F)),
    unary main_v3 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_5 (constant S_ .f32 0x3F800000#32),
    unary main_cst_5 main_v31 (broadcastInDim S50000 ![] bcast_S_S50000 : (⟨S_, .f32⟩ : BufTy).Contents (Elt F) → (⟨S50000, .f32⟩ : BufTy).Contents (Elt F)),
    binary main_v30 main_v31 main_v32 (maximumf : (⟨S50000, .f32⟩ : BufTy).Contents (Elt F) → (⟨S50000, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v26 main_v34 main_v35 (Host.divf : (⟨S50000x256, .f32⟩ : BufTy).Contents (Elt F) → (⟨S50000x256, .f32⟩ : BufTy).Contents (Elt F) → (⟨S50000x256, .f32⟩ : BufTy).Contents (Elt F)),
    binary main_v35 main_arg4 main_v36 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v39) (TRef.of (T := ⟨S50000x128, .f32⟩) main_call1_v0) (TRef.of (T := ⟨S50000x128, .f32⟩) main_v40) maximumf,
    nullary main_c_6 (constantI S_ 32 0#32),
    unary main_c_6 main_v41 (broadcastInDim S800000 ![] bcast_S_S800000 : (⟨S_, .i32⟩ : BufTy).Contents (Elt F) → (⟨S800000, .i32⟩ : BufTy).Contents (Elt F)),
    binary main_v1 main_v41 main_v42 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v43 (broadcastInDim S800000 ![] bcast_S_S800000 : (⟨S_, .i32⟩ : BufTy).Contents (Elt F) → (⟨S800000, .i32⟩ : BufTy).Contents (Elt F)),
    binary main_v1 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_v1 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_8 (constantI S_ 32 0#32),
    unary main_c_8 main_v48 (broadcastInDim S800000 ![] bcast_S_S800000 : (⟨S_, .i32⟩ : BufTy).Contents (Elt F) → (⟨S800000, .i32⟩ : BufTy).Contents (Elt F)),
    binary main_v3 main_v48 main_v49 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v50 (broadcastInDim S800000 ![] bcast_S_S800000 : (⟨S_, .i32⟩ : BufTy).Contents (Elt F) → (⟨S800000, .i32⟩ : BufTy).Contents (Elt F)),
    binary main_v3 main_v50 main_v51 (addi : (⟨S800000, .i32⟩ : BufTy).Contents (Elt F) → (⟨S800000, .i32⟩ : BufTy).Contents (Elt F) → (⟨S800000, .i32⟩ : BufTy).Contents (Elt F)),
    ternary main_v49 main_v51 main_v3 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v52 main_v53 (broadcastInDim S800000x1 ![0] bcast_S800000_S800000x1_0 : (⟨S800000, .i32⟩ : BufTy).Contents (Elt F) → (⟨S800000x1, .i32⟩ : BufTy).Contents (Elt F)),
    binary main_v40 main_v53 main_v54 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v47 main_v54 main_v55 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v55 main_arg6 main_v56 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg7 main_v57 (broadcastInDim S1x128 ![1] bcast_S128_S1x128_1 : (⟨S128, .f32⟩ : BufTy).Contents (Elt F) → (⟨S1x128, .f32⟩ : BufTy).Contents (Elt F)),
    unary main_v57 main_v58 (broadcastInDim S800000x128 ![0, 1] bcast_S1x128_S800000x128_0_1 : (⟨S1x128, .f32⟩ : BufTy).Contents (Elt F) → (⟨S800000x128, .f32⟩ : BufTy).Contents (Elt F)),
    binary main_v56 main_v58 main_v59 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x128, .f32⟩) main_call2_v0) (broadcastInDim S800000x128 ![] bcast_S_S800000x128),
    TRef.binary (TRef.of (T := ⟨S800000x128, .f32⟩) main_v59) (TRef.of (T := ⟨S800000x128, .f32⟩) main_call2_v0) (TRef.of (T := ⟨S800000x128, .f32⟩) main_v60) maximumf,
    binary main_v60 main_arg8 main_v61 ((fun l r => Host.dotGeneral dot_S800000x128_S128x40_S800000x40_1_0_0_1_n_n none l r) : (⟨S800000x128, .f32⟩ : BufTy).Contents (Elt F) → (⟨S128x40, .f32⟩ : BufTy).Contents (Elt F) → (⟨S800000x40, .f32⟩ : BufTy).Contents (Elt F)),
    unary main_arg9 main_v62 (broadcastInDim S1x40 ![1] bcast_S40_S1x40_1 : (⟨S40, .f32⟩ : BufTy).Contents (Elt F) → (⟨S1x40, .f32⟩ : BufTy).Contents (Elt F)),
    unary main_v62 main_v63 (broadcastInDim S800000x40 ![0, 1] bcast_S1x40_S800000x40_0_1 : (⟨S1x40, .f32⟩ : BufTy).Contents (Elt F) → (⟨S800000x40, .f32⟩ : BufTy).Contents (Elt F)),
    binary main_v61 main_v63 main_v64 (addf : (⟨S800000x40, .f32⟩ : BufTy).Contents (Elt F) → (⟨S800000x40, .f32⟩ : BufTy).Contents (Elt F) → (⟨S800000x40, .f32⟩ : BufTy).Contents (Elt F)),
    TRef.nullary (TRef.of (T := ⟨S_, .f32⟩) main_call3_cst) (constant S_ .f32 0xFF800000#32),
    TRef.binary (TRef.of (T := ⟨S800000x40, .f32⟩) main_v64) (TRef.of (T := ⟨S_, .f32⟩) main_call3_cst) (TRef.of (T := ⟨S800000, .f32⟩) main_call3_v0) (fun x v => Host.reduce FloatOps.maximumf x v reducesTo_S800000x40_S800000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S800000, .f32⟩) main_call3_v1) (broadcastInDim S800000 ![] bcast_S_S800000),
    TRef.binary (TRef.of (T := ⟨S800000, .f32⟩) main_call3_v1) (TRef.of (T := ⟨S800000, .f32⟩) main_call3_v0) (TRef.of (T := ⟨S800000, .f32⟩) main_call3_v2) maximumf,
    TRef.unary (TRef.of (T := ⟨S800000, .f32⟩) main_call3_v2) (TRef.of (T := ⟨S800000x1, .f32⟩) main_call3_v3) (broadcastInDim S800000x1 ![0] bcast_S800000_S800000x1_0),
    TRef.unary (TRef.of (T := ⟨S800000x1, .f32⟩) main_call3_v3) (TRef.of (T := ⟨S800000x40, .f32⟩) main_call3_v4) (broadcastInDim S800000x40 ![0, 1] bcast_S800000x1_S800000x40_0_1),
    TRef.binary (TRef.of (T := ⟨S800000x40, .f32⟩) main_v64) (TRef.of (T := ⟨S800000x40, .f32⟩) main_call3_v4) (TRef.of (T := ⟨S800000x40, .f32⟩) main_call3_v5) subf,
    TRef.unary (TRef.of (T := ⟨S800000x40, .f32⟩) main_call3_v5) (TRef.of (T := ⟨S800000x40, .f32⟩) main_call3_v6) Host.exp,
    TRef.nullary (TRef.of (T := ⟨S_, .f32⟩) main_call3_cst_1) (constant S_ .f32 0x00000000#32),
    TRef.binary (TRef.of (T := ⟨S800000x40, .f32⟩) main_call3_v6) (TRef.of (T := ⟨S_, .f32⟩) main_call3_cst_1) (TRef.of (T := ⟨S800000, .f32⟩) main_call3_v7) (fun x v => Host.reduceAdd x v reducesTo_S800000x40_S800000_d1 h_S_),
    TRef.unary (TRef.of (T := ⟨S800000, .f32⟩) main_call3_v7) (TRef.of (T := ⟨S800000x1, .f32⟩) main_call3_v8) (broadcastInDim S800000x1 ![0] bcast_S800000_S800000x1_0),
    TRef.unary (TRef.of (T := ⟨S800000x1, .f32⟩) main_call3_v8) (TRef.of (T := ⟨S800000x1, .f32⟩) main_call3_v9) Host.log,
    TRef.unary (TRef.of (T := ⟨S800000x1, .f32⟩) main_call3_v9) (TRef.of (T := ⟨S800000x40, .f32⟩) main_call3_v10) (broadcastInDim S800000x40 ![0, 1] bcast_S800000x1_S800000x40_0_1),
    TRef.binary (TRef.of (T := ⟨S800000x40, .f32⟩) main_call3_v5) (TRef.of (T := ⟨S800000x40, .f32⟩) main_call3_v10) (TRef.of (T := ⟨S800000x40, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The row maximum's operation over typed references at its literal buffers is the plain operation, whatever its function. -/
theorem rowMax_op_plain (g : (⟨S800000x40, .f32⟩ : BufTy).Contents (Elt F) → (⟨S_, .f32⟩ : BufTy).Contents (Elt F) → (⟨S800000, .f32⟩ : BufTy).Contents (Elt F)) :
    (TRef.binary (TRef.of (T := ⟨S800000x40, .f32⟩) main_v64) (TRef.of (T := ⟨S_, .f32⟩) main_call3_cst) (TRef.of (T := ⟨S800000, .f32⟩) main_call3_v0) g : HloOp τ sig (Elt F))
      = StableHlo.binary main_v64 main_call3_cst main_call3_v0 g := rfl

/-- The row sum's operation likewise. -/
theorem rowSum_op_plain (g : (⟨S800000x40, .f32⟩ : BufTy).Contents (Elt F) → (⟨S_, .f32⟩ : BufTy).Contents (Elt F) → (⟨S800000, .f32⟩ : BufTy).Contents (Elt F)) :
    (TRef.binary (TRef.of (T := ⟨S800000x40, .f32⟩) main_call3_v6) (TRef.of (T := ⟨S_, .f32⟩) main_call3_cst_1) (TRef.of (T := ⟨S800000, .f32⟩) main_call3_v7) g : HloOp τ sig (Elt F))
      = StableHlo.binary main_call3_v6 main_call3_cst_1 main_call3_v7 g := rfl

set_option maxHeartbeats 4000000 in
/-- The list over typed references is the list over plain references, element by element. -/
theorem ops_eq : (ops : List (HloOp τ sig (Elt F))) = opsPlain := by
  iterate 84 (refine congrArg₂ List.cons rfl ?_)
  refine congrArg₂ List.cons (rowMax_op_plain _) ?_
  iterate 8 (refine congrArg₂ List.cons rfl ?_)
  refine congrArg₂ List.cons (rowSum_op_plain _) ?_
  iterate 4 (refine congrArg₂ List.cons rfl ?_)
  rfl

theorem main_eq' (c : Dev nD) : main (F := F) c = seq opsPlain := (main_eq c).trans (congrArg seq ops_eq)

/-! ## The four chunks read over any contents -/

variable (Y : Valuation τ sig (Elt F))

theorem gather1_src : after opsGather1 Y (Proc.devRef .tc main_v1) = ReadP.val_main_v1 (F := F) (Y (Proc.devRef .tc main_arg1)) := by
  after_results_simp <;> rfl

theorem gather1_dst : after opsGather1 Y (Proc.devRef .tc main_v3) = ReadP.val_main_v3 (F := F) (Y (Proc.devRef .tc main_arg1)) := by
  after_results_simp <;> rfl

theorem gather1_v10 : after opsGather1 Y (Proc.devRef .tc main_v10)
    = ReadP.val_main_v10 (F := F) (Y (Proc.devRef .tc main_arg0)) (Y (Proc.devRef .tc main_arg1)) := by
  after_results_simp <;> rfl

theorem gather1_v17 : after opsGather1 Y (Proc.devRef .tc main_v17)
    = ReadP.val_main_v17 (F := F) (Y (Proc.devRef .tc main_arg0)) (Y (Proc.devRef .tc main_arg1)) := by
  after_results_simp <;> rfl

/-- The first chunk writes the two index vectors, the temporaries of the two gathers and the gathered arrays only. -/
theorem keep_opsGather1 (b : Ref sig .tc)
    (hb : ∀ r ∈ ([main_v0, main_v1, main_v2, main_v3, main_c, main_v4, main_v5, main_c_0, main_v6, main_v7, main_v8, main_v9, main_v10, main_c_1, main_v11, main_v12, main_c_2, main_v13, main_v14, main_v15, main_v16, main_v17] : List (Ref sig .tc)), b ≠ r) :
    after opsGather1 Y (Proc.devRef .tc b) = Y (Proc.devRef .tc b) := by
  refine after_of_forall_not_mem _ _ (List.forall_iff_forall_mem.mp ?_)
  simp only [opsGather1, List.Forall, nullary_writes, unary_writes, binary_writes, ternary_writes, reshape_writes, Finset.mem_singleton]
  repeat' apply And.intro
  all_goals exact devRef_ne_of_ne (hb _ (by simp only [List.mem_cons, true_or, or_true]))

set_option maxHeartbeats 4000000 in
/-- The second chunk: from the two gathered arrays and the destination indices to the node features of the second layer. -/
theorem layers12_v40 (x0 : (⟨S50000x128, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F))
    (h10 : Y (Proc.devRef .tc main_v10) = ReadP.val_main_v10 (F := F) x0 x1)
    (h17 : Y (Proc.devRef .tc main_v17) = ReadP.val_main_v17 (F := F) x0 x1)
    (hd : Y (Proc.devRef .tc main_v3) = ReadP.val_main_v3 (F := F) x1)
    (h2 : Y (Proc.devRef .tc main_arg2) = x2) (h3 : Y (Proc.devRef .tc main_arg3) = x3)
    (h4 : Y (Proc.devRef .tc main_arg4) = x4) (h5 : Y (Proc.devRef .tc main_arg5) = x5) :
    after opsLayers12 Y (Proc.devRef .tc main_v40) = ReadP.val_main_v40 (F := F) x0 x1 x2 x3 x4 x5 := by
  after_results_simp
  rw [h10, h17, hd, h2, h3, h4, h5]
  rfl

/-- The second chunk writes its own results only. -/
theorem keep_opsLayers12 (b : Ref sig .tc)
    (hb : ∀ r ∈ ([main_v18, main_v19, main_v20, main_v21, main_v22, main_call0_cst, main_call0_v0, main_v23, main_cst, main_v24, main_v25, main_v26, main_cst_3, main_v27, main_cst_4, main_v28, main_v29, main_v30, main_cst_5, main_v31, main_v32, main_v33, main_v34, main_v35, main_v36, main_v37, main_v38, main_v39, main_call1_cst, main_call1_v0, main_v40] : List (Ref sig .tc)), b ≠ r) :
    after opsLayers12 Y (Proc.devRef .tc b) = Y (Proc.devRef .tc b) := by
  refine after_of_forall_not_mem _ _ (List.forall_iff_forall_mem.mp ?_)
  simp only [opsLayers12, List.Forall, nullary_writes, unary_writes, binary_writes, ternary_writes, reshape_writes, Finset.mem_singleton]
  repeat' apply And.intro
  all_goals exact devRef_ne_of_ne (hb _ (by simp only [List.mem_cons, true_or, or_true]))

/-- The third chunk: the node features gathered at the source indices. -/
theorem gather3_v47 (x0 : (⟨S50000x128, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F))
    (h40 : Y (Proc.devRef .tc main_v40) = ReadP.val_main_v40 (F := F) x0 x1 x2 x3 x4 x5)
    (hs : Y (Proc.devRef .tc main_v1) = ReadP.val_main_v1 (F := F) x1) :
    after opsGather3 Y (Proc.devRef .tc main_v47) = ReadP.val_main_v47 (F := F) x0 x1 x2 x3 x4 x5 := by
  after_results_simp
  rw [h40, hs]
  rfl

/-- … and at the destination indices. -/
theorem gather3_v54 (x0 : (⟨S50000x128, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F))
    (h40 : Y (Proc.devRef .tc main_v40) = ReadP.val_main_v40 (F := F) x0 x1 x2 x3 x4 x5)
    (hd : Y (Proc.devRef .tc main_v3) = ReadP.val_main_v3 (F := F) x1) :
    after opsGather3 Y (Proc.devRef .tc main_v54) = ReadP.val_main_v54 (F := F) x0 x1 x2 x3 x4 x5 := by
  after_results_simp
  rw [h40, hd]
  rfl

/-- The third chunk writes the temporaries of its two gathers and the gathered arrays only. -/
theorem keep_opsGather3 (b : Ref sig .tc)
    (hb : ∀ r ∈ ([main_c_6, main_v41, main_v42, main_c_7, main_v43, main_v44, main_v45, main_v46, main_v47, main_c_8, main_v48, main_v49, main_c_9, main_v50, main_v51, main_v52, main_v53, main_v54] : List (Ref sig .tc)), b ≠ r) :
    after opsGather3 Y (Proc.devRef .tc b) = Y (Proc.devRef .tc b) := by
  refine after_of_forall_not_mem _ _ (List.forall_iff_forall_mem.mp ?_)
  simp only [opsGather3, List.Forall, nullary_writes, unary_writes, binary_writes, ternary_writes, reshape_writes, Finset.mem_singleton]
  repeat' apply And.intro
  all_goals exact devRef_ne_of_ne (hb _ (by simp only [List.mem_cons, true_or, or_true]))

set_option maxHeartbeats 4000000 in
/-- The fourth chunk: from the two gathered arrays to the log-probabilities. -/
theorem head_v65 (x0 : (⟨S50000x128, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x8 : (⟨S128x40, .f32⟩ : BufTy).Contents (Elt F)) (x9 : (⟨S40, .f32⟩ : BufTy).Contents (Elt F))
    (h47 : Y (Proc.devRef .tc main_v47) = ReadP.val_main_v47 (F := F) x0 x1 x2 x3 x4 x5)
    (h54 : Y (Proc.devRef .tc main_v54) = ReadP.val_main_v54 (F := F) x0 x1 x2 x3 x4 x5)
    (h6 : Y (Proc.devRef .tc main_arg6) = x6) (h7 : Y (Proc.devRef .tc main_arg7) = x7)
    (h8 : Y (Proc.devRef .tc main_arg8) = x8) (h9 : Y (Proc.devRef .tc main_arg9) = x9) :
    after opsHead Y (Proc.devRef .tc main_v65) = ReadP.val_main_v65 (F := F) x0 x1 x2 x3 x4 x5 x6 x7 x8 x9 := by
  after_results_simp
  rw [h47, h54, h6, h7, h8, h9]
  rfl

/-- The fourth chunk writes its own results only. -/
theorem keep_opsHead (b : Ref sig .tc)
    (hb : ∀ r ∈ ([main_v55, main_v56, main_v57, main_v58, main_v59, main_call2_cst, main_call2_v0, main_v60, main_v61, main_v62, main_v63, main_v64, main_call3_cst, main_call3_v0, main_call3_cst_0, main_call3_v1, main_call3_v2, main_call3_v3, main_call3_v4, main_call3_v5, main_call3_v6, main_call3_cst_1, main_call3_v7, main_call3_v8, main_call3_v9, main_call3_v10, main_v65] : List (Ref sig .tc)), b ≠ r) :
    after opsHead Y (Proc.devRef .tc b) = Y (Proc.devRef .tc b) := by
  refine after_of_forall_not_mem _ _ (List.forall_iff_forall_mem.mp ?_)
  simp only [opsHead, List.Forall, nullary_writes, unary_writes, binary_writes, ternary_writes, reshape_writes, Finset.mem_singleton]
  repeat' apply And.intro
  all_goals exact devRef_ne_of_ne (hb _ (by simp only [List.mem_cons, true_or, or_true]))

/-! ## The whole list -/

/-- The list is its four chunks in order. -/
theorem opsPlain_split : (opsPlain : List (HloOp τ sig (Elt F))) = opsGather1 ++ (opsLayers12 ++ (opsGather3 ++ opsHead)) := rfl

/-- The result buffer after the whole list, over any contents: the last stage of the arguments' contents. -/
theorem opsPlain_v65 (X : Valuation τ sig (Elt F)) :
    after opsPlain X (Proc.devRef .tc main_v65) = ReadP.val_main_v65 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) := by
  rw [opsPlain_split, after_append, after_append, after_append]
  have s1 := gather1_src X
  have d1 := gather1_dst X
  have g10 := gather1_v10 X
  have g17 := gather1_v17 X
  have k1 : ∀ b : Ref sig .tc, (∀ r ∈ ([main_v0, main_v1, main_v2, main_v3, main_c, main_v4, main_v5, main_c_0, main_v6, main_v7, main_v8, main_v9, main_v10, main_c_1, main_v11, main_v12, main_c_2, main_v13, main_v14, main_v15, main_v16, main_v17] : List (Ref sig .tc)), b ≠ r) →
      after opsGather1 X (Proc.devRef .tc b) = X (Proc.devRef .tc b) := keep_opsGather1 X
  generalize after opsGather1 X = Y1 at s1 d1 g10 g17 k1 ⊢
  have v40 := layers12_v40 Y1 _ _ _ _ _ _ g10 g17 d1 (k1 main_arg2 (by decide)) (k1 main_arg3 (by decide))
    (k1 main_arg4 (by decide)) (k1 main_arg5 (by decide))
  have k2 : ∀ b : Ref sig .tc, (∀ r ∈ ([main_v18, main_v19, main_v20, main_v21, main_v22, main_call0_cst, main_call0_v0, main_v23, main_cst, main_v24, main_v25, main_v26, main_cst_3, main_v27, main_cst_4, main_v28, main_v29, main_v30, main_cst_5, main_v31, main_v32, main_v33, main_v34, main_v35, main_v36, main_v37, main_v38, main_v39, main_call1_cst, main_call1_v0, main_v40] : List (Ref sig .tc)), b ≠ r) →
      after opsLayers12 Y1 (Proc.devRef .tc b) = Y1 (Proc.devRef .tc b) := keep_opsLayers12 Y1
  have s2 := (k2 main_v1 (by decide)).trans s1
  have d2 := (k2 main_v3 (by decide)).trans d1
  have a6 := (k2 main_arg6 (by decide)).trans (k1 main_arg6 (by decide))
  have a7 := (k2 main_arg7 (by decide)).trans (k1 main_arg7 (by decide))
  have a8 := (k2 main_arg8 (by decide)).trans (k1 main_arg8 (by decide))
  have a9 := (k2 main_arg9 (by decide)).trans (k1 main_arg9 (by decide))
  clear s1 d1 g10 g17 k1 k2
  generalize after opsLayers12 Y1 = Y2 at v40 s2 d2 a6 a7 a8 a9 ⊢
  have v47 := gather3_v47 Y2 _ _ _ _ _ _ v40 s2
  have v54 := gather3_v54 Y2 _ _ _ _ _ _ v40 d2
  have k3 : ∀ b : Ref sig .tc, (∀ r ∈ ([main_c_6, main_v41, main_v42, main_c_7, main_v43, main_v44, main_v45, main_v46, main_v47, main_c_8, main_v48, main_v49, main_c_9, main_v50, main_v51, main_v52, main_v53, main_v54] : List (Ref sig .tc)), b ≠ r) →
      after opsGather3 Y2 (Proc.devRef .tc b) = Y2 (Proc.devRef .tc b) := keep_opsGather3 Y2
  exact head_v65 _ _ _ _ _ _ _ _ _ _ _ v47 v54 ((k3 main_arg6 (by decide)).trans a6) ((k3 main_arg7 (by decide)).trans a7)
    ((k3 main_arg8 (by decide)).trans a8) ((k3 main_arg9 (by decide)).trans a9)

/-- A buffer no operation of the list writes keeps its contents. -/
theorem keep_opsPlain (X : Valuation τ sig (Elt F)) (b : Ref sig .tc)
    (hb : ∀ r ∈ ([main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_call0_cst, main_call0_v0, main_v23, main_cst, main_v24, main_v25, main_v26, main_cst_3, main_v27, main_cst_4, main_v28, main_v29, main_v30, main_cst_5, main_v31, main_v32, main_v33, main_v34, main_v35, main_v36, main_v37, main_v38, main_v39, main_call1_cst, main_call1_v0, main_v40, main_c_6, main_v41, main_v42, main_c_7, main_v43, main_v44, main_v45, main_v46, main_v47, main_c_8, main_v48, main_v49, main_c_9, main_v50, main_v51, main_v52, main_v53, main_v54, main_v55, main_v56, main_v57, main_v58, main_v59, main_call2_cst, main_call2_v0, main_v60, main_v61, main_v62, main_v63, main_v64, main_call3_cst, main_call3_v0, main_call3_cst_0, main_call3_v1, main_call3_v2, main_call3_v3, main_call3_v4, main_call3_v5, main_call3_v6, main_call3_cst_1, main_call3_v7, main_call3_v8, main_call3_v9, main_call3_v10, main_v65] : List (Ref sig .tc)), b ≠ r) :
    after opsPlain X (Proc.devRef .tc b) = X (Proc.devRef .tc b) := by
  refine after_of_forall_not_mem _ _ (List.forall_iff_forall_mem.mp ?_)
  simp only [opsPlain, List.Forall, nullary_writes, unary_writes, binary_writes, ternary_writes, reshape_writes, Finset.mem_singleton]
  repeat' apply And.intro
  all_goals exact devRef_ne_of_ne (hb _ (by simp only [List.mem_cons, true_or, or_true]))

set_option maxRecDepth 8192 in
theorem opsPlain_sub : (opsPlain : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- On every device, for any float values, from any memory with zero counters: every weakly fair execution of
    @main terminates with the result at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v65).trans (opsPlain_v65 (launchContents m c)),
      (h c main_arg0).trans (keep_opsPlain (launchContents m c) main_arg0 (by decide)),
      (h c main_arg1).trans (keep_opsPlain (launchContents m c) main_arg1 (by decide)),
      (h c main_arg2).trans (keep_opsPlain (launchContents m c) main_arg2 (by decide)),
      (h c main_arg3).trans (keep_opsPlain (launchContents m c) main_arg3 (by decide)),
      (h c main_arg4).trans (keep_opsPlain (launchContents m c) main_arg4 (by decide)),
      (h c main_arg5).trans (keep_opsPlain (launchContents m c) main_arg5 (by decide)),
      (h c main_arg6).trans (keep_opsPlain (launchContents m c) main_arg6 (by decide)),
      (h c main_arg7).trans (keep_opsPlain (launchContents m c) main_arg7 (by decide)),
      (h c main_arg8).trans (keep_opsPlain (launchContents m c) main_arg8 (by decide)),
      (h c main_arg9).trans (keep_opsPlain (launchContents m c) main_arg9 (by decide))⟩)
    (run_seq scopedRefs_eq scopedSems_eq defs main (fun _ => opsPlain) main_eq' (fun _ => opsPlain_sub) m ρ)

end Cert.ReferenceIdeal.ValueH

end
-- ==== Proof.LibConcatDot.lean ====
/-
  A matrix product against two arrays joined along the columns, at the ideal values.

  When an `[M, K]` array `X` and an `[M, K]` array `Y` are joined along the columns into an `[M, K + K]` array,
  the product of the joined array with a `[K + K, N]` matrix `W` is the product of `X` with the upper `K` rows of
  `W` plus the product of `Y` with the lower `K` rows: the sum along the contracted axis splits at `K`
  (`Fin.sum_univ_add`), a joined row reads `X` on its first `K` columns and `Y` on the rest, and a slice of `W`
  reads `W` at the shifted row.
-/
import Mathlib.Algebra.BigOperators.Fin
import Idealize.ShloMosaic.Lib.Pipeline.Value
import Idealize.ShloMosaic.Lib.ValueIdx
import proofs.«428226_j5557687681586_1_alg».proof.Proof.LibRowOps

noncomputable section

namespace Cert.Lib

open Idealize.ShloMosaic Idealize.ShloMosaic.ValueIdx

/-- The host's product of the two arrays joined along the columns with a weight matrix of twice the rows: the first
    array against the upper half of the weights plus the second array against the lower half. -/
theorem host_dot_concat_eq {M K K2 N : ℕ} (hK : K2 = K + K) (prec : Option ContractPrecision)
    (X Y : FVec Ideal ⟨2, ![M, K]⟩ .f32) (W : FVec Ideal ⟨2, ![K2, N]⟩ .f32)
    (hcat : Shape.Concatenates [(⟨2, ![M, K]⟩ : Shape), ⟨2, ![M, K]⟩] ⟨2, ![M, K2]⟩ 1)
    (hs0 : (⟨2, ![K2, N]⟩ : Shape).Slices ![0, 0] ⟨2, ![K, N]⟩)
    (hs1 : (⟨2, ![K2, N]⟩ : Shape).Slices ![K, 0] ⟨2, ![K, N]⟩) :
    Host.dotGeneral (DotDims.plain M K2 N) prec
        (concatenate ⟨2, ![M, K2]⟩ 1 [⟨⟨2, ![M, K]⟩, X⟩, ⟨⟨2, ![M, K]⟩, Y⟩] hcat) W
      = fun i => projArr X (extractStridedSlice ⟨2, ![K, N]⟩ ![0, 0] W hs0) i
          + projArr Y (extractStridedSlice ⟨2, ![K, N]⟩ ![K, 0] W hs1) i := by
  subst hK
  funext i
  obtain ⟨r, j, rfl⟩ : ∃ (r : Fin M) (j : Fin N), i = ix2 r j := ⟨i 0, i 1, eq_ix2 i⟩
  rw [dotGeneral_rows_apply, projArr_apply, projArr_apply]
  unfold projRow
  rw [Fin.sum_univ_add]
  congr 1
  · refine Finset.sum_congr rfl fun k _ => ?_
    beta_reduce
    rw [concatenate_pair_apply_left 1 X Y hcat (ix2 r (Fin.castAdd K k)) rfl (ix2 r k) (fun b => by
        match b with
        | ⟨0, _⟩ => rfl
        | ⟨1, _⟩ => rfl),
      extractStridedSlice_apply ![0, 0] W hs0 (ix2 k j) (ix2 (Fin.castAdd K k) j) (fun a => by
        match a with
        | ⟨0, _⟩ => show k.val = 0 + k.val; omega
        | ⟨1, _⟩ => show j.val = 0 + j.val; omega)]
  · refine Finset.sum_congr rfl fun k _ => ?_
    beta_reduce
    rw [concatenate_pair_apply_right 1 X Y hcat (ix2 r (Fin.natAdd K k)) rfl rfl (ix2 r k) (fun b hb => by
        match b with
        | ⟨0, _⟩ => rfl
        | ⟨1, _⟩ => exact absurd rfl hb) (by show k.val + K = K + k.val; omega),
      extractStridedSlice_apply ![K, 0] W hs1 (ix2 k j) (ix2 (Fin.natAdd K k) j) (fun a => by
        match a with
        | ⟨0, _⟩ => show K + k.val = K + k.val; rfl
        | ⟨1, _⟩ => show j.val = 0 + j.val; omega)]

end Cert.Lib

end
-- ==== Proof.Ref0.lean ====
/-
  The reference's first stage as the edge layer of the two gathered arrays.

  The reference joins the two gathered feature arrays along the columns and multiplies by the whole first weight
  matrix: the product of a joined row with the matrix is the product of its first half with the upper half of the
  matrix plus the product of its second half with the lower half. It then adds the bias, broadcast to a row and down
  the rows, and takes the positive part against the broadcast zero: the edge layer of the two gathered arrays, the two
  halves of the weights, and the bias viewed as a row.
-/
import proofs.«428226_j5557687681586_1_alg».proof.Proof.RefRead
import proofs.«428226_j5557687681586_1_alg».proof.Proof.Layers
import proofs.«428226_j5557687681586_1_alg».proof.Proof.LibConcatDot

noncomputable section

namespace Cert.RefStages

open Cert.ReferenceIdeal Cert.ReferenceIdeal.Gen Cert.ReferenceIdeal.ReadP
open Idealize.ShloMosaic Idealize.ShloMosaic.ValueIdx Idealize.SL.Sem
open Cert.Lib Cert.Gnn

theorem dotRefEdge_plain : dot_S800000x256_S256x256_S800000x256_1_0_0_1_n_n = DotDims.plain 800000 256 256 := rfl

/-- The product of the joined gathered arrays with the first weights splits along the halves of the weights. -/
theorem edge_dot_stage (hs0 : (⟨2, ![256, 256]⟩ : Shape).Slices ![0, 0] ⟨2, ![128, 256]⟩)
    (hs1 : (⟨2, ![256, 256]⟩ : Shape).Slices ![128, 0] ⟨2, ![128, 256]⟩) (x0 : (⟨S50000x128, .f32⟩ : BufTy).Contents (Elt Ideal)) (x1 : (⟨S2x800000, .i32⟩ : BufTy).Contents (Elt Ideal)) (x2 : (⟨S256x256, .f32⟩ : BufTy).Contents (Elt Ideal)) :
    val_main_v19 (F := Ideal) x0 x1 x2
      = fun i => projArr (val_main_v10 (F := Ideal) x0 x1) (extractStridedSlice ⟨2, ![128, 256]⟩ ![0, 0] x2 hs0) i
          + projArr (val_main_v17 (F := Ideal) x0 x1) (extractStridedSlice ⟨2, ![128, 256]⟩ ![128, 0] x2 hs1) i := by
  unfold val_main_v19 val_main_v18
  rw [dotRefEdge_plain]
  exact host_dot_concat_eq (K := 128) (by decide) none _ _ x2 concatenates_S800000x128_S800000x128_S800000x256_d1 hs0 hs1

/-- The reference's first stage is the edge layer of the two gathered arrays, the two halves of the first weights and
    the first bias as a row. -/
theorem val_main_v23_eq (hs0 : (⟨2, ![256, 256]⟩ : Shape).Slices ![0, 0] ⟨2, ![128, 256]⟩)
    (hs1 : (⟨2, ![256, 256]⟩ : Shape).Slices ![128, 0] ⟨2, ![128, 256]⟩)
    (hb1 : (⟨1, ![256]⟩ : Shape).ShapeCasts ⟨2, ![1, 256]⟩) (x0 : (⟨S50000x128, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) :
    Cert.ReferenceIdeal.ReadP.val_main_v23 (F := Ideal) x0 x1 x2 x3
      = Cert.Gnn.edgeLayer (Cert.ReferenceIdeal.ReadP.val_main_v10 (F := Ideal) x0 x1)
          (Cert.ReferenceIdeal.ReadP.val_main_v17 (F := Ideal) x0 x1)
          (extractStridedSlice ⟨2, ![128, 256]⟩ ![0, 0] x2 hs0) (extractStridedSlice ⟨2, ![128, 256]⟩ ![128, 0] x2 hs1)
          (shapeCast ⟨2, ![1, 256]⟩ x3 hb1) := by
  unfold val_main_v23 val_main_v22 val_main_call0_v0 val_main_call0_cst val_main_v21 val_main_v20
  rw [edge_dot_stage hs0 hs1]
  refine (host_biasRelu_eq _ x3 bcast_S1x256_S800000x256_0_1 bcast_S256_S1x256_1 bcast_S_S800000x256 hb1 _).trans ?_
  rw [Ideal.ofBits_zero_f32]
  rfl

end Cert.RefStages

end
-- ==== Proof.Ref1.lean ====
/-
  The reference's node stage is the node layer of its own earlier stages.

  The reference averages each node's aggregated messages by the node's message count, applies the dense layer and
  takes the positive part, all in whole-array host operations: the count VECTOR is capped below by a broadcast one,
  viewed as a column and broadcast along the rows of the aggregate; the aggregate is divided by it, multiplied into
  the weight matrix by a plain `dot_general`, the bias vector is broadcast to a row and down the rows and added, and
  the maximum against a broadcast zero is taken. Read as one function of whole arrays this is the node layer of the
  aggregate (the scatter-add of the edge messages), of the count vector viewed as a column, of the weight matrix and
  of the bias vector viewed as a row. The two scatter-adds stay folded: the layer is a function of their results.
-/
import proofs.«428226_j5557687681586_1_alg».proof.Proof.RefRead
import proofs.«428226_j5557687681586_1_alg».proof.Proof.NodeLayer

noncomputable section

namespace Cert.RefStages

open Cert.ReferenceIdeal
open Idealize.ShloMosaic Idealize.ShloMosaic.ValueIdx
open Cert.Lib Cert.Gnn

/-- The reference's node product contracts axis 1 of the mean with axis 0 of the weight matrix: the plain numbers. -/
theorem node_dot_plain : dot_S50000x256_S256x128_S50000x128_1_0_0_1_n_n = DotDims.plain 50000 256 128 := rfl

/-- The reference's node stage is the node layer of the aggregate, the count column, the weights and the bias row. -/
theorem val_main_v40_eq (hc : (⟨1, ![50000]⟩ : Shape).ShapeCasts ⟨2, ![50000, 1]⟩)
    (hb : (⟨1, ![128]⟩ : Shape).ShapeCasts ⟨2, ![1, 128]⟩)
    (x0 : (⟨S50000x128, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    Cert.ReferenceIdeal.ReadP.val_main_v40 (F := Ideal) x0 x1 x2 x3 x4 x5
      = Cert.Gnn.nodeLayer (M := 50000) (K := 256) (N := 128) (Cert.ReferenceIdeal.ReadP.val_main_v26 (F := Ideal) x0 x1 x2 x3)
          (shapeCast ⟨2, ![50000, 1]⟩ (Cert.ReferenceIdeal.ReadP.val_main_v30 (F := Ideal) x1) hc) x4
          (shapeCast ⟨2, ![1, 128]⟩ x5 hb) := by
  unfold ReadP.val_main_v40 ReadP.val_main_v39 ReadP.val_main_v38 ReadP.val_main_v37 ReadP.val_main_call1_v0
    ReadP.val_main_call1_cst ReadP.val_main_v36 ReadP.val_main_v35 ReadP.val_main_v34 ReadP.val_main_v33
    ReadP.val_main_v32 ReadP.val_main_v31 ReadP.val_main_cst_5
  rw [node_dot_plain]
  exact host_nodeLayer_eq (ReadP.val_main_v26 (F := Ideal) x0 x1 x2 x3) (ReadP.val_main_v30 (F := Ideal) x1) x4 x5 none
    _ _ _ hc _ _ _ hb

end Cert.RefStages

end
-- ==== Proof.Ref2.lean ====
/-
  The reference's last stages as the head layer of the two gathered arrays.

  The reference joins the two gathered feature arrays along the columns and multiplies by the whole hidden weight
  matrix; the product of a joined row with the matrix is the product of its first half with the upper half of the
  matrix plus the product of its second half with the lower half. It then adds the bias, takes the positive part,
  multiplies by the output weights, adds their bias and takes the log-softmax of each row: the row's maximum (the
  maximum of the bottom word with a `reduce` from the bottom word) subtracted, and the logarithm of the summed
  exponentials subtracted. Read as whole-array functions these are the steps of the head layer.
-/
import Mathlib.Algebra.BigOperators.Fin
import Idealize.ShloMosaic.PureOps.Reduce
import Idealize.ShloMosaic.PureOps.Ideal.Laws
import Idealize.ShloMosaic.Lib.Pipeline.Value
import Idealize.ShloMosaic.Lib.ValueIdx
import proofs.«428226_j5557687681586_1_alg».proof.Proof.RefRead
import proofs.«428226_j5557687681586_1_alg».proof.Proof.HeadLayer
import proofs.«428226_j5557687681586_1_alg».proof.Proof.LibConcatDot

noncomputable section

namespace Cert.Gnn.HeadHost

open Idealize.ShloMosaic Idealize.ShloMosaic.ValueIdx Cert.Lib Cert.Gnn

/-! ## The host's spelling of the head layer's steps -/

/-- The word `0xFF800000` is the bottom element. -/
theorem ofBits_negInf_f32 : Ideal.ofBits .f32 0xFF800000#32 = ⊥ := by simp [Ideal.ofBits, Ideal.ieee]

theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl

/-- The index a reduction over axis 1 reads at row `r` and coordinate `k` of the dropped axis is `(r, k)`. -/
theorem lift_axis1 {M C : ℕ} (h : (⟨2, ![M, C]⟩ : Shape).Reduces [1] (⟨1, ![M]⟩ : Shape)) (r : Fin M)
    (k : Fin ((⟨2, ![M, C]⟩ : Shape).size 1)) : h.lift (ix1 r) k = ix2 r (⟨k.val, k.isLt⟩ : Fin C) := by
  funext c; apply Fin.ext
  fin_cases c <;> rfl

/-- A length-`C` bias broadcast to a row and then down the rows, added: the bias vector viewed as a `[1, C]` row. -/
theorem host_addRow_eq {M C : ℕ} (A : FVec Ideal ⟨2, ![M, C]⟩ .f32) (b : FVec Ideal ⟨1, ![C]⟩ .f32)
    (h1 : (⟨2, ![1, C]⟩ : Shape).BroadcastsInDim ⟨2, ![M, C]⟩ ![0, 1])
    (h2 : (⟨1, ![C]⟩ : Shape).BroadcastsInDim ⟨2, ![1, C]⟩ ![1])
    (h4 : (⟨1, ![C]⟩ : Shape).ShapeCasts ⟨2, ![1, C]⟩) :
    addf A (broadcastInDim ⟨2, ![M, C]⟩ ![0, 1] h1 (broadcastInDim ⟨2, ![1, C]⟩ ![1] h2 b))
      = addRowArr A (shapeCast ⟨2, ![1, C]⟩ b h4) := by
  funext i
  obtain ⟨r, k, rfl⟩ : ∃ (r : Fin M) (k : Fin C), i = ix2 r k := ⟨i 0, i 1, eq_ix2 i⟩
  rw [addf_apply, addRowArr_apply]
  have e1 : broadcastInDim ⟨2, ![M, C]⟩ ![0, 1] h1 (broadcastInDim ⟨2, ![1, C]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if C = 1 then 0 else k.val
        split
        · have := k.isLt; omega
        · rfl)]
    exact broadcastInDim_apply ![1] h2 b (ix2 (0 : Fin 1) k) (ix1 k) (fun ax => by
      match ax with
      | ⟨0, _⟩ =>
        show k.val = if C = 1 then 0 else k.val
        split
        · have := k.isLt; omega
        · rfl)
  have e3 : shapeCast ⟨2, ![1, C]⟩ b h4 (ix2 (0 : Fin 1) k) = b (ix1 k) :=
    shapeCast_apply b h4 _ _ (by
      rw [Shape.rowMajor_val_two, Shape.rowMajor_val_one]
      show k.val = 0 * C + k.val
      omega)
  rw [e1, e3]

/-- A length-`M` vector broadcast to a column and the column broadcast along the rows reads, at `(r, c)`, the
    vector's entry `r`. -/
theorem host_col_apply {M C : ℕ} (v : FVec Ideal ⟨1, ![M]⟩ .f32)
    (hb1 : (⟨1, ![M]⟩ : Shape).BroadcastsInDim ⟨2, ![M, 1]⟩ ![0])
    (hb2 : (⟨2, ![M, 1]⟩ : Shape).BroadcastsInDim ⟨2, ![M, C]⟩ ![0, 1]) (r : Fin M) (c : Fin C) :
    broadcastInDim ⟨2, ![M, C]⟩ ![0, 1] hb2 (broadcastInDim ⟨2, ![M, 1]⟩ ![0] hb1 v) (ix2 r c) = v (ix1 r) := by
  rw [broadcastInDim_apply ![0, 1] hb2 _ (ix2 r c) (ix2 r (0 : Fin 1)) (fun ax => by
    match ax with
    | ⟨0, _⟩ =>
      show r.val = if M = 1 then 0 else r.val
      split
      · have := r.isLt; omega
      · rfl
    | ⟨1, _⟩ => rfl)]
  exact broadcastInDim_apply ![0] hb1 v (ix2 r (0 : Fin 1)) (ix1 r) (fun ax => by
    match ax with
    | ⟨0, _⟩ =>
      show r.val = if M = 1 then 0 else r.val
      split
      · have := r.isLt; omega
      · rfl)

/-- The host's row maximum: the maximum of the bottom word with the `reduce` over axis 1 from the bottom word. -/
theorem host_rowMax_apply {M C : ℕ} (L : FVec Ideal ⟨2, ![M, C]⟩ .f32)
    (hr' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel) (hb0 : (⟨0, ![]⟩ : Shape).BroadcastsInDim ⟨1, ![M]⟩ ![]) (r : Fin M) :
    maximumf (broadcastInDim ⟨1, ![M]⟩ ![] hb0 (constant (F := Ideal) ⟨0, ![]⟩ .f32 0xFF800000#32))
        (Host.reduce FloatOps.maximumf L (constant (F := Ideal) ⟨0, ![]⟩ .f32 0xFF800000#32) hr' hu) (ix1 r)
      = rowMax fun c => L (ix2 r c) := by
  rw [maximumf_apply, Host.reduce_eq_fold_single FloatOps.maximumf L _ hr' hr hu]
  have e0 : broadcastInDim ⟨1, ![M]⟩ ![] hb0 (constant (F := Ideal) ⟨0, ![]⟩ .f32 0xFF800000#32) (ix1 r) = ⊥ := by
    rw [broadcastInDim_apply ![] hb0 _ (ix1 r) ix0 (fun ax => ax.elim0)]
    exact ofBits_negInf_f32
  have hf : (L ∘ hr.lift (ix1 r)) = fun k : Fin C => L (ix2 r k) := funext fun k => congrArg L (lift_axis1 hr r k)
  rw [e0]
  show max ⊥ ((Finset.univ : Finset (Fin C)).fold max (Ideal.ofBits .f32 0xFF800000#32) (L ∘ hr.lift (ix1 r))) = _
  rw [ofBits_negInf_f32, hf, max_eq_right bot_le]
  rfl

/-- The host's row sum from the zero word. -/
theorem host_rowSum_apply {M C : ℕ} (E : FVec Ideal ⟨2, ![M, C]⟩ .f32)
    (hr' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel) (r : Fin M) :
    Host.reduceAdd E (constant (F := Ideal) ⟨0, ![]⟩ .f32 0x00000000#32) hr' hu (ix1 r) = ∑ c : Fin C, E (ix2 r c) := by
  simp only [Host.reduceAdd, Ideal.hostReduceAdd_def]
  rw [Ideal.hostReduceAdd_single hr' hr]
  show Ideal.ofBits .f32 0x00000000#32 + _ = _
  rw [Ideal.ofBits_zero_f32, zero_add]
  exact Finset.sum_congr rfl fun k _ => congrArg E (lift_axis1 hr r k)

/-- The host's log-softmax of an array of logits. -/
theorem host_logSoftmax_eq {M C : ℕ} (L : FVec Ideal ⟨2, ![M, C]⟩ .f32)
    (hr' : (⟨2, ![M, C]⟩ : Shape).ReducesTo [1] (⟨1, ![M]⟩ : Shape)) (hr : (⟨2, ![M, C]⟩ : Shape).Reduces [1] (⟨1, ![M]⟩ : Shape))
    (hu : 0 < (⟨0, ![]⟩ : Shape).numel) (hb0 : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, C]⟩ ![0, 1]) :
    subf (subf L (broadcastInDim ⟨2, ![M, C]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu)))))
        (broadcastInDim ⟨2, ![M, C]⟩ ![0, 1] hb2 (Host.log (broadcastInDim ⟨2, ![M, 1]⟩ ![0] hb1
          (Host.reduceAdd (Host.exp (subf L (broadcastInDim ⟨2, ![M, C]⟩ ![0, 1] hb2 (broadcastInDim ⟨2, ![M, 1]⟩ ![0] hb1
              (maximumf (broadcastInDim ⟨1, ![M]⟩ ![] hb0 (constant (F := Ideal) ⟨0, ![]⟩ .f32 0xFF800000#32))
                (Host.reduce FloatOps.maximumf L (constant (F := Ideal) ⟨0, ![]⟩ .f32 0xFF800000#32) hr' hu))))))
            (constant (F := Ideal) ⟨0, ![]⟩ .f32 0x00000000#32) hr' hu))))
      = logSoftmaxArr L := by
  have hd : ∀ (r : Fin M) (c : Fin C),
      subf L (broadcastInDim ⟨2, ![M, C]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu)))) (ix2 r c)
        = L (ix2 r c) - rowMax fun c => L (ix2 r c) := by
    intro r c
    rw [subf_apply, host_col_apply, host_rowMax_apply L hr' hr hu hb0 r]
  generalize subf L (broadcastInDim ⟨2, ![M, C]⟩ ![0, 1] hb2 (broadcastInDim ⟨2, ![M, 1]⟩ ![0] hb1
      (maximumf (broadcastInDim ⟨1, ![M]⟩ ![] hb0 (constant (F := Ideal) ⟨0, ![]⟩ .f32 0xFF800000#32))
        (Host.reduce FloatOps.maximumf L (constant (F := Ideal) ⟨0, ![]⟩ .f32 0xFF800000#32) hr' hu)))) = D at hd ⊢
  funext i
  obtain ⟨r, c, rfl⟩ : ∃ (r : Fin M) (c : Fin C), i = ix2 r c := ⟨i 0, i 1, eq_ix2 i⟩
  rw [subf_apply, hd, logSoftmaxArr_apply]
  have hlog : broadcastInDim ⟨2, ![M, C]⟩ ![0, 1] hb2 (Host.log (broadcastInDim ⟨2, ![M, 1]⟩ ![0] hb1
      (Host.reduceAdd (Host.exp D) (constant (F := Ideal) ⟨0, ![]⟩ .f32 0x00000000#32) hr' hu))) (ix2 r c)
      = Ideal.log (∑ c' : Fin C, Ideal.exp (D (ix2 r c'))) := by
    rw [broadcastInDim_apply ![0, 1] hb2 _ (ix2 r c) (ix2 r (0 : Fin 1)) (fun ax => by
      match ax with
      | ⟨0, _⟩ =>
        show r.val = if M = 1 then 0 else r.val
        split
        · have := r.isLt; omega
        · rfl
      | ⟨1, _⟩ => rfl)]
    rw [hostLog_apply, broadcastInDim_apply ![0] hb1 _ (ix2 r (0 : Fin 1)) (ix1 r) (fun ax => by
      match ax with
      | ⟨0, _⟩ =>
        show r.val = if M = 1 then 0 else r.val
        split
        · have := r.isLt; omega
        · rfl), host_rowSum_apply (Host.exp D) hr' hr hu r]
    rfl
  rw [hlog]
  simp only [hd]
  rfl

end Cert.Gnn.HeadHost

namespace Cert.RefStages

open Cert.ReferenceIdeal Cert.ReferenceIdeal.Gen Cert.ReferenceIdeal.ReadP
open Idealize.ShloMosaic Idealize.ShloMosaic.ValueIdx Idealize.SL.Sem
open Cert.Lib Cert.Gnn Cert.Gnn.HeadHost

theorem dotRefHidden_plain : dot_S800000x256_S256x128_S800000x128_1_0_0_1_n_n = DotDims.plain 800000 256 128 := rfl
theorem dotRefOut_plain : dot_S800000x128_S128x40_S800000x40_1_0_0_1_n_n = DotDims.plain 800000 128 40 := rfl

/-- The outlined log-softmax is the log-softmax of every row of the logits. -/
theorem logSoftmax_stage (x0 : (⟨S50000x128, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v65 (F := Ideal) x0 x1 x2 x3 x4 x5 x6 x7 x8 x9 = logSoftmaxArr (val_main_v64 (F := Ideal) x0 x1 x2 x3 x4 x5 x6 x7 x8 x9) := by
  unfold val_main_v65 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0
    val_main_call3_cst_1
  exact host_logSoftmax_eq _ reducesTo_S800000x40_S800000_d1 (by decide) h_S_ bcast_S_S800000 bcast_S800000_S800000x1_0
    bcast_S800000x1_S800000x40_0_1

/-- The product of the joined gathered arrays with the hidden weights splits along the halves of the weights. -/
theorem hidden_dot_stage (hs0 : (⟨2, ![256, 128]⟩ : Shape).Slices ![0, 0] ⟨2, ![128, 128]⟩)
    (hs1 : (⟨2, ![256, 128]⟩ : Shape).Slices ![128, 0] ⟨2, ![128, 128]⟩) (x0 : (⟨S50000x128, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) :
    val_main_v56 (F := Ideal) x0 x1 x2 x3 x4 x5 x6
      = fun i => projArr (val_main_v47 (F := Ideal) x0 x1 x2 x3 x4 x5) (extractStridedSlice ⟨2, ![128, 128]⟩ ![0, 0] x6 hs0) i
          + projArr (val_main_v54 (F := Ideal) x0 x1 x2 x3 x4 x5) (extractStridedSlice ⟨2, ![128, 128]⟩ ![128, 0] x6 hs1) i := by
  unfold val_main_v56 val_main_v55
  rw [dotRefHidden_plain]
  exact host_dot_concat_eq (K := 128) (by decide) none _ _ x6 concatenates_S800000x128_S800000x128_S800000x256_d1 hs0 hs1

/-- The hidden stage of the head is the edge layer of the two gathered arrays and the halves of the hidden weights. -/
theorem hidden_stage (hs0 : (⟨2, ![256, 128]⟩ : Shape).Slices ![0, 0] ⟨2, ![128, 128]⟩)
    (hs1 : (⟨2, ![256, 128]⟩ : Shape).Slices ![128, 0] ⟨2, ![128, 128]⟩)
    (hb3 : (⟨1, ![128]⟩ : Shape).ShapeCasts ⟨2, ![1, 128]⟩) (x0 : (⟨S50000x128, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) :
    val_main_v60 (F := Ideal) x0 x1 x2 x3 x4 x5 x6 x7
      = edgeLayer (val_main_v47 (F := Ideal) x0 x1 x2 x3 x4 x5) (val_main_v54 (F := Ideal) x0 x1 x2 x3 x4 x5)
          (extractStridedSlice ⟨2, ![128, 128]⟩ ![0, 0] x6 hs0) (extractStridedSlice ⟨2, ![128, 128]⟩ ![128, 0] x6 hs1)
          (shapeCast ⟨2, ![1, 128]⟩ x7 hb3) := by
  unfold val_main_v60 val_main_v59 val_main_call2_v0 val_main_call2_cst val_main_v58 val_main_v57
  rw [hidden_dot_stage hs0 hs1]
  refine (host_biasRelu_eq _ x7 bcast_S1x128_S800000x128_0_1 bcast_S128_S1x128_1 bcast_S_S800000x128 hb3 _).trans ?_
  rw [Ideal.ofBits_zero_f32]
  rfl

/-- The logits stage. -/
theorem logits_stage (hs0 : (⟨2, ![256, 128]⟩ : Shape).Slices ![0, 0] ⟨2, ![128, 128]⟩)
    (hs1 : (⟨2, ![256, 128]⟩ : Shape).Slices ![128, 0] ⟨2, ![128, 128]⟩)
    (hb3 : (⟨1, ![128]⟩ : Shape).ShapeCasts ⟨2, ![1, 128]⟩) (hb4 : (⟨1, ![40]⟩ : Shape).ShapeCasts ⟨2, ![1, 40]⟩) (x0 : (⟨S50000x128, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v64 (F := Ideal) x0 x1 x2 x3 x4 x5 x6 x7 x8 x9
      = logitsArr (val_main_v47 (F := Ideal) x0 x1 x2 x3 x4 x5) (val_main_v54 (F := Ideal) x0 x1 x2 x3 x4 x5)
          (extractStridedSlice ⟨2, ![128, 128]⟩ ![0, 0] x6 hs0) (extractStridedSlice ⟨2, ![128, 128]⟩ ![128, 0] x6 hs1)
          (shapeCast ⟨2, ![1, 128]⟩ x7 hb3) x8 (shapeCast ⟨2, ![1, 40]⟩ x9 hb4) := by
  unfold val_main_v64 val_main_v63 val_main_v62 val_main_v61
  rw [hidden_stage hs0 hs1 hb3, dotRefOut_plain, host_dot_eq]
  exact host_addRow_eq _ x9 bcast_S1x40_S800000x40_0_1 bcast_S40_S1x40_1 hb4

/-- The reference's result is the head layer of the two gathered arrays, the two halves of the hidden weights with
    their bias as a row, and the output weights with their bias as a row. -/
theorem val_main_v65_eq (hs0 : (⟨2, ![256, 128]⟩ : Shape).Slices ![0, 0] ⟨2, ![128, 128]⟩)
    (hs1 : (⟨2, ![256, 128]⟩ : Shape).Slices ![128, 0] ⟨2, ![128, 128]⟩)
    (hb3 : (⟨1, ![128]⟩ : Shape).ShapeCasts ⟨2, ![1, 128]⟩) (hb4 : (⟨1, ![40]⟩ : Shape).ShapeCasts ⟨2, ![1, 40]⟩) (x0 : (⟨S50000x128, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    Cert.ReferenceIdeal.ReadP.val_main_v65 (F := Ideal) x0 x1 x2 x3 x4 x5 x6 x7 x8 x9
      = Cert.Gnn.headLayer (Cert.ReferenceIdeal.ReadP.val_main_v47 (F := Ideal) x0 x1 x2 x3 x4 x5)
          (Cert.ReferenceIdeal.ReadP.val_main_v54 (F := Ideal) x0 x1 x2 x3 x4 x5)
          (extractStridedSlice ⟨2, ![128, 128]⟩ ![0, 0] x6 hs0) (extractStridedSlice ⟨2, ![128, 128]⟩ ![128, 0] x6 hs1)
          (shapeCast ⟨2, ![1, 128]⟩ x7 hb3) x8 (shapeCast ⟨2, ![1, 40]⟩ x9 hb4) := by
  rw [logSoftmax_stage, logits_stage hs0 hs1 hb3 hb4]
  rfl

end Cert.RefStages

end
-- ==== Proof.RefValue.lean ====
/-
  The reference's result as the composed network.

  Stage by stage the reference is the edge layer of the input rows gathered at the two ends of each edge, the
  scatter-add of that into node rows, the node layer of the sum and of the degree column, and the head layer of
  the node layer's rows gathered at the two ends of each edge again. The second pair of index columns is computed
  by the same operations on the same rows of the edge list as the first, so the four gathers read at two columns.
  Composed, this is the network's result over the gather as 'take' and the scatter-add as 'agg'.
-/
import proofs.«428226_j5557687681586_1_alg».proof.Proof.RefRead
import proofs.«428226_j5557687681586_1_alg».proof.Proof.Net
import proofs.«428226_j5557687681586_1_alg».proof.Proof.Ref0
import proofs.«428226_j5557687681586_1_alg».proof.Proof.Ref1
import proofs.«428226_j5557687681586_1_alg».proof.Proof.Ref2

noncomputable section

namespace Cert.RefStages

open Cert.ReferenceIdeal
open Idealize.ShloMosaic Idealize.ShloMosaic.ValueIdx
open Cert.Lib Cert.Gnn

/-- The index column at which the node layer's rows are gathered for the sources is the column at which the input
    rows were: the same operations on the same row of the edge list. -/
theorem src_col_again (x1 : (⟨S2x800000, .i32⟩ : BufTy).Contents (Elt Ideal)) :
    ReadP.val_main_v46 (F := Ideal) x1 = ReadP.val_main_v9 (F := Ideal) x1 := rfl

/-- Likewise for the destinations. -/
theorem dst_col_again (x1 : (⟨S2x800000, .i32⟩ : BufTy).Contents (Elt Ideal)) :
    ReadP.val_main_v53 (F := Ideal) x1 = ReadP.val_main_v16 (F := Ideal) x1 := rfl

/-- The reference's result is the composed network: the head layer of the node layer's rows gathered at the two ends
    of each edge, the node layer of the aggregated edge layer and the degree column, the edge layer of the input
    rows gathered at the two ends of each edge. -/
theorem ref_value (hW1a : (⟨2, ![256, 256]⟩ : Shape).Slices ![0, 0] ⟨2, ![128, 256]⟩)
    (hW1b : (⟨2, ![256, 256]⟩ : Shape).Slices ![128, 0] ⟨2, ![128, 256]⟩)
    (hb1 : (⟨1, ![256]⟩ : Shape).ShapeCasts ⟨2, ![1, 256]⟩)
    (hc : (⟨1, ![50000]⟩ : Shape).ShapeCasts ⟨2, ![50000, 1]⟩)
    (hb2 : (⟨1, ![128]⟩ : Shape).ShapeCasts ⟨2, ![1, 128]⟩)
    (hW3a : (⟨2, ![256, 128]⟩ : Shape).Slices ![0, 0] ⟨2, ![128, 128]⟩)
    (hW3b : (⟨2, ![256, 128]⟩ : Shape).Slices ![128, 0] ⟨2, ![128, 128]⟩)
    (hb3 : (⟨1, ![128]⟩ : Shape).ShapeCasts ⟨2, ![1, 128]⟩)
    (hb4 : (⟨1, ![40]⟩ : Shape).ShapeCasts ⟨2, ![1, 40]⟩)
    (x0 : (⟨S50000x128, .f32⟩ : BufTy).Contents (Elt Ideal))
    (x1 : (⟨S2x800000, .i32⟩ : BufTy).Contents (Elt Ideal))
    (x2 : (⟨S256x256, .f32⟩ : BufTy).Contents (Elt Ideal))
    (x3 : (⟨S256, .f32⟩ : BufTy).Contents (Elt Ideal))
    (x4 : (⟨S256x128, .f32⟩ : BufTy).Contents (Elt Ideal))
    (x5 : (⟨S128, .f32⟩ : BufTy).Contents (Elt Ideal))
    (x6 : (⟨S256x128, .f32⟩ : BufTy).Contents (Elt Ideal))
    (x7 : (⟨S128, .f32⟩ : BufTy).Contents (Elt Ideal))
    (x8 : (⟨S128x40, .f32⟩ : BufTy).Contents (Elt Ideal))
    (x9 : (⟨S40, .f32⟩ : BufTy).Contents (Elt Ideal)) :
    ReadP.val_main_v65 (F := Ideal) x0 x1 x2 x3 x4 x5 x6 x7 x8 x9
      = Cert.Gnn.netOut (fun T i => Host.gather gather_S50000x128_S800000x1_S800000x128_1_0_n_n_0_1_1128 T i)
          (fun u => Host.scatterAdd (F := Ideal) (φ := .f32) scatter_S50000x256_S800000x1_S800000x256_1_0_0_1 (ReadP.val_main_v24 (F := Ideal))
            (ReadP.val_main_v25 (F := Ideal) x1) u)
          (shapeCast ⟨2, ![50000, 1]⟩ (ReadP.val_main_v30 (F := Ideal) x1) hc)
          (ReadP.val_main_v9 (F := Ideal) x1) (ReadP.val_main_v16 (F := Ideal) x1)
          x0 (extractStridedSlice ⟨2, ![128, 256]⟩ ![0, 0] x2 hW1a) (extractStridedSlice ⟨2, ![128, 256]⟩ ![128, 0] x2 hW1b)
          (shapeCast ⟨2, ![1, 256]⟩ x3 hb1)
          x4 (shapeCast ⟨2, ![1, 128]⟩ x5 hb2)
          (extractStridedSlice ⟨2, ![128, 128]⟩ ![0, 0] x6 hW3a) (extractStridedSlice ⟨2, ![128, 128]⟩ ![128, 0] x6 hW3b)
          (shapeCast ⟨2, ![1, 128]⟩ x7 hb3) x8 (shapeCast ⟨2, ![1, 40]⟩ x9 hb4) := by
  rw [val_main_v65_eq hW3a hW3b hb3 hb4]
  unfold ReadP.val_main_v47 ReadP.val_main_v54
  rw [val_main_v40_eq hc hb2]
  unfold ReadP.val_main_v26
  rw [val_main_v23_eq hW1a hW1b hb1]
  unfold ReadP.val_main_v10 ReadP.val_main_v17
  rw [src_col_again, dst_col_again]
  rfl

end Cert.RefStages

end
-- ==== Proof.Bridge.lean ====
/-
  The kernel program's composed network is the reference's last stage.

  Between its three regions the kernel program gathers rows, adds edge rows into node rows and counts the edges of
  each node by host operations; the reference does the same by the same operations. The two programs name their
  gather and scatter dimension records, their shapes and their shape facts separately, but the records hold the
  same numbers and differ only in the proofs they carry, and the index columns, the zero and one arrays and the
  slices of the weights are the same terms over them. So the network composed over the kernel program's records is
  the network composed over the reference's, which is the reference's result.
-/
import proofs.«428226_j5557687681586_1_alg».proof.Proof.Gen.KernelIdeal
import proofs.«428226_j5557687681586_1_alg».proof.Proof.Gen.ReferenceIdeal
import proofs.«428226_j5557687681586_1_alg».proof.Proof.TakeRows
import proofs.«428226_j5557687681586_1_alg».proof.Proof.Net
import proofs.«428226_j5557687681586_1_alg».proof.Proof.RefValue

noncomputable section

namespace Cert.Bridge

open Idealize.ShloMosaic Idealize.ShloMosaic.ValueIdx

/-- The kernel program's composed network, over its own gather and scatter records and its own shape facts, is the
    reference's last stage: the two programs spell the take of rows, the adding of edge rows into node rows and the
    degree count by the same operations over records that differ only in the proofs they carry. -/
theorem kernel_net_eq_ref
    (x0 : (⟨Cert.ReferenceIdeal.S50000x128, .f32⟩ : BufTy).Contents (Elt Ideal))
    (e : IVec Cert.KernelIdeal.S2x800000 32)
    (x2 : (⟨Cert.ReferenceIdeal.S256x256, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S256x128, .f32⟩ : BufTy).Contents (Elt Ideal))
    (x7 : (⟨Cert.ReferenceIdeal.S128, .f32⟩ : BufTy).Contents (Elt Ideal))
    (x8 : (⟨Cert.ReferenceIdeal.S128x40, .f32⟩ : BufTy).Contents (Elt Ideal))
    (x9 : (⟨Cert.ReferenceIdeal.S40, .f32⟩ : BufTy).Contents (Elt Ideal)) :
    Cert.Gnn.netOut (fun T i => Host.gather Cert.KernelIdeal.gather_S50000x128_S800000x1_S800000x128_1_0_n_n_0_1_1128 T i)
        (fun u => Host.scatterAdd (F := Ideal) (φ := .f32) Cert.KernelIdeal.scatter_S50000x256_S800000x1_S800000x256_1_0_0_1
            (broadcastInDim Cert.KernelIdeal.S50000x256 ![] Cert.KernelIdeal.Facts₀.bcast_S_S50000x256 (constant (F := Ideal) Cert.KernelIdeal.S_ .f32 0x00000000#32))
            (broadcastInDim Cert.KernelIdeal.S800000x1 ![0] Cert.KernelIdeal.Facts₀.bcast_S800000_S800000x1_0 (Cert.KernelIdeal.Fold.dstOf e)) u)
        (shapeCast Cert.KernelIdeal.S50000x1 (Host.scatterAdd (F := Ideal) (φ := .f32) Cert.KernelIdeal.scatter_S50000_S800000x1_S800000_n_0_0_1
            (broadcastInDim Cert.KernelIdeal.S50000 ![] Cert.KernelIdeal.Facts₀.bcast_S_S50000 (constant (F := Ideal) Cert.KernelIdeal.S_ .f32 0x00000000#32))
            (broadcastInDim Cert.KernelIdeal.S800000x1 ![0] Cert.KernelIdeal.Facts₀.bcast_S800000_S800000x1_0 (Cert.KernelIdeal.Fold.dstOf e))
            (broadcastInDim Cert.KernelIdeal.S800000 ![] Cert.KernelIdeal.Facts₀.bcast_S_S800000 (constant (F := Ideal) Cert.KernelIdeal.S_ .f32 0x3F800000#32)))
          Cert.KernelIdeal.Facts₀.shapeCasts_S50000_S50000x1)
        (Cert.KernelIdeal.Fold.idxCol (Cert.KernelIdeal.Fold.srcOf e)) (Cert.KernelIdeal.Fold.idxCol (Cert.KernelIdeal.Fold.dstOf e))
        x0 (extractStridedSlice Cert.KernelIdeal.S128x256 ![0, 0] x2 Cert.KernelIdeal.Facts₀.slices_S256x256_S128x256_0_0)
        (extractStridedSlice Cert.KernelIdeal.S128x256 ![128, 0] x2 Cert.KernelIdeal.Facts₀.slices_S256x256_S128x256_128_0)
        (shapeCast Cert.KernelIdeal.S1x256 x3 Cert.KernelIdeal.Facts₀.shapeCasts_S256_S1x256)
        x4 (shapeCast Cert.KernelIdeal.S1x128 x5 Cert.KernelIdeal.Facts₀.shapeCasts_S128_S1x128)
        (extractStridedSlice Cert.KernelIdeal.S128x128 ![0, 0] x6 Cert.KernelIdeal.Facts₀.slices_S256x128_S128x128_0_0)
        (extractStridedSlice Cert.KernelIdeal.S128x128 ![128, 0] x6 Cert.KernelIdeal.Facts₀.slices_S256x128_S128x128_128_0)
        (shapeCast Cert.KernelIdeal.S1x128 x7 Cert.KernelIdeal.Facts₀.shapeCasts_S128_S1x128) x8
        (shapeCast Cert.KernelIdeal.S1x40 x9 Cert.KernelIdeal.Facts₀.shapeCasts_S40_S1x40)
      = Cert.ReferenceIdeal.ReadP.val_main_v65 (F := Ideal) x0 e x2 x3 x4 x5 x6 x7 x8 x9 := by
  rw [Cert.RefStages.ref_value Cert.KernelIdeal.Facts₀.slices_S256x256_S128x256_0_0 Cert.KernelIdeal.Facts₀.slices_S256x256_S128x256_128_0
    Cert.KernelIdeal.Facts₀.shapeCasts_S256_S1x256 Cert.KernelIdeal.Facts₀.shapeCasts_S50000_S50000x1 Cert.KernelIdeal.Facts₀.shapeCasts_S128_S1x128
    Cert.KernelIdeal.Facts₀.slices_S256x128_S128x128_0_0 Cert.KernelIdeal.Facts₀.slices_S256x128_S128x128_128_0 Cert.KernelIdeal.Facts₀.shapeCasts_S128_S1x128
    Cert.KernelIdeal.Facts₀.shapeCasts_S40_S1x40 x0 e x2 x3 x4 x5 x6 x7 x8 x9]
  rfl

end Cert.Bridge

end
-- ==== Proof.lean ====
/-
  The message-passing network of three layers, as a kernel program of three regions among host gathers and
  scatter-adds, against the same network in plain host operations, over the extended reals.

  Both programs gather the rows of the node table at the two ends of every edge, map each pair of rows through the
  edge layer `max (x_src · W1a + x_dst · W1b + b1) 0`, add the edge rows into the rows of their destination nodes,
  divide by the number of incoming edges (at least one), map through the node layer, gather that table's rows at the
  ends of every edge again and map each pair through the head: a second dense layer with the positive part, a third
  dense layer, and the logarithm of the softmax of each row. The kernel program multiplies the two gathered arrays
  into the upper and the lower half of a weight matrix and adds the products, where the reference concatenates them
  and multiplies once: a sum over 256 terms split into two sums over 128, which needs no finiteness. The kernel
  program's gather fills a row with the fill word where an index is out of the table's range, the reference's gather
  clamps the index; under the precondition's index range `0 ≤ edge_index < 50000` both read the indexed row.

  Each region's output array is one whole-array function of the arrays the region reads (a layer), the host stretches
  between the regions are read as functions of the argument arrays, and the reference's stages are the same layers of
  the same arrays; the three frames are the generated ones, the reference's run is read from its operation list.
-/
import proofs.«428226_j5557687681586_1_alg».proof.Defs
import proofs.«428226_j5557687681586_1_alg».proof.Proof.Gen.Kernel
import proofs.«428226_j5557687681586_1_alg».proof.Proof.Gen.Kernel.Frame
import proofs.«428226_j5557687681586_1_alg».proof.Proof.Gen.KernelIdeal
import proofs.«428226_j5557687681586_1_alg».proof.Proof.Gen.KernelIdeal.Frame
import proofs.«428226_j5557687681586_1_alg».proof.Proof.Gen.ReferenceIdeal
import proofs.«428226_j5557687681586_1_alg».proof.Proof.Gen.Pre_finite_inputs
import proofs.«428226_j5557687681586_1_alg».proof.Proof.KernelRun
import proofs.«428226_j5557687681586_1_alg».proof.Proof.KernelFold
import proofs.«428226_j5557687681586_1_alg».proof.Proof.RefRunHand
import proofs.«428226_j5557687681586_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueH.run (F := Ideal) m ρ)

/-- Both programs end with the composed network of the argument arrays in their result buffers. -/
theorem algebraic : Cert.algebraic_KernelIdeal_ReferenceIdeal := by
  intro m ρ m' ρ' hpre hagree
  refine ⟨fun c => Cert.KernelIdeal.Gen.W11 m ρ c (Proc.devRef .tc Cert.KernelIdeal.main_v26),
    Cert.KernelIdeal.GenRun.run_result m ρ, ?_⟩
  refine (θ_run Cert.ReferenceIdeal.defs _ _).mono (fun _ h c => ⟨(h c).1.trans ?_, (h c).2⟩)
    (Cert.ReferenceIdeal.ValueH.run (F := Ideal) m' ρ')
  obtain ⟨a0, a1, a2, a3, a4, a5, a6, a7, a8, a9⟩ := hagree c
  rw [a0, a1, a2, a3, a4, a5, a6, a7, a8, a9]
  exact ((Cert.KernelIdeal.Fold.kernel_value m ρ c hpre).trans (Cert.Bridge.kernel_net_eq_ref _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
